-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v74)) (v2 : (c : Dev Cert.KernelIdeal.nD) → Buf (Elt Ideal) ((c.tc : Thread Cert.KernelIdeal.nD Cert.KernelIdeal.τ).loc Cert.KernelIdeal.main_v70)) (v3 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_v70) = v2 c
          ∧ r.2.mem ((c.tc : Thread Cert.KernelIdeal.nD Cert.KernelIdeal.τ).loc Cert.KernelIdeal.main_v71) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2x524288 : Shape := ⟨2, ![2, 524288]⟩
abbrev S512x256 : Shape := ⟨2, ![512, 256]⟩
abbrev S256 : Shape := ⟨1, ![256]⟩
abbrev S256x128 : Shape := ⟨2, ![256, 128]⟩
abbrev S128 : Shape := ⟨1, ![128]⟩
abbrev S16384x128 : Shape := ⟨2, ![16384, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S16384x128 : S_.BroadcastsInDim S16384x128 (![] : Fin 0 → Fin S16384x128.rank)
  reducesTo_S16384x128_S_d0_1 : S16384x128.ReducesTo [0, 1] S_

variable [Facts]

def fn_part2 {F : FTy → Type} [FloatOps F] (main_arg8 : FVec F S256x128 .f32) (main_arg9 : FVec F S128 .f32) (main_arg10 : FVec F S16384x128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S16384x128 .f32 := Host.absf main_arg10
  let main_cst_16 : FVec F S_ .f32 := constant S_ .f32 0x7F800000#32
  let main_v45 : FVec F S16384x128 .f32 := broadcastInDim S16384x128 ![] bcast_S_S16384x128 main_cst_16
  let main_v46 : IVec S16384x128 1 := cmpf .olt main_v44 main_v45
  let main_c_17 : IVec S_ 1 := constantI S_ 1 1#1
  let main_v47 : IVec S_ 1 := (fun x v => Host.reduce IntOp.andi x v reducesTo_S16384x128_S_d0_1 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S256x128 .f32) (main_arg8 : FVec F S256x128 .f32) (main_arg9 : FVec F S128 .f32) (main_arg10 : FVec F S16384x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S16384x512 .f32) (main_arg1 : IVec S2x524288 32) (main_arg2 : FVec F S512x256 .f32) (main_arg3 : FVec F S256 .f32) (main_arg4 : FVec F S256x128 .f32) (main_arg5 : FVec F S256x128 .f32) (main_arg6 : FVec F S128 .f32) (main_arg7 : FVec F S256x128 .f32) (main_arg8 : FVec F S256x128 .f32) (main_arg9 : FVec F S128 .f32) (main_arg10 : FVec F S16384x128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_v13 main_v16
-- ==== Kernel.lean ====
abbrev S16384x512 : Shape := ⟨2, ![16384, 512]⟩
abbrev S2x524288 : Shape := ⟨2, ![2, 524288]⟩
abbrev S512x256 : Shape := ⟨2, ![512, 256]⟩
abbrev S256 : Shape := ⟨1, ![256]⟩
abbrev S256x128 : Shape := ⟨2, ![256, 128]⟩
abbrev S128 : Shape := ⟨1, ![128]⟩
abbrev S16384x128 : Shape := ⟨2, ![16384, 128]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S1x256 : Shape := ⟨2, ![1, 256]⟩
abbrev S16384x256 : Shape := ⟨2, ![16384, 256]⟩
abbrev S2048x512 : Shape := ⟨2, ![2048, 512]⟩
abbrev S2048x256 : Shape := ⟨2, ![2048, 256]⟩
abbrev S540672x256 : Shape := ⟨2, ![540672, 256]⟩
abbrev S524288x1 : Shape := ⟨2, ![524288, 1]⟩
abbrev S524288x256 : Shape := ⟨2, ![524288, 256]⟩
abbrev S512x128 : Shape := ⟨2, ![512, 128]⟩
abbrev S16384x16384 : Shape := ⟨2, ![16384, 16384]⟩
abbrev S1024x128 : Shape := ⟨2, ![1024, 128]⟩
abbrev S2048x128 : Shape := ⟨2, ![2048, 128]⟩
abbrev S1024x2048 : Shape := ⟨2, ![1024, 2048]⟩

abbrev nBuf : Space → Nat
  | .hbm => 105
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S2x524288, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S256x128, .f32⟩
  | .hbm, ⟨9, _⟩ => ⟨S128, .f32⟩
  | .hbm, ⟨10, _⟩ => ⟨S16384x128, .f32⟩
  | .hbm, ⟨11, _⟩ => ⟨S16384, .i32⟩
  | .hbm, ⟨12, _⟩ => ⟨S1x524288, .i32⟩
  | .hbm, ⟨13, _⟩ => ⟨S524288, .i32⟩
  | .hbm, ⟨14, _⟩ => ⟨S540672, .i32⟩
  | .hbm, ⟨15, _⟩ => ⟨S1x524288, .i32⟩
  | .hbm, ⟨16, _⟩ => ⟨S524288, .i32⟩
  | .hbm, ⟨17, _⟩ => ⟨S540672, .i32⟩
  | .hbm, ⟨18, _⟩ => ⟨S_, .f32⟩
  | .hbm, ⟨19, _⟩ => ⟨S540672, .f32⟩
  | .hbm, ⟨20, _⟩ => ⟨S_, .f32⟩
  | .hbm, ⟨21, _⟩ => ⟨S16384, .f32⟩
  | .hbm, ⟨22, _⟩ => ⟨S540672x1, .i32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .i1⟩
  | .hbm, ⟨27, _⟩ => ⟨S16384, .f32⟩
  | .hbm, ⟨28, _⟩ => ⟨S_, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S_, .i32⟩
  | .hbm, ⟨33, _⟩ => ⟨S540672, .i32⟩
  | .hbm, ⟨34, _⟩ => ⟨S540672, .i1⟩
  | .hbm, ⟨35, _⟩ => ⟨S_, .i32⟩
  | .hbm, ⟨36, _⟩ => ⟨S540672, .i32⟩
  | .hbm, ⟨37, _⟩ => ⟨S540672, .i32⟩
  | .hbm, ⟨38, _⟩ => ⟨S540672, .i32⟩
  | .hbm, ⟨39, _⟩ => ⟨S540672x1, .i32⟩
  | .hbm, ⟨40, _⟩ => ⟨S540672, .f32⟩
  | .hbm, ⟨41, _⟩ => ⟨S_, .i32⟩
  | .hbm, ⟨42, _⟩ => ⟨S540672, .i32⟩
  | .hbm, ⟨43, _⟩ => ⟨S540672, .i1⟩
  | .hbm, ⟨44, _⟩ => ⟨S_, .i32⟩
  | .hbm, ⟨45, _⟩ => ⟨S540672, .i32⟩
  | .hbm, ⟨46, _⟩ => ⟨S540672, .i32⟩
  | .hbm, ⟨47, _⟩ => ⟨S540672, .i32⟩
  | .hbm, ⟨48, _⟩ => ⟨S540672x1, .i32⟩
  | .hbm, ⟨49, _⟩ => ⟨S540672, .f32⟩
  | .hbm, ⟨50, _⟩ => ⟨S540672, .f32⟩
  | .hbm, ⟨51, _⟩ => ⟨S_, .f32⟩
  | .hbm, ⟨52, _⟩ => ⟨S256, .f32⟩
  | .hbm, ⟨53, _⟩ => ⟨S1x256, .f32⟩
  | .hbm, ⟨54, _⟩ => ⟨S16384x256, .f32⟩
  | .hbm, ⟨55, _⟩ => ⟨S_, .i32⟩
  | .hbm, ⟨56, _⟩ => ⟨S540672, .i32⟩
  | .hbm, ⟨57, _⟩ => ⟨S540672, .i1⟩
  | .hbm, ⟨58, _⟩ => ⟨S_, .i32⟩
  | .hbm, ⟨59, _⟩ => ⟨S540672, .i32⟩
  | .hbm, ⟨60, _⟩ => ⟨S540672, .i32⟩
  | .hbm, ⟨61, _⟩ => ⟨S540672, .i32⟩
  | .hbm, ⟨62, _⟩ => ⟨S540672x1, .i32⟩
  | .hbm, ⟨63, _⟩ => ⟨S540672x256, .f32⟩
  | .hbm, ⟨64, _⟩ => ⟨S540672x1, .f32⟩
  | .hbm, ⟨65, _⟩ => ⟨S540672x256, .f32⟩
  | .hbm, ⟨66, _⟩ => ⟨S540672x256, .f32⟩
  | .hbm, ⟨67, _⟩ => ⟨S_, .f32⟩
  | .hbm, ⟨68, _⟩ => ⟨S16384x256, .f32⟩
  | .hbm, ⟨69, _⟩ => ⟨S540672x1, .i32⟩
  | .hbm, ⟨70, _⟩ => ⟨S16384x256, .f32⟩
  | .hbm, ⟨71, _⟩ => ⟨S1x256, .f32⟩
  | .hbm, ⟨72, _⟩ => ⟨S16384x256, .f32⟩
  | .hbm, ⟨73, _⟩ => ⟨S16384x256, .f32⟩
  | .hbm, ⟨74, _⟩ => ⟨S1x524288, .i32⟩
  | .hbm, ⟨75, _⟩ => ⟨S524288, .i32⟩
  | .hbm, ⟨76, _⟩ => ⟨S_, .i32⟩
  | .hbm, ⟨77, _⟩ => ⟨S524288, .i32⟩
  | .hbm, ⟨78, _⟩ => ⟨S524288, .i1⟩
  | .hbm, ⟨79, _⟩ => ⟨S_, .i32⟩
  | .hbm, ⟨80, _⟩ => ⟨S524288, .i32⟩
  | .hbm, ⟨81, _⟩ => ⟨S524288, .i32⟩
  | .hbm, ⟨82, _⟩ => ⟨S524288, .i32⟩
  | .hbm, ⟨83, _⟩ => ⟨S524288x1, .i32⟩
  | .hbm, ⟨84, _⟩ => ⟨S524288x256, .f32⟩
  | .hbm, ⟨85, _⟩ => ⟨S1x524288, .i32⟩
  | .hbm, ⟨86, _⟩ => ⟨S524288, .i32⟩
  | .hbm, ⟨87, _⟩ => ⟨S_, .f32⟩
  | .hbm, ⟨88, _⟩ => ⟨S16384x256, .f32⟩
  | .hbm, ⟨89, _⟩ => ⟨S524288x1, .i32⟩
  | .hbm, ⟨90, _⟩ => ⟨S16384x256, .f32⟩
  | .hbm, ⟨91, _⟩ => ⟨S16384x512, .f32⟩
  | .hbm, ⟨92, _⟩ => ⟨S512x128, .f32⟩
  | .hbm, ⟨93, _⟩ => ⟨S512x128, .f32⟩
  | .hbm, ⟨94, _⟩ => ⟨S512x256, .f32⟩
  | .hbm, ⟨95, _⟩ => ⟨S256, .f32⟩
  | .hbm, ⟨96, _⟩ => ⟨S1x256, .f32⟩
  | .hbm, ⟨97, _⟩ => ⟨S16384x256, .f32⟩
  | .hbm, ⟨98, _⟩ => ⟨S16384x128, .f32⟩
  | .hbm, ⟨99, _⟩ => ⟨S16384x128, .f32⟩
  | .hbm, ⟨100, _⟩ => ⟨S16384x128, .f32⟩
  | .hbm, ⟨101, _⟩ => ⟨S16384x128, .f32⟩
  | .hbm, ⟨102, _⟩ => ⟨S16384x128, .f32⟩
  | .hbm, ⟨103, _⟩ => ⟨S16384x128, .bf16⟩
  | .hbm, ⟨104, _⟩ => ⟨S16384x16384, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | .local _ .vmem, ⟨6, _⟩ => ⟨S2048x512, .f32⟩
  | .local _ .vmem, ⟨7, _⟩ => ⟨S2048x512, .f32⟩
  | .local _ .vmem, ⟨8, _⟩ => ⟨S512x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S1024x128, .bf16⟩
  | .local _ .vmem, ⟨13, _⟩ => ⟨S1024x128, .bf16⟩
  | .local _ .vmem, ⟨14, _⟩ => ⟨S2048x128, .bf16⟩
  | .local _ .vmem, ⟨15, _⟩ => ⟨S2048x128, .bf16⟩
  | .local _ .vmem, ⟨16, _⟩ => ⟨S1024x2048, .f32⟩
  | .local _ .vmem, ⟨17, _⟩ => ⟨S1024x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S_S256 : S_.BroadcastsInDim S256 (![] : Fin 0 → Fin S256.rank)
  shapeCasts_S256_S1x256 : S256.ShapeCasts S1x256
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  bcast_S540672x1_S540672x256_0_1 : S540672x1.BroadcastsInDim S540672x256 (![0, 1] : Fin 2 → Fin S540672x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S524288 : S_.BroadcastsInDim S524288 (![] : Fin 0 → Fin S524288.rank)
  bcast_S524288_S524288x1_0 : S524288.BroadcastsInDim S524288x1 (![0] : Fin 1 → Fin S524288x1.rank)
  concatenates_S16384x256_S16384x256_S16384x512_d1 : Shape.Concatenates [S16384x256, S16384x256] S16384x512 1
  concatenates_S256x128_S256x128_S512x128_d0 : Shape.Concatenates [S256x128, S256x128] S512x128 0
  concatenates_S512x128_S512x128_S512x256_d1 : Shape.Concatenates [S512x128, S512x128] S512x256 1
  concatenates_S128_S128_S256_d0 : Shape.Concatenates [S128, S128] S256 0
  shapeCasts_S2048x512_S2048x512 : S2048x512.ShapeCasts S2048x512
  shapeCasts_S512x256_S512x256 : S512x256.ShapeCasts S512x256
  slices_S16384x256_S16384x128_0_0 : S16384x256.Slices ![0, 0] S16384x128
  slices_S16384x256_S16384x128_0_128 : S16384x256.Slices ![0, 128] S16384x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x2048_S1024x2048_0_0 : ∀ a, (![0, 0] : Fin 2 → Nat) a + S1024x2048.size a ≤ S1024x2048.size a
  h_S1024x2048 : 0 < S1024x2048.numel
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S2048x512_S512x256_S2048x256_1_0_0_1_n_n_wf : DotDims.WF S2048x512 S512x256 S2048x256 [1] [0] [0] [1] [] []
  gather_S16384x256_S540672x1_S540672x256_1_0_n_n_0_1_1256_wf : GatherDims.WF S16384x256 S540672x1 S540672x256 [1] [0] [] [0] [] 1 ![1, 256]
  scatter_S16384x256_S540672x1_S540672x256_1_0_0_1_wf : ScatterDims.WF S16384x256 S540672x1 S540672x256 [1] [0] [0] 1
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x256.size a
  hwx0_3 : ∀ i : grid0.Coords, EltTy.bits .f32 = 32 ∨ (Rect.block (s := S16384x256) S2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S16384x512.size a
  hwx1_0 : ∀ i : grid1.Coords, EltTy.bits .f32 = 32 ∨ (Rect.block (s := S16384x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S16384x256.size a
  hwx1_3 : ∀ i : grid1.Coords, EltTy.bits .f32 = 32 ∨ (Rect.block (s := S16384x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S16384x128.size a
  hwx2_0 : ∀ i : grid2.Coords, EltTy.bits .bf16 = 32 ∨ (Rect.block (s := S16384x128) S1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .bf16 = 32 ∨ (Rect.block (s := S16384x128) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S16384x16384.size a
  hwx2_2 : ∀ i : grid2.Coords, EltTy.bits .f32 = 32 ∨ (Rect.block (s := S16384x16384) S1024x2048.size (cc2_transform_2 i) (hinb2_2 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S16384x256_S540672x1_S540672x256_1_0_n_n_0_1_1256 : GatherDims S16384x256 S540672x1 S540672x256 where
  offsetDims := [1]
  collapsedSliceDims := [0]
  operandBatchingDims := []
  startIndicesBatchingDims := []
  startIndexMap := [0]
  indexVectorDim := 1
  sliceSizes := ![1, 256]
  wf := gather_S16384x256_S540672x1_S540672x256_1_0_n_n_0_1_1256_wf
def scatter_S16384x256_S540672x1_S540672x256_1_0_0_1 : ScatterDims S16384x256 S540672x1 S540672x256 where
  updateWindowDims := [1]
  insertedWindowDims := [0]
  scatterDimsToOperandDims := [0]
  indexVectorDim := 1
  wf := scatter_S16384x256_S540672x1_S540672x256_1_0_0_1_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v63) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v68) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v75) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x512 : Shape := ⟨2, ![16384, 512]⟩
abbrev S2x524288 : Shape := ⟨2, ![2, 524288]⟩
abbrev S512x256 : Shape := ⟨2, ![512, 256]⟩
abbrev S256 : Shape := ⟨1, ![256]⟩
abbrev S256x128 : Shape := ⟨2, ![256, 128]⟩
abbrev S128 : Shape := ⟨1, ![128]⟩
abbrev S16384x128 : Shape := ⟨2, ![16384, 128]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S16384x256 : Shape := ⟨2, ![16384, 256]⟩
abbrev S540672x256 : Shape := ⟨2, ![540672, 256]⟩
abbrev S1x256 : Shape := ⟨2, ![1, 256]⟩
abbrev S524288x1 : Shape := ⟨2, ![524288, 1]⟩
abbrev S524288x256 : Shape := ⟨2, ![524288, 256]⟩
abbrev S1x128 : Shape := ⟨2, ![1, 128]⟩
abbrev S128x16384 : Shape := ⟨2, ![128, 16384]⟩
abbrev S16384x16384 : Shape := ⟨2, ![16384, 16384]⟩

abbrev nBuf : Space → Nat
  | .hbm => 130
  | .vmem => 0
  | .smem => 0
  | _ => 0

abbrev hbmTy0_0 (i : Nat) : BufTy := match i % 128 with
  | 0 => ⟨S16384x512, .f32⟩
  | 1 => ⟨S2x524288, .i32⟩
  | 2 => ⟨S512x256, .f32⟩
  | 3 => ⟨S256, .f32⟩
  | 4 => ⟨S256x128, .f32⟩
  | 5 => ⟨S256x128, .f32⟩
  | 6 => ⟨S128, .f32⟩
  | 7 => ⟨S256x128, .f32⟩
  | 8 => ⟨S256x128, .f32⟩
  | 9 => ⟨S128, .f32⟩
  | 10 => ⟨S16384x128, .f32⟩
  | 11 => ⟨S16384, .i32⟩
  | 12 => ⟨S1x524288, .i32⟩
  | 13 => ⟨S524288, .i32⟩
  | 14 => ⟨S540672, .i32⟩
  | 15 => ⟨S1x524288, .i32⟩
  | 16 => ⟨S524288, .i32⟩
  | 17 => ⟨S540672, .i32⟩
  | 18 => ⟨S_, .f32⟩
  | 19 => ⟨S540672, .f32⟩
  | 20 => ⟨S_, .f32⟩
  | 21 => ⟨S16384, .f32⟩
  | 22 => ⟨S540672x1, .i32⟩
  | 23 => ⟨S16384, .f32⟩
  | 24 => ⟨S_, .f32⟩
  | 25 => ⟨S16384, .f32⟩
  | 26 => ⟨S16384, .i1⟩
  | 27 => ⟨S16384, .f32⟩
  | 28 => ⟨S_, .f32⟩
  | 29 => ⟨S_, .f32⟩
  | 30 => ⟨S16384, .f32⟩
  | 31 => ⟨S16384, .f32⟩
  | 32 => ⟨S_, .i32⟩
  | 33 => ⟨S540672, .i32⟩
  | 34 => ⟨S540672, .i1⟩
  | 35 => ⟨S_, .i32⟩
  | 36 => ⟨S540672, .i32⟩
  | 37 => ⟨S540672, .i32⟩
  | 38 => ⟨S540672, .i32⟩
  | 39 => ⟨S540672x1, .i32⟩
  | 40 => ⟨S540672, .f32⟩
  | 41 => ⟨S_, .i32⟩
  | 42 => ⟨S540672, .i32⟩
  | 43 => ⟨S540672, .i1⟩
  | 44 => ⟨S_, .i32⟩
  | 45 => ⟨S540672, .i32⟩
  | 46 => ⟨S540672, .i32⟩
  | 47 => ⟨S540672, .i32⟩
  | 48 => ⟨S540672x1, .i32⟩
  | 49 => ⟨S540672, .f32⟩
  | 50 => ⟨S540672, .f32⟩
  | 51 => ⟨S16384x256, .f32⟩
  | 52 => ⟨S_, .i32⟩
  | 53 => ⟨S540672, .i32⟩
  | 54 => ⟨S540672, .i1⟩
  | 55 => ⟨S_, .i32⟩
  | 56 => ⟨S540672, .i32⟩
  | 57 => ⟨S540672, .i32⟩
  | 58 => ⟨S540672, .i32⟩
  | 59 => ⟨S540672x1, .i32⟩
  | 60 => ⟨S540672x256, .f32⟩
  | 61 => ⟨S540672x1, .f32⟩
  | 62 => ⟨S540672x256, .f32⟩
  | 63 => ⟨S540672x256, .f32⟩
  | 64 => ⟨S_, .f32⟩
  | 65 => ⟨S16384x256, .f32⟩
  | 66 => ⟨S540672x1, .i32⟩
  | 67 => ⟨S16384x256, .f32⟩
  | 68 => ⟨S1x256, .f32⟩
  | 69 => ⟨S16384x256, .f32⟩
  | 70 => ⟨S16384x256, .f32⟩
  | 71 => ⟨S1x524288, .i32⟩
  | 72 => ⟨S524288, .i32⟩
  | 73 => ⟨S_, .i32⟩
  | 74 => ⟨S524288, .i32⟩
  | 75 => ⟨S524288, .i1⟩
  | 76 => ⟨S_, .i32⟩
  | 77 => ⟨S524288, .i32⟩
  | 78 => ⟨S524288, .i32⟩
  | 79 => ⟨S524288, .i32⟩
  | 80 => ⟨S524288x1, .i32⟩
  | 81 => ⟨S524288x256, .f32⟩
  | 82 => ⟨S1x524288, .i32⟩
  | 83 => ⟨S524288, .i32⟩
  | 84 => ⟨S_, .f32⟩
  | 85 => ⟨S16384x256, .f32⟩
  | 86 => ⟨S524288x1, .i32⟩
  | 87 => ⟨S16384x256, .f32⟩
  | 88 => ⟨S16384x128, .f32⟩
  | 89 => ⟨S16384x128, .f32⟩
  | 90 => ⟨S16384x128, .f32⟩
  | 91 => ⟨S1x128, .f32⟩
  | 92 => ⟨S16384x128, .f32⟩
  | 93 => ⟨S16384x128, .f32⟩
  | 94 => ⟨S1x524288, .i32⟩
  | 95 => ⟨S524288, .i32⟩
  | 96 => ⟨S_, .i32⟩
  | 97 => ⟨S524288, .i32⟩
  | 98 => ⟨S524288, .i1⟩
  | 99 => ⟨S_, .i32⟩
  | 100 => ⟨S524288, .i32⟩
  | 101 => ⟨S524288, .i32⟩
  | 102 => ⟨S524288, .i32⟩
  | 103 => ⟨S524288x1, .i32⟩
  | 104 => ⟨S524288x256, .f32⟩
  | 105 => ⟨S1x524288, .i32⟩
  | 106 => ⟨S524288, .i32⟩
  | 107 => ⟨S_, .f32⟩
  | 108 => ⟨S16384x256, .f32⟩
  | 109 => ⟨S524288x1, .i32⟩
  | 110 => ⟨S16384x256, .f32⟩
  | 111 => ⟨S16384x128, .f32⟩
  | 112 => ⟨S16384x128, .f32⟩
  | 113 => ⟨S16384x128, .f32⟩
  | 114 => ⟨S1x128, .f32⟩
  | 115 => ⟨S16384x128, .f32⟩
  | 116 => ⟨S16384x128, .f32⟩
  | 117 => ⟨S16384x128, .f32⟩
  | 118 => ⟨S16384x128, .f32⟩
  | 119 => ⟨S16384x128, .f32⟩
  | 120 => ⟨S128x16384, .f32⟩
  | 121 => ⟨S16384x16384, .f32⟩
  | 122 => ⟨S16384x16384, .f32⟩
  | 123 => ⟨S16384x16384, .f32⟩
  | 124 => ⟨S_, .f32⟩
  | 125 => ⟨S16384x16384, .f32⟩
  | 126 => ⟨S16384x16384, .f32⟩
  | 127 => ⟨S_, .f32⟩
  | _ => ⟨S16384x512, .f32⟩

abbrev hbmTy0_1 (i : Nat) : BufTy := match i % 128 with
  | 0 => ⟨S16384x16384, .f32⟩
  | 1 => ⟨S16384x16384, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_c_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_15 : Ref sig .tc := ⟨.hbm, 124, rfl⟩
abbrev main_v94 : Ref sig .tc := ⟨.hbm, 125, rfl⟩
abbrev main_v95 : Ref sig .tc := ⟨.hbm, 126, rfl⟩
abbrev main_cst_16 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x256_0_1 : S540672x1.BroadcastsInDim S540672x256 (![0, 1] : Fin 2 → Fin S540672x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S524288 : S_.BroadcastsInDim S524288 (![] : Fin 0 → Fin S524288.rank)
  bcast_S524288_S524288x1_0 : S524288.BroadcastsInDim S524288x1 (![0] : Fin 1 → Fin S524288x1.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  transposes_S16384x128_S128x16384_1_0 : S16384x128.Transposes [1, 0] S128x16384
  bcast_S_S16384x16384 : S_.BroadcastsInDim S16384x16384 (![] : Fin 0 → Fin S16384x16384.rank)
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x512_S512x256_S16384x256_1_0_0_1_n_n_wf : DotDims.WF S16384x512 S512x256 S16384x256 [1] [0] [0] [1] [] []
  gather_S16384x256_S540672x1_S540672x256_1_0_n_n_0_1_1256_wf : GatherDims.WF S16384x256 S540672x1 S540672x256 [1] [0] [] [0] [] 1 ![1, 256]
  scatter_S16384x256_S540672x1_S540672x256_1_0_0_1_wf : ScatterDims.WF S16384x256 S540672x1 S540672x256 [1] [0] [0] 1
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S16384x256_S256x128_S16384x128_1_0_0_1_n_n_wf : DotDims.WF S16384x256 S256x128 S16384x128 [1] [0] [0] [1] [] []
  dot_S16384x128_S128x16384_S16384x16384_1_0_0_1_n_n_wf : DotDims.WF S16384x128 S128x16384 S16384x16384 [1] [0] [0] [1] [] []

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def gather_S16384x256_S540672x1_S540672x256_1_0_n_n_0_1_1256 : GatherDims S16384x256 S540672x1 S540672x256 where
  offsetDims := [1]
  collapsedSliceDims := [0]
  operandBatchingDims := []
  startIndicesBatchingDims := []
  startIndexMap := [0]
  indexVectorDim := 1
  sliceSizes := ![1, 256]
  wf := gather_S16384x256_S540672x1_S540672x256_1_0_n_n_0_1_1256_wf
def scatter_S16384x256_S540672x1_S540672x256_1_0_0_1 : ScatterDims S16384x256 S540672x1 S540672x256 where
  updateWindowDims := [1]
  insertedWindowDims := [0]
  scatterDimsToOperandDims := [0]
  indexVectorDim := 1
  wf := scatter_S16384x256_S540672x1_S540672x256_1_0_0_1_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.K.Body0.lean ====
/-
  Region 0 of @main (the first projection, `x · W_gc1` plus a zero row): the kernel body at one grid point.

  At point `t` the pipeline hands the body the block of 2048 rows of `x` that `t` indexes, the whole of the
  weight matrix and the whole 1 × 256 row; the body stores ONE value into the output block, the payload
  `k0_pay1` of the three loads (it also loads the output block, and discards what it read). So after the
  body the output's staging buffer holds that payload of the three input blocks, whatever it held before,
  and the inputs' buffers are untouched. The proof data say exactly this, and the body obligation follows
  from one symbolic run of the body.
-/
import proofs.«101961_j3100966387958_1_alg».proof.Proof.Gen.Kernel.Launch
import proofs.«101961_j3100966387958_1_alg».proof.Proof.Gen.Kernel.Skeleton
import proofs.«101961_j3100966387958_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is the entry contents and whose body
    leaves the block in place. -/
theorem found0_0 {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)

/-- The whole-block rectangles the body loads and stores through. -/
abbrev rX0 : Rect S2048x512 := Rect.unit (s := S2048x512) ![0, 0] S2048x512.size inb_S2048x512_S2048x512_0_0
abbrev rW0 : Rect S512x256 := Rect.unit (s := S512x256) ![0, 0] S512x256.size inb_S512x256_S512x256_0_0
abbrev rB0 : Rect S1x256 := Rect.unit (s := S1x256) ![0, 0] S1x256.size inb_S1x256_S1x256_0_0
abbrev rO0 : Rect S2048x256 := Rect.unit (s := S2048x256) ![0, 0] S2048x256.size inb_S2048x256_S2048x256_0_0

/-- What the body leaves in the output block: its one store, of the payload of the three loads. -/
def stored0 (x0 : Vec F S2048x512 .f32) (x1 : Vec F S512x256 .f32) (x2 : Vec F S1x256 .f32) : Vec F S2048x256 .f32 :=
  View.canon [⟨rO0, k0_pay1 (View.ld x0 rX0) (View.ld x1 rW0) (View.ld x2 rB0)⟩]

/-- The one store covers the block. -/
theorem covers0 (p0 : Vec F S2048x256 .f32) (y : S2048x256.Idx) :
    ∃ pc ∈ ([⟨rO0, p0⟩] : List (View.Piece (Elt F) S2048x256 .f32)), y ∈ pc.1.set :=
  View.cover_of_tiled [⟨rO0, p0⟩] S2048x256.size (by rfl) y

set_option maxHeartbeats 1000000 in
/-- The body on whole staging memrefs, the inputs' at contents `x0 x1 x2` and the output's at anything, runs to the
    continuation holding the inputs' as they were and the output's at `stored0 x0 x1 x2`. -/
theorem runs0 (c : Dev nD) (E : Set ℕ) (i : grid0.Coords)
    (a1 : Memref sig .tc .vmem S2048x512 .f32) (h1 : a1.IsWhole) (a2 : Memref sig .tc .vmem S512x256 .f32) (h2 : a2.IsWhole)
    (a3 : Memref sig .tc .vmem S1x256 .f32) (h3 : a3.IsWhole) (a4 : Memref sig .tc .vmem S2048x256 .f32) (h4 : a4.IsWhole)
    (x0 : Vec F S2048x512 .f32) (x1 : Vec F S512x256 .f32) (x2 : Vec F S1x256 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (stored0 x0 x1 x2)) -∗ K ⟨⟩))
      ⊢ wp frame (wpE (defs₀ (F := F)) Variants.none c none) E (cc0__matmul_bias_kernel i a1 h1 a2 h2 a3 h3 a4 h4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-- The proof data of pipeline 0 on core `c`: the arrays as the region finds them; after the body at point `t` each
    input's buffer at its block, the output's at `stored0` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => stored0 (blockAt0 V c 0 t) (blockAt0 V c 1 t) (blockAt0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blockAt0 V c 0 t := by dsimp only [dat0]
theorem after0_1 (c : Dev nD) (t : Fin cfg0.N) : (dat0 V c).after 1 t = blockAt0 V c 1 t := by dsimp only [dat0]
theorem after0_2 (c : Dev nD) (t : Fin cfg0.N) : (dat0 V c).after 2 t = blockAt0 V c 2 t := by dsimp only [dat0]
theorem after0_3 (c : Dev nD) (t : Fin cfg0.N) :
    (dat0 V c).after 3 t = stored0 (blockAt0 V c 0 t) (blockAt0 V c 1 t) (blockAt0 V c 2 t) := by dsimp only [dat0]

theorem before0_0 (c : Dev nD) (t : Fin cfg0.N) (d) : (dat0 V c).before 0 t d = blockAt0 V c 0 t :=
  found0_0 V (dat0 V c) (A_eq0 V c 0) (after0_0 V c) t d
theorem before0_1 (c : Dev nD) (t : Fin cfg0.N) (d) : (dat0 V c).before 1 t d = blockAt0 V c 1 t :=
  found0_1 V (dat0 V c) (A_eq0 V c 1) (after0_1 V c) t d
theorem before0_2 (c : Dev nD) (t : Fin cfg0.N) (d) : (dat0 V c).before 2 t d = blockAt0 V c 2 t :=
  found0_2 V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `runs0` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (runs0 c Set.univ _ _ _ _ _ _ _ _ _ (blockAt0 V c 0 t) (blockAt0 V c 1 t) (blockAt0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1 of @main (the fused mean and log-variance projection: the joined features `[agg | h1]` times the 512 × 256 matrix of the four weight blocks, plus the joined bias row): the kernel body at one grid point.

  At point `t` the pipeline hands the body the block of 2048 rows of the joined features that `t` indexes, the whole of the
  weight matrix and the whole 1 × 256 row; the body stores ONE value into the output block, the payload
  `k1_pay1` of the three loads (it also loads the output block, and discards what it read). So after the
  body the output's staging buffer holds that payload of the three input blocks, whatever it held before,
  and the inputs' buffers are untouched. The proof data say exactly this, and the body obligation follows
  from one symbolic run of the body.
-/
import proofs.«101961_j3100966387958_1_alg».proof.Proof.Gen.Kernel.Launch
import proofs.«101961_j3100966387958_1_alg».proof.Proof.Gen.Kernel.Skeleton
import proofs.«101961_j3100966387958_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is the entry contents and whose body
    leaves the block in place. -/
theorem found1_0 {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-- The whole-block rectangles the body loads and stores through. -/
abbrev rX1 : Rect S2048x512 := Rect.unit (s := S2048x512) ![0, 0] S2048x512.size inb_S2048x512_S2048x512_0_0
abbrev rW1 : Rect S512x256 := Rect.unit (s := S512x256) ![0, 0] S512x256.size inb_S512x256_S512x256_0_0
abbrev rB1 : Rect S1x256 := Rect.unit (s := S1x256) ![0, 0] S1x256.size inb_S1x256_S1x256_0_0
abbrev rO1 : Rect S2048x256 := Rect.unit (s := S2048x256) ![0, 0] S2048x256.size inb_S2048x256_S2048x256_0_0

/-- What the body leaves in the output block: its one store, of the payload of the three loads. -/
def stored1 (x0 : Vec F S2048x512 .f32) (x1 : Vec F S512x256 .f32) (x2 : Vec F S1x256 .f32) : Vec F S2048x256 .f32 :=
  View.canon [⟨rO1, k1_pay1 (View.ld x0 rX1) (View.ld x1 rW1) (View.ld x2 rB1)⟩]

/-- The one store covers the block. -/
theorem covers1 (p0 : Vec F S2048x256 .f32) (y : S2048x256.Idx) :
    ∃ pc ∈ ([⟨rO1, p0⟩] : List (View.Piece (Elt F) S2048x256 .f32)), y ∈ pc.1.set :=
  View.cover_of_tiled [⟨rO1, p0⟩] S2048x256.size (by rfl) y

set_option maxHeartbeats 1000000 in
/-- The body on whole staging memrefs, the inputs' at contents `x0 x1 x2` and the output's at anything, runs to the
    continuation holding the inputs' as they were and the output's at `stored1 x0 x1 x2`. -/
theorem runs1 (c : Dev nD) (E : Set ℕ) (i : grid1.Coords)
    (a1 : Memref sig .tc .vmem S2048x512 .f32) (h1 : a1.IsWhole) (a2 : Memref sig .tc .vmem S512x256 .f32) (h2 : a2.IsWhole)
    (a3 : Memref sig .tc .vmem S1x256 .f32) (h3 : a3.IsWhole) (a4 : Memref sig .tc .vmem S2048x256 .f32) (h4 : a4.IsWhole)
    (x0 : Vec F S2048x512 .f32) (x1 : Vec F S512x256 .f32) (x2 : Vec F S1x256 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (stored1 x0 x1 x2)) -∗ K ⟨⟩))
      ⊢ wp frame (wpE (defs₀ (F := F)) Variants.none c none) E (cc1__matmul_bias_kernel i a1 h1 a2 h2 a3 h3 a4 h4) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-- The proof data of pipeline 1 on core `c`: the arrays as the region finds them; after the body at point `t` each
    input's buffer at its block, the output's at `stored1` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => stored1 (blockAt1 V c 0 t) (blockAt1 V c 1 t) (blockAt1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blockAt1 V c 0 t := by dsimp only [dat1]
theorem after1_1 (c : Dev nD) (t : Fin cfg1.N) : (dat1 V c).after 1 t = blockAt1 V c 1 t := by dsimp only [dat1]
theorem after1_2 (c : Dev nD) (t : Fin cfg1.N) : (dat1 V c).after 2 t = blockAt1 V c 2 t := by dsimp only [dat1]
theorem after1_3 (c : Dev nD) (t : Fin cfg1.N) :
    (dat1 V c).after 3 t = stored1 (blockAt1 V c 0 t) (blockAt1 V c 1 t) (blockAt1 V c 2 t) := by dsimp only [dat1]

theorem before1_0 (c : Dev nD) (t : Fin cfg1.N) (d) : (dat1 V c).before 0 t d = blockAt1 V c 0 t :=
  found1_0 V (dat1 V c) (A_eq1 V c 0) (after1_0 V c) t d
theorem before1_1 (c : Dev nD) (t : Fin cfg1.N) (d) : (dat1 V c).before 1 t d = blockAt1 V c 1 t :=
  found1_1 V (dat1 V c) (A_eq1 V c 1) (after1_1 V c) t d
theorem before1_2 (c : Dev nD) (t : Fin cfg1.N) (d) : (dat1 V c).before 2 t d = blockAt1 V c 2 t :=
  found1_2 V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `runs1` applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (runs1 c Set.univ _ _ _ _ _ _ _ _ _ (blockAt1 V c 0 t) (blockAt1 V c 1 t) (blockAt1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2 of @main (the decoder, `sigmoid (z · zᵀ)`): the kernel body at one grid point.

  The grid is 16 × 8; at point `(i, j)` the pipeline hands the body rows `1024·i …` of `z` through window 0 and rows
  `2048·j …` of the SAME array through window 1, and the body stores one value into the 1024 × 2048 output block:
  the payload `k2_pay1` of the two loads (it also loads the output block and discards what it read). Both input
  windows read one array, so the core holds that array in two halves of its share, one per window; the output's
  array is held whole.
-/
import proofs.«101961_j3100966387958_1_alg».proof.Proof.Gen.Kernel.Launch
import proofs.«101961_j3100966387958_1_alg».proof.Proof.Gen.Kernel.Skeleton
import proofs.«101961_j3100966387958_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved), for any proof data whose array is the entry contents and whose body
    leaves the block in place. -/
theorem found2_0 {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)

/-- The whole-block rectangles the body loads and stores through. -/
abbrev rI2 : Rect S1024x128 := Rect.unit (s := S1024x128) ![0, 0] S1024x128.size inb_S1024x128_S1024x128_0_0
abbrev rJ2 : Rect S2048x128 := Rect.unit (s := S2048x128) ![0, 0] S2048x128.size inb_S2048x128_S2048x128_0_0
abbrev rO2 : Rect S1024x2048 := Rect.unit (s := S1024x2048) ![0, 0] S1024x2048.size inb_S1024x2048_S1024x2048_0_0

/-- What the body leaves in the output block: its one store, of the payload of the two loads. -/
def stored2 (x0 : Vec F S1024x128 .bf16) (x1 : Vec F S2048x128 .bf16) : Vec F S1024x2048 .f32 :=
  View.canon [⟨rO2, k2_pay1 (View.ld x0 rI2) (View.ld x1 rJ2)⟩]

/-- The one store covers the block. -/
theorem covers2 (p0 : Vec F S1024x2048 .f32) (y : S1024x2048.Idx) :
    ∃ pc ∈ ([⟨rO2, p0⟩] : List (View.Piece (Elt F) S1024x2048 .f32)), y ∈ pc.1.set :=
  View.cover_of_tiled [⟨rO2, p0⟩] S1024x2048.size (by rfl) y

set_option maxHeartbeats 1000000 in
/-- The body on whole staging memrefs, the inputs' at contents `x0 x1` and the output's at anything, runs to the
    continuation holding the inputs' as they were and the output's at `stored2 x0 x1`. -/
theorem runs2 (c : Dev nD) (E : Set ℕ) (i : grid2.Coords)
    (a2 : Memref sig .tc .vmem S1024x128 .bf16) (h2 : a2.IsWhole) (a3 : Memref sig .tc .vmem S2048x128 .bf16) (h3 : a3.IsWhole)
    (a4 : Memref sig .tc .vmem S1024x2048 .f32) (h4 : a4.IsWhole)
    (x0 : Vec F S1024x128 .bf16) (x1 : Vec F S2048x128 .bf16) (K : PUnit → sProp 𝕄) :
    iprop(owns (c : Thread nD τ) a2 fullShare x0 ∗ owns (c : Thread nD τ) a3 fullShare x1
        ∗ (∃ d, owns (c : Thread nD τ) a4 fullShare d)
        ∗ (iprop(owns (c : Thread nD τ) a2 fullShare x0 ∗ owns (c : Thread nD τ) a3 fullShare x1
            ∗ owns (c : Thread nD τ) a4 fullShare (stored2 x0 x1)) -∗ K ⟨⟩))
      ⊢ wp frame (wpE (defs₀ (F := F)) Variants.none c none) E (cc2__adj_kernel i a2 h2 a3 h3 a4 h4) K := by
  simp only [cc2__adj_kernel_eq_skeleton]; unfold cc2__adj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers2 _)

/-- The proof data of pipeline 2 on core `c`: the arrays as the region finds them; after the body at point `t` each
    input's buffer at its block, the output's at `stored2` of the input blocks; the invariant the scoped rest and the
    generator register, untouched; nothing owed. The two input windows read ONE array: window 0 holds it at the left half
    of the full share, window 1 at the right half. -/
def dat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => stored2 (blockAt2 V c 0 t) (blockAt2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blockAt2 V c 0 t := by dsimp only [dat2]
theorem after2_1 (c : Dev nD) (t : Fin cfg2.N) : (dat2 V c).after 1 t = blockAt2 V c 1 t := by dsimp only [dat2]
theorem after2_2 (c : Dev nD) (t : Fin cfg2.N) :
    (dat2 V c).after 2 t = stored2 (blockAt2 V c 0 t) (blockAt2 V c 1 t) := by dsimp only [dat2]

theorem before2_0 (c : Dev nD) (t : Fin cfg2.N) (d) : (dat2 V c).before 0 t d = blockAt2 V c 0 t :=
  found2_0 V (dat2 V c) (A_eq2 V c 0) (after2_0 V c) t d
theorem before2_1 (c : Dev nD) (t : Fin cfg2.N) (d) : (dat2 V c).before 1 t d = blockAt2 V c 1 t :=
  found2_1 V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `runs2` applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (runs2 c Set.univ _ _ _ _ _ _ _ (blockAt2 V c 0 t) (blockAt2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Fold.lean ====
/-
  The contents of the TensorCore's unscoped buffers at every boundary of @main, from the launch memory to the return.

  @main is: three stretches of host operations (the normalisation coefficients of the edges), region 0 (the first
  projection), a long stretch of host operations (gather, scale, scatter-add, bias, the neighbour sum, the joins),
  region 1 (the fused projection), six host operations (the two halves of its result, the sample `z`, its narrowing),
  region 2 (the decoder). A stretch of host operations takes the contents to `StableHlo.after` of its operations; a
  region changes exactly one buffer, its result array, which ends at what the pipeline's write-backs leave there.
-/
import proofs.«101961_j3100966387958_1_alg».proof.Proof.K.Body0
import proofs.«101961_j3100966387958_1_alg».proof.Proof.K.Body1
import proofs.«101961_j3100966387958_1_alg».proof.Proof.K.Body2
import proofs.«101961_j3100966387958_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch, -/
abbrev W0 (c : Dev nD) : Valuation τ sig (Elt F) := fun b => m (c, b)
/-- after the first stretch of host operations, -/
abbrev W1 (c : Dev nD) : Valuation τ sig (Elt F) := StableHlo.after hostOps0 (W0 m c)
/-- after the inlined `where`, -/
abbrev W2 (c : Dev nD) : Valuation τ sig (Elt F) := StableHlo.after hostOps0_1 (W1 m c)
/-- and after the third stretch: what region 0 is entered from. -/
abbrev W3 (c : Dev nD) : Valuation τ sig (Elt F) := StableHlo.after hostOps0_2 (W2 m c)
/-- The same read at the TensorCore's references. -/
abbrev E0 : (c : Dev nD) → (b : Ref sig .tc) → Buf (Elt F) ((c : Thread nD τ).loc b) := fun c b => W3 m c b

/-- What region 0 leaves in its result array. -/
def out32 (c : Dev nD) : Buf (Elt F) ((c : Thread nD τ).loc main_v32) := (dat0 (E0 m) c).arrAt 3 cfg0.N
/-- After region 0: its result array at what the region leaves, every other buffer as entered. -/
def W4 (c : Dev nD) : Valuation τ sig (Elt F) := Function.update (W3 m c) main_v32 (out32 m c)
/-- After the long stretch: what region 1 is entered from. -/
abbrev W5 (c : Dev nD) : Valuation τ sig (Elt F) := StableHlo.after hostOps1 (W4 m c)
abbrev E1 : (c : Dev nD) → (b : Ref sig .tc) → Buf (Elt F) ((c : Thread nD τ).loc b) := fun c b => W5 m c b

/-- What region 1 leaves in its result array. -/
def out69 (c : Dev nD) : Buf (Elt F) ((c : Thread nD τ).loc main_v69) := (dat1 (E1 m) c).arrAt 3 cfg1.N
def W6 (c : Dev nD) : Valuation τ sig (Elt F) := Function.update (W5 m c) main_v69 (out69 m c)
/-- After the six host operations: what region 2 is entered from. -/
abbrev W7 (c : Dev nD) : Valuation τ sig (Elt F) := StableHlo.after hostOps2 (W6 m c)
abbrev E2 : (c : Dev nD) → (b : Ref sig .tc) → Buf (Elt F) ((c : Thread nD τ).loc b) := fun c b => W7 m c b

/-- What region 2 leaves in its result array. -/
def out76 (c : Dev nD) : Buf (Elt F) ((c : Thread nD τ).loc main_v76) := (dat2 (E2 m) c).arrAt 2 cfg2.N
/-- At the return. -/
def W8 (c : Dev nD) : Valuation τ sig (Elt F) := Function.update (W7 m c) main_v76 (out76 m c)

/-! ## A region's arrays at its exit -/

/-- At region 0's exit each of its arrays holds what the valuation after it says: an input array what it held at
    entry, the result array what the region leaves. -/
theorem exit0 (c : Dev nD) (w : Fin cfg0.W) : (dat0 (E0 m) c).arrAt w cfg0.N = W4 m c (Pipeline.arrRef spec0 w) := by
  match w with
  | ⟨0, _⟩ =>
    refine (((dat0 (E0 m) c).arrAt_in 0 rfl _).trans (A_eq0 (E0 m) c 0)).trans ?_
    unfold W4; exact (Function.update_of_ne (StableHlo.devRef_ne_of_ne (by decide)) _ _).symm
  | ⟨1, _⟩ =>
    refine (((dat0 (E0 m) c).arrAt_in 1 rfl _).trans (A_eq0 (E0 m) c 1)).trans ?_
    unfold W4; exact (Function.update_of_ne (StableHlo.devRef_ne_of_ne (by decide)) _ _).symm
  | ⟨2, _⟩ =>
    refine (((dat0 (E0 m) c).arrAt_in 2 rfl _).trans (A_eq0 (E0 m) c 2)).trans ?_
    unfold W4; exact (Function.update_of_ne (StableHlo.devRef_ne_of_ne (by decide)) _ _).symm
  | ⟨3, _⟩ =>
    show out32 m c = Function.update (W3 m c) (Proc.devRef .tc main_v32 : DevRef τ sig) (out32 m c) (Proc.devRef .tc main_v32)
    rw [Function.update_self]
/-- Off its arrays region 0 changes nothing. -/
theorem rest0 (c : Dev nD) : ∀ b, b ∉ Finset.univ.image (Pipeline.arrRef spec0) → (fun b : Ref sig .tc => W4 m c b) b = E0 m c b :=
  fun b hb => by
    have hne : b ≠ main_v32 := fun e => hb (by rw [e]; exact Finset.mem_image.mpr ⟨3, Finset.mem_univ _, rfl⟩)
    unfold W4
    exact Function.update_of_ne (StableHlo.devRef_ne_of_ne hne : (Proc.devRef .tc b : DevRef τ sig) ≠ Proc.devRef .tc main_v32) _ _

theorem exit1 (c : Dev nD) (w : Fin cfg1.W) : (dat1 (E1 m) c).arrAt w cfg1.N = W6 m c (Pipeline.arrRef spec1 w) := by
  match w with
  | ⟨0, _⟩ =>
    refine (((dat1 (E1 m) c).arrAt_in 0 rfl _).trans (A_eq1 (E1 m) c 0)).trans ?_
    unfold W6; exact (Function.update_of_ne (StableHlo.devRef_ne_of_ne (by decide)) _ _).symm
  | ⟨1, _⟩ =>
    refine (((dat1 (E1 m) c).arrAt_in 1 rfl _).trans (A_eq1 (E1 m) c 1)).trans ?_
    unfold W6; exact (Function.update_of_ne (StableHlo.devRef_ne_of_ne (by decide)) _ _).symm
  | ⟨2, _⟩ =>
    refine (((dat1 (E1 m) c).arrAt_in 2 rfl _).trans (A_eq1 (E1 m) c 2)).trans ?_
    unfold W6; exact (Function.update_of_ne (StableHlo.devRef_ne_of_ne (by decide)) _ _).symm
  | ⟨3, _⟩ =>
    show out69 m c = Function.update (W5 m c) (Proc.devRef .tc main_v69 : DevRef τ sig) (out69 m c) (Proc.devRef .tc main_v69)
    rw [Function.update_self]
theorem rest1 (c : Dev nD) : ∀ b, b ∉ Finset.univ.image (Pipeline.arrRef spec1) → (fun b : Ref sig .tc => W6 m c b) b = E1 m c b :=
  fun b hb => by
    have hne : b ≠ main_v69 := fun e => hb (by rw [e]; exact Finset.mem_image.mpr ⟨3, Finset.mem_univ _, rfl⟩)
    unfold W6
    exact Function.update_of_ne (StableHlo.devRef_ne_of_ne hne : (Proc.devRef .tc b : DevRef τ sig) ≠ Proc.devRef .tc main_v69) _ _

/-! ## The proof data of the three pipelines, and what rides beside the buffers -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state and its `owes`, at nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`: every unscoped buffer at the last contents, the generator register at some state. -/
abbrev Tₙ (c : Dev nD) : sProp 𝕄 := iprop(StableHlo.held (c : Thread nD τ) (Pipeline.ucRefs τ sig) (W8 m c) ∗ ∃ r, prngReg c r)

end Cert.Kernel.Hand

end
-- ==== Proof.K.Reg0.lean ====
/-
  Region 0 of @main as a segment: entered from every unscoped buffer at the contents after the third stretch of host
  operations, left at those contents with its result array replaced by what the pipeline's write-backs leave.
  At entry the region's four arrays are taken out of the unscoped buffers, at exit they are put back; the generator
  register goes into the class invariant and comes out; nothing is owed; the kernel names no semaphore of its own.
-/
import proofs.«101961_j3100966387958_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => W4 m c b) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/-
  Region 1 of @main as a segment: entered from every unscoped buffer at the contents after the long stretch of host
  operations, left at those contents with its result array replaced by what the pipeline's write-backs leave.
  At entry the region's four arrays are taken out of the unscoped buffers, at exit they are put back; the generator
  register goes into the class invariant and comes out; nothing is owed; the kernel names no semaphore of its own.
-/
import proofs.«101961_j3100966387958_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => W6 m c b) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
/-
  Region 2 of @main (the decoder) as a segment: entered from every unscoped buffer at the contents after the six host
  operations, left at those contents with the result array replaced by what the pipeline's write-backs leave.

  Its two input windows read ONE array, the narrowed sample. At entry that array's buffer, held whole, is split into
  the two halves of its share, one per window; at exit the two halves, still at the entry contents (an input window
  writes nothing back), are joined again. The result array is held whole throughout.
-/
import proofs.«101961_j3100966387958_1_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind region 2's three windows: the narrowed sample and the result. -/
theorem arrs2 : Finset.univ.image (Pipeline.arrRef spec2) = ({main_v75, main_v76} : Finset (Ref sig .tc)) := by decide

/-- ENTRY: the two buffers, whole at the entry contents, are the three windows' arrays at the proof data's shares. -/
theorem split2 (c : Dev nD) :
    (Pipeline.arrBufs (Ix := Unit) (Name := ℕ) (U := UR sig nD τ) (Lvl := ℕ) spec2 c (E2 m c) : sProp 𝕄)
      ⊢ (dat2 (E2 m) c).arrays ((dat2 (E2 m) c).arrAt · 0) := by
  unfold Pipeline.arrBufs Pipeline.Dat.arrays
  rw [arrs2, bigSep_insert (by decide), bigSep_singleton, bigSep_W2]
  rw [(arr_whole2 0).set_eq_univ, (arr_whole2 2).set_eq_univ]
  show iprop(((c : Thread nD τ).loc main_v75 ↦{fullShare} E2 m c main_v75) ∗ ((c : Thread nD τ).loc main_v76 ↦{fullShare} E2 m c main_v76)) ⊢
    (iprop(((c : Thread nD τ).loc main_v75 ↦{fullShare.left} E2 m c main_v75) ∗ ((c : Thread nD τ).loc main_v75 ↦{fullShare.right} E2 m c main_v75)
      ∗ ((c : Thread nD τ).loc main_v76 ↦{fullShare} E2 m c main_v76)) : sProp 𝕄)
  have hhalves : (((c : Thread nD τ).loc main_v75 ↦{fullShare} E2 m c main_v75) : sProp 𝕄)
      ⊢ iprop(((c : Thread nD τ).loc main_v75 ↦{fullShare.left} E2 m c main_v75) ∗ ((c : Thread nD τ).loc main_v75 ↦{fullShare.right} E2 m c main_v75)) :=
    (pointsTo_share (PosShare.mem_left_op_right fullShare)).1
  iintro ⟨H75, H76⟩
  ihave H := hhalves $$ H75
  icases H with ⟨Hl, Hr⟩
  isplitl [Hl]; · iexact Hl
  isplitl [Hr]; · iexact Hr
  iexact H76

/-- At region 2's exit the narrowed sample's array holds what it held at entry, which is what the contents after the
    region say, and the result array what the region leaves. -/
theorem exit2_in (c : Dev nD) : E2 m c main_v75 = W8 m c main_v75 := by
  unfold W8; exact (Function.update_of_ne (StableHlo.devRef_ne_of_ne (by decide) : (Proc.devRef .tc main_v75 : DevRef τ sig) ≠ Proc.devRef .tc main_v76) _ _).symm
theorem exit2_out (c : Dev nD) : out76 m c = W8 m c main_v76 := by
  show out76 m c = Function.update (W7 m c) (Proc.devRef .tc main_v76 : DevRef τ sig) (out76 m c) (Proc.devRef .tc main_v76)
  rw [Function.update_self]
/-- Off its two buffers region 2 changes nothing. -/
theorem rest2 (c : Dev nD) (b : Ref sig .tc) (hb : b ∉ Finset.univ.image (Pipeline.arrRef spec2)) : W8 m c b = E2 m c b := by
  have hne : b ≠ main_v76 := fun e => hb (by rw [e, arrs2]; decide)
  unfold W8
  exact Function.update_of_ne (StableHlo.devRef_ne_of_ne hne : (Proc.devRef .tc b : DevRef τ sig) ≠ Proc.devRef .tc main_v76) _ _

/-- EXIT: the three windows' arrays at their final contents are the two buffers, whole, at the contents after the region. -/
theorem join2 (c : Dev nD) :
    (dat2 (E2 m) c).arrays ((dat2 (E2 m) c).arrAt · cfg2.N)
      ⊢ (Pipeline.arrBufs (Ix := Unit) (Name := ℕ) (U := UR sig nD τ) (Lvl := ℕ) spec2 c (fun b => W8 m c b) : sProp 𝕄) := by
  unfold Pipeline.arrBufs Pipeline.Dat.arrays
  rw [arrs2, bigSep_insert (by decide), bigSep_singleton, bigSep_W2]
  rw [(arr_whole2 0).set_eq_univ, (arr_whole2 2).set_eq_univ]
  have h0 : (dat2 (E2 m) c).arrAt 0 cfg2.N = E2 m c main_v75 := ((dat2 (E2 m) c).arrAt_in 0 rfl _).trans (A_eq2 (E2 m) c 0)
  have h1 : (dat2 (E2 m) c).arrAt 1 cfg2.N = E2 m c main_v75 := ((dat2 (E2 m) c).arrAt_in 1 rfl _).trans (A_eq2 (E2 m) c 1)
  show iprop(((c : Thread nD τ).loc main_v75 ↦{fullShare.left} (dat2 (E2 m) c).arrAt 0 cfg2.N)
      ∗ ((c : Thread nD τ).loc main_v75 ↦{fullShare.right} (dat2 (E2 m) c).arrAt 1 cfg2.N)
      ∗ ((c : Thread nD τ).loc main_v76 ↦{fullShare} out76 m c)) ⊢
    (iprop(((c : Thread nD τ).loc main_v75 ↦{fullShare} W8 m c main_v75) ∗ ((c : Thread nD τ).loc main_v76 ↦{fullShare} W8 m c main_v76)) : sProp 𝕄)
  rw [h0, h1, exit2_in m c, exit2_out m c]
  have hwhole : (iprop(((c : Thread nD τ).loc main_v75 ↦{fullShare.left} W8 m c main_v75) ∗ ((c : Thread nD τ).loc main_v75 ↦{fullShare.right} W8 m c main_v75)) : sProp 𝕄)
      ⊢ ((c : Thread nD τ).loc main_v75 ↦{fullShare} W8 m c main_v75) :=
    (pointsTo_share (PosShare.mem_left_op_right fullShare)).2
  iintro ⟨Hl, Hr, H76⟩
  isplitl [Hl Hr]
  · iapply hwhole
    isplitl [Hl]; · iexact Hl
    iexact Hr
  iexact H76

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit : (unscopedBufs (Ix := Unit) (Name := ℕ) (U := UR sig nD τ) (Lvl := ℕ) c (E2 m c) : sProp 𝕄)
        ⊢ iprop((pdats m 2 c).arrays ((pdats m 2 c).arrAt · 0)
            ∗ Pipeline.unscopedRest (Ix := Unit) (Name := ℕ) (U := UR sig nD τ) (Lvl := ℕ) spec2 c (E2 m c)) := by
      rw [Pipeline.unscopedBufs_split₀ (Pipeline.pin (pcfgs (F := F)) adm) 2 winFacts₀2.arr_unscoped c (E2 m c)]
      exact sep_mono (split2 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (E2 m c))
        ⊢ (unscopedBufs (Ix := Unit) (Name := ℕ) (U := UR sig nD τ) (Lvl := ℕ) c (fun b => W8 m c b) : sProp 𝕄) := by
      rw [Pipeline.unscopedBufs_split₀ (Pipeline.pin (pcfgs (F := F)) adm) 2 winFacts₀2.arr_unscoped c (fun b => W8 m c b)]
      refine sep_mono (join2 m c) (Entails.of_eq ?_)
      unfold Pipeline.unscopedRest
      exact bigSep_congr fun b hb => by
        show _ = (((c : Thread nD τ).loc b) ↦{fullShare} W8 m c b : sProp 𝕄)
        rw [rest2 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.K.Run.lean ====
/-
  The run of @main: its eight segments in order (three stretches of host operations, region 0, a stretch, region 1,
  a stretch, region 2), launched from any memory with zero counters. Every weakly fair execution terminates, and at the
  end every unscoped buffer of the TensorCore holds what the fold of the segments says (`W8`). Read at an argument the
  fold walks back to the launch memory: no stretch of host operations writes an argument and no region changes one.
-/
import proofs.«101961_j3100966387958_1_alg».proof.Proof.K.Reg0
import proofs.«101961_j3100966387958_1_alg».proof.Proof.K.Reg1
import proofs.«101961_j3100966387958_1_alg».proof.Proof.K.Reg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution of @main terminates, nothing faulting, and every unscoped buffer ends at the
    fold's last contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-! ## The arguments end as launched -/

/-- A buffer that no stretch of host operations writes and that is no region's result array holds at the end what it
    held at launch. -/
theorem W8_kept (c : Dev nD) (r : Ref sig .tc) (h8 : r ≠ main_v76) (h7 : r ∉ hostOps2_W) (h6 : r ≠ main_v69) (h5 : r ∉ hostOps1_W)
    (h4 : r ≠ main_v32) (h3 : r ∉ hostOps0_2_W) (h2 : r ∉ hostOps0_1_W) (h1 : r ∉ hostOps0_W) :
    W8 m c r = m ((c : Thread nD τ).loc r) :=
  calc W8 m c r
    _ = W7 m c r := by unfold W8; exact Function.update_of_ne (StableHlo.devRef_ne_of_ne h8) _ _
    _ = W6 m c r := StableHlo.after_of_writes_sub hostOps2 _ hostOps2_writes h7
    _ = W5 m c r := by unfold W6; exact Function.update_of_ne (StableHlo.devRef_ne_of_ne h6) _ _
    _ = W4 m c r := StableHlo.after_of_writes_sub hostOps1 _ hostOps1_writes h5
    _ = W3 m c r := by unfold W4; exact Function.update_of_ne (StableHlo.devRef_ne_of_ne h4) _ _
    _ = W2 m c r := StableHlo.after_of_writes_sub hostOps0_2 _ hostOps0_2_writes h3
    _ = W1 m c r := StableHlo.after_of_writes_sub hostOps0_1 _ hostOps0_1_writes h2
    _ = W0 m c r := StableHlo.after_of_writes_sub hostOps0 _ hostOps0_writes h1
    _ = m ((c : Thread nD τ).loc r) := rfl

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W8_kept m c main_arg0 (by decide) (by decide) (by decide) (by decide) (by decide) (by decide) (by decide) (by decide)),
    (h c _ (mem_uc main_arg1 (by decide))).trans (W8_kept m c main_arg1 (by decide) (by decide) (by decide) (by decide) (by decide) (by decide) (by decide) (by decide)),
    (h c _ (mem_uc main_arg2 (by decide))).trans (W8_kept m c main_arg2 (by decide) (by decide) (by decide) (by decide) (by decide) (by decide) (by decide) (by decide)),
    (h c _ (mem_uc main_arg3 (by decide))).trans (W8_kept m c main_arg3 (by decide) (by decide) (by decide) (by decide) (by decide) (by decide) (by decide) (by decide)),
    (h c _ (mem_uc main_arg4 (by decide))).trans (W8_kept m c main_arg4 (by decide) (by decide) (by decide) (by decide) (by decide) (by decide) (by decide) (by decide)),
    (h c _ (mem_uc main_arg5 (by decide))).trans (W8_kept m c main_arg5 (by decide) (by decide) (by decide) (by decide) (by decide) (by decide) (by decide) (by decide)),
    (h c _ (mem_uc main_arg6 (by decide))).trans (W8_kept m c main_arg6 (by decide) (by decide) (by decide) (by decide) (by decide) (by decide) (by decide) (by decide)),
    (h c _ (mem_uc main_arg7 (by decide))).trans (W8_kept m c main_arg7 (by decide) (by decide) (by decide) (by decide) (by decide) (by decide) (by decide) (by decide)),
    (h c _ (mem_uc main_arg8 (by decide))).trans (W8_kept m c main_arg8 (by decide) (by decide) (by decide) (by decide) (by decide) (by decide) (by decide) (by decide)),
    (h c _ (mem_uc main_arg9 (by decide))).trans (W8_kept m c main_arg9 (by decide) (by decide) (by decide) (by decide) (by decide) (by decide) (by decide) (by decide)),
    (h c _ (mem_uc main_arg10 (by decide))).trans (W8_kept m c main_arg10 (by decide) (by decide) (by decide) (by decide) (by decide) (by decide) (by decide) (by decide))⟩) (run m ρ)

end Cert.Kernel.Hand

end
-- ==== Proof.KI.Body0.lean ====
/-
  Region 0 of @main (the first projection, `x · W_gc1` plus a zero row): the kernel body at one grid point.

  At point `t` the pipeline hands the body the block of 2048 rows of `x` that `t` indexes, the whole of the
  weight matrix and the whole 1 × 256 row; the body stores ONE value into the output block, the payload
  `k0_pay1` of the three loads (it also loads the output block, and discards what it read). So after the
  body the output's staging buffer holds that payload of the three input blocks, whatever it held before,
  and the inputs' buffers are untouched. The proof data say exactly this, and the body obligation follows
  from one symbolic run of the body.
-/
import proofs.«101961_j3100966387958_1_alg».proof.Proof.Gen.KernelIdeal.Launch
import proofs.«101961_j3100966387958_1_alg».proof.Proof.Gen.KernelIdeal.Skeleton
import proofs.«101961_j3100966387958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is the entry contents and whose body
    leaves the block in place. -/
theorem found0_0 {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)

/-- The whole-block rectangles the body loads and stores through. -/
abbrev rX0 : Rect S2048x512 := Rect.unit (s := S2048x512) ![0, 0] S2048x512.size inb_S2048x512_S2048x512_0_0
abbrev rW0 : Rect S512x256 := Rect.unit (s := S512x256) ![0, 0] S512x256.size inb_S512x256_S512x256_0_0
abbrev rB0 : Rect S1x256 := Rect.unit (s := S1x256) ![0, 0] S1x256.size inb_S1x256_S1x256_0_0
abbrev rO0 : Rect S2048x256 := Rect.unit (s := S2048x256) ![0, 0] S2048x256.size inb_S2048x256_S2048x256_0_0

/-- What the body leaves in the output block: its one store, of the payload of the three loads. -/
def stored0 (x0 : Vec F S2048x512 .f32) (x1 : Vec F S512x256 .f32) (x2 : Vec F S1x256 .f32) : Vec F S2048x256 .f32 :=
  View.canon [⟨rO0, k0_pay1 (View.ld x0 rX0) (View.ld x1 rW0) (View.ld x2 rB0)⟩]

/-- The one store covers the block. -/
theorem covers0 (p0 : Vec F S2048x256 .f32) (y : S2048x256.Idx) :
    ∃ pc ∈ ([⟨rO0, p0⟩] : List (View.Piece (Elt F) S2048x256 .f32)), y ∈ pc.1.set :=
  View.cover_of_tiled [⟨rO0, p0⟩] S2048x256.size (by rfl) y

set_option maxHeartbeats 1000000 in
/-- The body on whole staging memrefs, the inputs' at contents `x0 x1 x2` and the output's at anything, runs to the
    continuation holding the inputs' as they were and the output's at `stored0 x0 x1 x2`. -/
theorem runs0 (c : Dev nD) (E : Set ℕ) (i : grid0.Coords)
    (a1 : Memref sig .tc .vmem S2048x512 .f32) (h1 : a1.IsWhole) (a2 : Memref sig .tc .vmem S512x256 .f32) (h2 : a2.IsWhole)
    (a3 : Memref sig .tc .vmem S1x256 .f32) (h3 : a3.IsWhole) (a4 : Memref sig .tc .vmem S2048x256 .f32) (h4 : a4.IsWhole)
    (x0 : Vec F S2048x512 .f32) (x1 : Vec F S512x256 .f32) (x2 : Vec F S1x256 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (stored0 x0 x1 x2)) -∗ K ⟨⟩))
      ⊢ wp frame (wpE (defs₀ (F := F)) Variants.none c none) E (cc0__matmul_bias_kernel i a1 h1 a2 h2 a3 h3 a4 h4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers0 _)

/-- The proof data of pipeline 0 on core `c`: the arrays as the region finds them; after the body at point `t` each
    input's buffer at its block, the output's at `stored0` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => stored0 (blockAt0 V c 0 t) (blockAt0 V c 1 t) (blockAt0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blockAt0 V c 0 t := by dsimp only [dat0]
theorem after0_1 (c : Dev nD) (t : Fin cfg0.N) : (dat0 V c).after 1 t = blockAt0 V c 1 t := by dsimp only [dat0]
theorem after0_2 (c : Dev nD) (t : Fin cfg0.N) : (dat0 V c).after 2 t = blockAt0 V c 2 t := by dsimp only [dat0]
theorem after0_3 (c : Dev nD) (t : Fin cfg0.N) :
    (dat0 V c).after 3 t = stored0 (blockAt0 V c 0 t) (blockAt0 V c 1 t) (blockAt0 V c 2 t) := by dsimp only [dat0]

theorem before0_0 (c : Dev nD) (t : Fin cfg0.N) (d) : (dat0 V c).before 0 t d = blockAt0 V c 0 t :=
  found0_0 V (dat0 V c) (A_eq0 V c 0) (after0_0 V c) t d
theorem before0_1 (c : Dev nD) (t : Fin cfg0.N) (d) : (dat0 V c).before 1 t d = blockAt0 V c 1 t :=
  found0_1 V (dat0 V c) (A_eq0 V c 1) (after0_1 V c) t d
theorem before0_2 (c : Dev nD) (t : Fin cfg0.N) (d) : (dat0 V c).before 2 t d = blockAt0 V c 2 t :=
  found0_2 V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `runs0` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (runs0 c Set.univ _ _ _ _ _ _ _ _ _ (blockAt0 V c 0 t) (blockAt0 V c 1 t) (blockAt0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1 of @main (the fused mean and log-variance projection: the joined features `[agg | h1]` times the 512 × 256 matrix of the four weight blocks, plus the joined bias row): the kernel body at one grid point.

  At point `t` the pipeline hands the body the block of 2048 rows of the joined features that `t` indexes, the whole of the
  weight matrix and the whole 1 × 256 row; the body stores ONE value into the output block, the payload
  `k1_pay1` of the three loads (it also loads the output block, and discards what it read). So after the
  body the output's staging buffer holds that payload of the three input blocks, whatever it held before,
  and the inputs' buffers are untouched. The proof data say exactly this, and the body obligation follows
  from one symbolic run of the body.
-/
import proofs.«101961_j3100966387958_1_alg».proof.Proof.Gen.KernelIdeal.Launch
import proofs.«101961_j3100966387958_1_alg».proof.Proof.Gen.KernelIdeal.Skeleton
import proofs.«101961_j3100966387958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is the entry contents and whose body
    leaves the block in place. -/
theorem found1_0 {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-- The whole-block rectangles the body loads and stores through. -/
abbrev rX1 : Rect S2048x512 := Rect.unit (s := S2048x512) ![0, 0] S2048x512.size inb_S2048x512_S2048x512_0_0
abbrev rW1 : Rect S512x256 := Rect.unit (s := S512x256) ![0, 0] S512x256.size inb_S512x256_S512x256_0_0
abbrev rB1 : Rect S1x256 := Rect.unit (s := S1x256) ![0, 0] S1x256.size inb_S1x256_S1x256_0_0
abbrev rO1 : Rect S2048x256 := Rect.unit (s := S2048x256) ![0, 0] S2048x256.size inb_S2048x256_S2048x256_0_0

/-- What the body leaves in the output block: its one store, of the payload of the three loads. -/
def stored1 (x0 : Vec F S2048x512 .f32) (x1 : Vec F S512x256 .f32) (x2 : Vec F S1x256 .f32) : Vec F S2048x256 .f32 :=
  View.canon [⟨rO1, k1_pay1 (View.ld x0 rX1) (View.ld x1 rW1) (View.ld x2 rB1)⟩]

/-- The one store covers the block. -/
theorem covers1 (p0 : Vec F S2048x256 .f32) (y : S2048x256.Idx) :
    ∃ pc ∈ ([⟨rO1, p0⟩] : List (View.Piece (Elt F) S2048x256 .f32)), y ∈ pc.1.set :=
  View.cover_of_tiled [⟨rO1, p0⟩] S2048x256.size (by rfl) y

set_option maxHeartbeats 1000000 in
/-- The body on whole staging memrefs, the inputs' at contents `x0 x1 x2` and the output's at anything, runs to the
    continuation holding the inputs' as they were and the output's at `stored1 x0 x1 x2`. -/
theorem runs1 (c : Dev nD) (E : Set ℕ) (i : grid1.Coords)
    (a1 : Memref sig .tc .vmem S2048x512 .f32) (h1 : a1.IsWhole) (a2 : Memref sig .tc .vmem S512x256 .f32) (h2 : a2.IsWhole)
    (a3 : Memref sig .tc .vmem S1x256 .f32) (h3 : a3.IsWhole) (a4 : Memref sig .tc .vmem S2048x256 .f32) (h4 : a4.IsWhole)
    (x0 : Vec F S2048x512 .f32) (x1 : Vec F S512x256 .f32) (x2 : Vec F S1x256 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (stored1 x0 x1 x2)) -∗ K ⟨⟩))
      ⊢ wp frame (wpE (defs₀ (F := F)) Variants.none c none) E (cc1__matmul_bias_kernel i a1 h1 a2 h2 a3 h3 a4 h4) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-- The proof data of pipeline 1 on core `c`: the arrays as the region finds them; after the body at point `t` each
    input's buffer at its block, the output's at `stored1` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => stored1 (blockAt1 V c 0 t) (blockAt1 V c 1 t) (blockAt1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blockAt1 V c 0 t := by dsimp only [dat1]
theorem after1_1 (c : Dev nD) (t : Fin cfg1.N) : (dat1 V c).after 1 t = blockAt1 V c 1 t := by dsimp only [dat1]
theorem after1_2 (c : Dev nD) (t : Fin cfg1.N) : (dat1 V c).after 2 t = blockAt1 V c 2 t := by dsimp only [dat1]
theorem after1_3 (c : Dev nD) (t : Fin cfg1.N) :
    (dat1 V c).after 3 t = stored1 (blockAt1 V c 0 t) (blockAt1 V c 1 t) (blockAt1 V c 2 t) := by dsimp only [dat1]

theorem before1_0 (c : Dev nD) (t : Fin cfg1.N) (d) : (dat1 V c).before 0 t d = blockAt1 V c 0 t :=
  found1_0 V (dat1 V c) (A_eq1 V c 0) (after1_0 V c) t d
theorem before1_1 (c : Dev nD) (t : Fin cfg1.N) (d) : (dat1 V c).before 1 t d = blockAt1 V c 1 t :=
  found1_1 V (dat1 V c) (A_eq1 V c 1) (after1_1 V c) t d
theorem before1_2 (c : Dev nD) (t : Fin cfg1.N) (d) : (dat1 V c).before 2 t d = blockAt1 V c 2 t :=
  found1_2 V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `runs1` applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (runs1 c Set.univ _ _ _ _ _ _ _ _ _ (blockAt1 V c 0 t) (blockAt1 V c 1 t) (blockAt1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2 of @main (the decoder, `sigmoid (z · zᵀ)`): the kernel body at one grid point.

  The grid is 16 × 8; at point `(i, j)` the pipeline hands the body rows `1024·i …` of `z` through window 0 and rows
  `2048·j …` of the SAME array through window 1, and the body stores one value into the 1024 × 2048 output block:
  the payload `k2_pay1` of the two loads (it also loads the output block and discards what it read). Both input
  windows read one array, so the core holds that array in two halves of its share, one per window; the output's
  array is held whole.
-/
import proofs.«101961_j3100966387958_1_alg».proof.Proof.Gen.KernelIdeal.Launch
import proofs.«101961_j3100966387958_1_alg».proof.Proof.Gen.KernelIdeal.Skeleton
import proofs.«101961_j3100966387958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved), for any proof data whose array is the entry contents and whose body
    leaves the block in place. -/
theorem found2_0 {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)

/-- The whole-block rectangles the body loads and stores through. -/
abbrev rI2 : Rect S1024x128 := Rect.unit (s := S1024x128) ![0, 0] S1024x128.size inb_S1024x128_S1024x128_0_0
abbrev rJ2 : Rect S2048x128 := Rect.unit (s := S2048x128) ![0, 0] S2048x128.size inb_S2048x128_S2048x128_0_0
abbrev rO2 : Rect S1024x2048 := Rect.unit (s := S1024x2048) ![0, 0] S1024x2048.size inb_S1024x2048_S1024x2048_0_0

/-- What the body leaves in the output block: its one store, of the payload of the two loads. -/
def stored2 (x0 : Vec F S1024x128 .bf16) (x1 : Vec F S2048x128 .bf16) : Vec F S1024x2048 .f32 :=
  View.canon [⟨rO2, k2_pay1 (View.ld x0 rI2) (View.ld x1 rJ2)⟩]

/-- The one store covers the block. -/
theorem covers2 (p0 : Vec F S1024x2048 .f32) (y : S1024x2048.Idx) :
    ∃ pc ∈ ([⟨rO2, p0⟩] : List (View.Piece (Elt F) S1024x2048 .f32)), y ∈ pc.1.set :=
  View.cover_of_tiled [⟨rO2, p0⟩] S1024x2048.size (by rfl) y

set_option maxHeartbeats 1000000 in
/-- The body on whole staging memrefs, the inputs' at contents `x0 x1` and the output's at anything, runs to the
    continuation holding the inputs' as they were and the output's at `stored2 x0 x1`. -/
theorem runs2 (c : Dev nD) (E : Set ℕ) (i : grid2.Coords)
    (a2 : Memref sig .tc .vmem S1024x128 .bf16) (h2 : a2.IsWhole) (a3 : Memref sig .tc .vmem S2048x128 .bf16) (h3 : a3.IsWhole)
    (a4 : Memref sig .tc .vmem S1024x2048 .f32) (h4 : a4.IsWhole)
    (x0 : Vec F S1024x128 .bf16) (x1 : Vec F S2048x128 .bf16) (K : PUnit → sProp 𝕄) :
    iprop(owns (c : Thread nD τ) a2 fullShare x0 ∗ owns (c : Thread nD τ) a3 fullShare x1
        ∗ (∃ d, owns (c : Thread nD τ) a4 fullShare d)
        ∗ (iprop(owns (c : Thread nD τ) a2 fullShare x0 ∗ owns (c : Thread nD τ) a3 fullShare x1
            ∗ owns (c : Thread nD τ) a4 fullShare (stored2 x0 x1)) -∗ K ⟨⟩))
      ⊢ wp frame (wpE (defs₀ (F := F)) Variants.none c none) E (cc2__adj_kernel i a2 h2 a3 h3 a4 h4) K := by
  simp only [cc2__adj_kernel_eq_skeleton]; unfold cc2__adj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers2 _)

/-- The proof data of pipeline 2 on core `c`: the arrays as the region finds them; after the body at point `t` each
    input's buffer at its block, the output's at `stored2` of the input blocks; the invariant the scoped rest and the
    generator register, untouched; nothing owed. The two input windows read ONE array: window 0 holds it at the left half
    of the full share, window 1 at the right half. -/
def dat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => stored2 (blockAt2 V c 0 t) (blockAt2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blockAt2 V c 0 t := by dsimp only [dat2]
theorem after2_1 (c : Dev nD) (t : Fin cfg2.N) : (dat2 V c).after 1 t = blockAt2 V c 1 t := by dsimp only [dat2]
theorem after2_2 (c : Dev nD) (t : Fin cfg2.N) :
    (dat2 V c).after 2 t = stored2 (blockAt2 V c 0 t) (blockAt2 V c 1 t) := by dsimp only [dat2]

theorem before2_0 (c : Dev nD) (t : Fin cfg2.N) (d) : (dat2 V c).before 0 t d = blockAt2 V c 0 t :=
  found2_0 V (dat2 V c) (A_eq2 V c 0) (after2_0 V c) t d
theorem before2_1 (c : Dev nD) (t : Fin cfg2.N) (d) : (dat2 V c).before 1 t d = blockAt2 V c 1 t :=
  found2_1 V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `runs2` applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (runs2 c Set.univ _ _ _ _ _ _ _ (blockAt2 V c 0 t) (blockAt2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Fold.lean ====
/-
  The contents of the TensorCore's unscoped buffers at every boundary of @main, from the launch memory to the return.

  @main is: three stretches of host operations (the normalisation coefficients of the edges), region 0 (the first
  projection), a long stretch of host operations (gather, scale, scatter-add, bias, the neighbour sum, the joins),
  region 1 (the fused projection), six host operations (the two halves of its result, the sample `z`, its narrowing),
  region 2 (the decoder). A stretch of host operations takes the contents to `StableHlo.after` of its operations; a
  region changes exactly one buffer, its result array, which ends at what the pipeline's write-backs leave there.
-/
import proofs.«101961_j3100966387958_1_alg».proof.Proof.KI.Body0
import proofs.«101961_j3100966387958_1_alg».proof.Proof.KI.Body1
import proofs.«101961_j3100966387958_1_alg».proof.Proof.KI.Body2
import proofs.«101961_j3100966387958_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch, -/
abbrev W0 (c : Dev nD) : Valuation τ sig (Elt F) := fun b => m (c, b)
/-- after the first stretch of host operations, -/
abbrev W1 (c : Dev nD) : Valuation τ sig (Elt F) := StableHlo.after hostOps0 (W0 m c)
/-- after the inlined `where`, -/
abbrev W2 (c : Dev nD) : Valuation τ sig (Elt F) := StableHlo.after hostOps0_1 (W1 m c)
/-- and after the third stretch: what region 0 is entered from. -/
abbrev W3 (c : Dev nD) : Valuation τ sig (Elt F) := StableHlo.after hostOps0_2 (W2 m c)
/-- The same read at the TensorCore's references. -/
abbrev E0 : (c : Dev nD) → (b : Ref sig .tc) → Buf (Elt F) ((c : Thread nD τ).loc b) := fun c b => W3 m c b

/-- What region 0 leaves in its result array. -/
def out32 (c : Dev nD) : Buf (Elt F) ((c : Thread nD τ).loc main_v32) := (dat0 (E0 m) c).arrAt 3 cfg0.N
/-- After region 0: its result array at what the region leaves, every other buffer as entered. -/
def W4 (c : Dev nD) : Valuation τ sig (Elt F) := Function.update (W3 m c) main_v32 (out32 m c)
/-- After the long stretch: what region 1 is entered from. -/
abbrev W5 (c : Dev nD) : Valuation τ sig (Elt F) := StableHlo.after hostOps1 (W4 m c)
abbrev E1 : (c : Dev nD) → (b : Ref sig .tc) → Buf (Elt F) ((c : Thread nD τ).loc b) := fun c b => W5 m c b

/-- What region 1 leaves in its result array. -/
def out69 (c : Dev nD) : Buf (Elt F) ((c : Thread nD τ).loc main_v69) := (dat1 (E1 m) c).arrAt 3 cfg1.N
def W6 (c : Dev nD) : Valuation τ sig (Elt F) := Function.update (W5 m c) main_v69 (out69 m c)
/-- After the six host operations: what region 2 is entered from. -/
abbrev W7 (c : Dev nD) : Valuation τ sig (Elt F) := StableHlo.after hostOps2 (W6 m c)
abbrev E2 : (c : Dev nD) → (b : Ref sig .tc) → Buf (Elt F) ((c : Thread nD τ).loc b) := fun c b => W7 m c b

/-- What region 2 leaves in its result array. -/
def out76 (c : Dev nD) : Buf (Elt F) ((c : Thread nD τ).loc main_v76) := (dat2 (E2 m) c).arrAt 2 cfg2.N
/-- At the return. -/
def W8 (c : Dev nD) : Valuation τ sig (Elt F) := Function.update (W7 m c) main_v76 (out76 m c)

/-! ## A region's arrays at its exit -/

/-- At region 0's exit each of its arrays holds what the valuation after it says: an input array what it held at
    entry, the result array what the region leaves. -/
theorem exit0 (c : Dev nD) (w : Fin cfg0.W) : (dat0 (E0 m) c).arrAt w cfg0.N = W4 m c (Pipeline.arrRef spec0 w) := by
  match w with
  | ⟨0, _⟩ =>
    refine (((dat0 (E0 m) c).arrAt_in 0 rfl _).trans (A_eq0 (E0 m) c 0)).trans ?_
    unfold W4; exact (Function.update_of_ne (StableHlo.devRef_ne_of_ne (by decide)) _ _).symm
  | ⟨1, _⟩ =>
    refine (((dat0 (E0 m) c).arrAt_in 1 rfl _).trans (A_eq0 (E0 m) c 1)).trans ?_
    unfold W4; exact (Function.update_of_ne (StableHlo.devRef_ne_of_ne (by decide)) _ _).symm
  | ⟨2, _⟩ =>
    refine (((dat0 (E0 m) c).arrAt_in 2 rfl _).trans (A_eq0 (E0 m) c 2)).trans ?_
    unfold W4; exact (Function.update_of_ne (StableHlo.devRef_ne_of_ne (by decide)) _ _).symm
  | ⟨3, _⟩ =>
    show out32 m c = Function.update (W3 m c) (Proc.devRef .tc main_v32 : DevRef τ sig) (out32 m c) (Proc.devRef .tc main_v32)
    rw [Function.update_self]
/-- Off its arrays region 0 changes nothing. -/
theorem rest0 (c : Dev nD) : ∀ b, b ∉ Finset.univ.image (Pipeline.arrRef spec0) → (fun b : Ref sig .tc => W4 m c b) b = E0 m c b :=
  fun b hb => by
    have hne : b ≠ main_v32 := fun e => hb (by rw [e]; exact Finset.mem_image.mpr ⟨3, Finset.mem_univ _, rfl⟩)
    unfold W4
    exact Function.update_of_ne (StableHlo.devRef_ne_of_ne hne : (Proc.devRef .tc b : DevRef τ sig) ≠ Proc.devRef .tc main_v32) _ _

theorem exit1 (c : Dev nD) (w : Fin cfg1.W) : (dat1 (E1 m) c).arrAt w cfg1.N = W6 m c (Pipeline.arrRef spec1 w) := by
  match w with
  | ⟨0, _⟩ =>
    refine (((dat1 (E1 m) c).arrAt_in 0 rfl _).trans (A_eq1 (E1 m) c 0)).trans ?_
    unfold W6; exact (Function.update_of_ne (StableHlo.devRef_ne_of_ne (by decide)) _ _).symm
  | ⟨1, _⟩ =>
    refine (((dat1 (E1 m) c).arrAt_in 1 rfl _).trans (A_eq1 (E1 m) c 1)).trans ?_
    unfold W6; exact (Function.update_of_ne (StableHlo.devRef_ne_of_ne (by decide)) _ _).symm
  | ⟨2, _⟩ =>
    refine (((dat1 (E1 m) c).arrAt_in 2 rfl _).trans (A_eq1 (E1 m) c 2)).trans ?_
    unfold W6; exact (Function.update_of_ne (StableHlo.devRef_ne_of_ne (by decide)) _ _).symm
  | ⟨3, _⟩ =>
    show out69 m c = Function.update (W5 m c) (Proc.devRef .tc main_v69 : DevRef τ sig) (out69 m c) (Proc.devRef .tc main_v69)
    rw [Function.update_self]
theorem rest1 (c : Dev nD) : ∀ b, b ∉ Finset.univ.image (Pipeline.arrRef spec1) → (fun b : Ref sig .tc => W6 m c b) b = E1 m c b :=
  fun b hb => by
    have hne : b ≠ main_v69 := fun e => hb (by rw [e]; exact Finset.mem_image.mpr ⟨3, Finset.mem_univ _, rfl⟩)
    unfold W6
    exact Function.update_of_ne (StableHlo.devRef_ne_of_ne hne : (Proc.devRef .tc b : DevRef τ sig) ≠ Proc.devRef .tc main_v69) _ _

/-! ## The proof data of the three pipelines, and what rides beside the buffers -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state and its `owes`, at nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`: every unscoped buffer at the last contents, the generator register at some state. -/
abbrev Tₙ (c : Dev nD) : sProp 𝕄 := iprop(StableHlo.held (c : Thread nD τ) (Pipeline.ucRefs τ sig) (W8 m c) ∗ ∃ r, prngReg c r)

end Cert.KernelIdeal.Hand

end
-- ==== Proof.KI.Chain.lean ====
/-
  The host operations of @main between the regions, read as the stages of the reference.

  Between its three regions the kernel's program applies, to the same edge list and parameters, the very operations the
  reference applies: the normalisation coefficients of the edges; gather, scale and scatter-add of the first projection's
  rows, plus the bias; the neighbour sum; then the joins that feed the fused projection; then the two halves of its result,
  the sample, and its narrowing. Each value so computed is named here at its vector type and equated with the reference's
  stage of the same name, GIVEN that the first projection's result is the reference's product (an assumption here: it is
  a fact about the extended reals, proved where the regions' results are read).
-/
import proofs.«101961_j3100966387958_1_alg».proof.Proof.KI.Fold
import proofs.«101961_j3100966387958_1_alg».proof.Proof.RefRead
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (m : (ℓ : Loc nD τ sig) → Buf (Elt F) ℓ)

/-! ## The argument arrays at launch and the values between the regions, at their vector types -/

abbrev a0 (c : Dev nD) : (⟨S16384x512, .f32⟩ : BufTy).Contents (Elt F) := m ((c : Thread nD τ).loc main_arg0)
abbrev a1 (c : Dev nD) : (⟨S2x524288, .i32⟩ : BufTy).Contents (Elt F) := m ((c : Thread nD τ).loc main_arg1)
abbrev a2 (c : Dev nD) : (⟨S512x256, .f32⟩ : BufTy).Contents (Elt F) := m ((c : Thread nD τ).loc main_arg2)
abbrev a3 (c : Dev nD) : (⟨S256, .f32⟩ : BufTy).Contents (Elt F) := m ((c : Thread nD τ).loc main_arg3)
abbrev a4 (c : Dev nD) : (⟨S256x128, .f32⟩ : BufTy).Contents (Elt F) := m ((c : Thread nD τ).loc main_arg4)
abbrev a5 (c : Dev nD) : (⟨S256x128, .f32⟩ : BufTy).Contents (Elt F) := m ((c : Thread nD τ).loc main_arg5)
abbrev a6 (c : Dev nD) : (⟨S128, .f32⟩ : BufTy).Contents (Elt F) := m ((c : Thread nD τ).loc main_arg6)
abbrev a7 (c : Dev nD) : (⟨S256x128, .f32⟩ : BufTy).Contents (Elt F) := m ((c : Thread nD τ).loc main_arg7)
abbrev a8 (c : Dev nD) : (⟨S256x128, .f32⟩ : BufTy).Contents (Elt F) := m ((c : Thread nD τ).loc main_arg8)
abbrev a9 (c : Dev nD) : (⟨S128, .f32⟩ : BufTy).Contents (Elt F) := m ((c : Thread nD τ).loc main_arg9)
abbrev a10 (c : Dev nD) : (⟨S16384x128, .f32⟩ : BufTy).Contents (Elt F) := m ((c : Thread nD τ).loc main_arg10)

/-- Before region 0: the edges' sources and targets with the self loops, their coefficients, the zero row. -/
abbrev srcK (c : Dev nD) : (⟨S540672, .i32⟩ : BufTy).Contents (Elt F) := W3 m c main_v3
abbrev dstK (c : Dev nD) : (⟨S540672, .i32⟩ : BufTy).Contents (Elt F) := W3 m c main_v6
abbrev normK (c : Dev nD) : (⟨S540672, .f32⟩ : BufTy).Contents (Elt F) := W3 m c main_v29
abbrev row0K (c : Dev nD) : (⟨S1x256, .f32⟩ : BufTy).Contents (Elt F) := W3 m c main_v31
/-- After region 0: its result. -/
abbrev xwK (c : Dev nD) : (⟨S16384x256, .f32⟩ : BufTy).Contents (Elt F) := W4 m c main_v32
/-- Before region 1: the hidden layer, its neighbour sum, the joined features, weights and bias row. -/
abbrev h1K (c : Dev nD) : (⟨S16384x256, .f32⟩ : BufTy).Contents (Elt F) := W5 m c main_v48
abbrev aggK (c : Dev nD) : (⟨S16384x256, .f32⟩ : BufTy).Contents (Elt F) := W5 m c main_v62
abbrev featK (c : Dev nD) : (⟨S16384x512, .f32⟩ : BufTy).Contents (Elt F) := W5 m c main_v63
abbrev wcK (c : Dev nD) : (⟨S512x256, .f32⟩ : BufTy).Contents (Elt F) := W5 m c main_v66
abbrev rowK (c : Dev nD) : (⟨S1x256, .f32⟩ : BufTy).Contents (Elt F) := W5 m c main_v68
/-- After region 1: its result; then its two halves, the sample and the narrowed sample. -/
abbrev projK (c : Dev nD) : (⟨S16384x256, .f32⟩ : BufTy).Contents (Elt F) := W6 m c main_v69
abbrev muK (c : Dev nD) : (⟨S16384x128, .f32⟩ : BufTy).Contents (Elt F) := W7 m c main_v70
abbrev lvK (c : Dev nD) : (⟨S16384x128, .f32⟩ : BufTy).Contents (Elt F) := W7 m c main_v71
abbrev zK (c : Dev nD) : (⟨S16384x128, .f32⟩ : BufTy).Contents (Elt F) := W7 m c main_v74
abbrev zbK (c : Dev nD) : (⟨S16384x128, .bf16⟩ : BufTy).Contents (Elt F) := W7 m c main_v75

/-! ## Before region 0 -/

theorem srcK_eq (c : Dev nD) : srcK m c = val_main_v3 (F := F) (a1 m c) := by
  show StableHlo.after hostOps0_2 (W2 m c) (Proc.devRef .tc main_v3) = _
  rw [StableHlo.after_of_writes_sub hostOps0_2 _ hostOps0_2_writes (by decide)]
  show StableHlo.after hostOps0_1 (W1 m c) (Proc.devRef .tc main_v3) = _
  rw [StableHlo.after_of_writes_sub hostOps0_1 _ hostOps0_1_writes (by decide)]
  show StableHlo.after hostOps0 (W0 m c) (Proc.devRef .tc main_v3) = _
  after_results
  rfl
theorem dstK_eq (c : Dev nD) : dstK m c = val_main_v6 (F := F) (a1 m c) := by
  show StableHlo.after hostOps0_2 (W2 m c) (Proc.devRef .tc main_v6) = _
  rw [StableHlo.after_of_writes_sub hostOps0_2 _ hostOps0_2_writes (by decide)]
  show StableHlo.after hostOps0_1 (W1 m c) (Proc.devRef .tc main_v6) = _
  rw [StableHlo.after_of_writes_sub hostOps0_1 _ hostOps0_1_writes (by decide)]
  show StableHlo.after hostOps0 (W0 m c) (Proc.devRef .tc main_v6) = _
  after_results
  rfl
/-- The degree's inverse square root where the degree is positive, zero elsewhere: the value the coefficients are gathered from. -/
theorem W2_v14 (c : Dev nD) :
    (W2 m c main_v14 : (⟨S16384, .f32⟩ : BufTy).Contents (Elt F)) = val_main_v14 (F := F) (a1 m c) := by
  show StableHlo.after hostOps0_1 (W1 m c) (Proc.devRef .tc main_v14) = _
  generalize hV : W1 m c = V
  after_results
  subst hV
  have h12 : (W1 m c main_v12 : (⟨S16384, .i1⟩ : BufTy).Contents (Elt F)) = val_main_v12 (F := F) (a1 m c) := by
    show StableHlo.after hostOps0 (W0 m c) (Proc.devRef .tc main_v12) = _
    after_results
    rfl
  have h13 : (W1 m c main_v13 : (⟨S16384, .f32⟩ : BufTy).Contents (Elt F)) = val_main_v13 (F := F) (a1 m c) := by
    show StableHlo.after hostOps0 (W0 m c) (Proc.devRef .tc main_v13) = _
    after_results
    rfl
  have hc2 : (W1 m c main_cst_2 : (⟨S_, .f32⟩ : BufTy).Contents (Elt F)) = val_main_cst_2 (F := F) := by
    show StableHlo.after hostOps0 (W0 m c) (Proc.devRef .tc main_cst_2) = _
    after_results
    rfl
  rw [h12, h13, hc2]
  rfl
set_option maxHeartbeats 4000000 in
theorem normK_eq (c : Dev nD) : normK m c = val_main_v29 (F := F) (a1 m c) := by
  show StableHlo.after hostOps0_2 (W2 m c) (Proc.devRef .tc main_v29) = _
  have h3 : (W2 m c main_v3 : (⟨S540672, .i32⟩ : BufTy).Contents (Elt F)) = val_main_v3 (F := F) (a1 m c) :=
    (StableHlo.after_of_writes_sub hostOps0_2 (W2 m c) hostOps0_2_writes (by decide)).symm.trans (srcK_eq m c)
  have h6 : (W2 m c main_v6 : (⟨S540672, .i32⟩ : BufTy).Contents (Elt F)) = val_main_v6 (F := F) (a1 m c) :=
    (StableHlo.after_of_writes_sub hostOps0_2 (W2 m c) hostOps0_2_writes (by decide)).symm.trans (dstK_eq m c)
  have h14 := W2_v14 m c
  generalize W2 m c = V at h3 h6 h14 ⊢
  after_results
  rw [h3, h6, h14]
  rfl
/-- The row handed to region 0 is a row of zeros. -/
theorem row0K_eq (c : Dev nD) :
    row0K m c = shapeCast S1x256 (broadcastInDim S256 ![] bcast_S_S256 (constant (F := F) S_ .f32 0x00000000#32)) shapeCasts_S256_S1x256 := by
  show StableHlo.after hostOps0_2 (W2 m c) (Proc.devRef .tc main_v31) = _
  after_results
  rfl
/-- Region 0's two operand arrays are arguments: no host operation before it writes them. -/
theorem W3_arg0 (c : Dev nD) : (W3 m c main_arg0 : (⟨S16384x512, .f32⟩ : BufTy).Contents (Elt F)) = a0 m c := by
  show StableHlo.after hostOps0_2 (W2 m c) (Proc.devRef .tc main_arg0) = _
  rw [StableHlo.after_of_writes_sub hostOps0_2 _ hostOps0_2_writes (by decide)]
  show StableHlo.after hostOps0_1 (W1 m c) (Proc.devRef .tc main_arg0) = _
  rw [StableHlo.after_of_writes_sub hostOps0_1 _ hostOps0_1_writes (by decide)]
  show StableHlo.after hostOps0 (W0 m c) (Proc.devRef .tc main_arg0) = _
  rw [StableHlo.after_of_writes_sub hostOps0 _ hostOps0_writes (by decide)]
theorem W3_arg2 (c : Dev nD) : (W3 m c main_arg2 : (⟨S512x256, .f32⟩ : BufTy).Contents (Elt F)) = a2 m c := by
  show StableHlo.after hostOps0_2 (W2 m c) (Proc.devRef .tc main_arg2) = _
  rw [StableHlo.after_of_writes_sub hostOps0_2 _ hostOps0_2_writes (by decide)]
  show StableHlo.after hostOps0_1 (W1 m c) (Proc.devRef .tc main_arg2) = _
  rw [StableHlo.after_of_writes_sub hostOps0_1 _ hostOps0_1_writes (by decide)]
  show StableHlo.after hostOps0 (W0 m c) (Proc.devRef .tc main_arg2) = _
  rw [StableHlo.after_of_writes_sub hostOps0 _ hostOps0_writes (by decide)]

/-! ## Reading through a stretch, and cutting one in two -/

/-- A line of operations run to a cut and then from it is the line run whole. -/
theorem after_cut (n : Nat) (ops : List (HloOp τ sig (Elt F))) (V : Valuation τ sig (Elt F)) :
    StableHlo.after ops V = StableHlo.after (ops.drop n) (StableHlo.after (ops.take n) V) :=
  (congrArg (fun l => StableHlo.after l V) (List.take_append_drop n ops).symm).trans (StableHlo.after_append _ _ V)

/-- A reference none of a line's operations writes keeps its contents through the line's first operations. -/
theorem after_take_of_writes_sub {W : List (Ref sig .tc)} {r : Ref sig .tc} (ops : List (HloOp τ sig (Elt F))) (n : Nat)
    (V : Valuation τ sig (Elt F))
    (hW : ops.Forall fun op => op.writes ⊆ (W.map (Proc.devRef (τ := τ) .tc)).toFinset) (hr : r ∉ W) :
    StableHlo.after (ops.take n) V (Proc.devRef .tc r) = V (Proc.devRef .tc r) :=
  StableHlo.after_of_writes_sub (ops.take n) V
    (List.forall_iff_forall_mem.mpr fun op h => (List.forall_iff_forall_mem.mp hW) op (List.mem_of_mem_take h)) hr

/-- A reference that no host operation before region 0 writes holds at region 0's entry what it held at launch. -/
theorem W3_of (c : Dev nD) (r : Ref sig .tc) (h0 : r ∉ hostOps0_W) (h1 : r ∉ hostOps0_1_W) (h2 : r ∉ hostOps0_2_W) :
    W3 m c (Proc.devRef .tc r) = W0 m c (Proc.devRef .tc r) :=
  (StableHlo.after_of_writes_sub hostOps0_2 _ hostOps0_2_writes h2).trans <|
    (StableHlo.after_of_writes_sub hostOps0_1 _ hostOps0_1_writes h1).trans <|
      StableHlo.after_of_writes_sub hostOps0 _ hostOps0_writes h0

/-- Region 0 changes its result array only. -/
theorem W4_of (c : Dev nD) (r : Ref sig .tc) (h : r ≠ main_v32) : W4 m c (Proc.devRef .tc r) = W3 m c (Proc.devRef .tc r) := by
  unfold W4
  exact Function.update_of_ne (StableHlo.devRef_ne_of_ne h : (Proc.devRef .tc r : DevRef τ sig) ≠ Proc.devRef .tc main_v32) _ _

/-- Region 1 changes its result array only. -/
theorem W6_of (c : Dev nD) (r : Ref sig .tc) (h : r ≠ main_v69) : W6 m c (Proc.devRef .tc r) = W5 m c (Proc.devRef .tc r) := by
  unfold W6
  exact Function.update_of_ne (StableHlo.devRef_ne_of_ne h : (Proc.devRef .tc r : DevRef τ sig) ≠ Proc.devRef .tc main_v69) _ _

/-- An argument no host operation writes, read part of the way through the long stretch: what it held at launch. -/
theorem cut_arg (n : Nat) (c : Dev nD) (r : Ref sig .tc) (h0 : r ∉ hostOps0_W) (h1 : r ∉ hostOps0_1_W) (h2 : r ∉ hostOps0_2_W)
    (h32 : r ≠ main_v32) (h3 : r ∉ hostOps1_W) :
    StableHlo.after (hostOps1.take n) (W4 m c) (Proc.devRef .tc r) = W0 m c (Proc.devRef .tc r) :=
  (after_take_of_writes_sub hostOps1 n _ hostOps1_writes h3).trans <| (W4_of m c r h32).trans (W3_of m c r h0 h1 h2)

/-- The hidden layer is complete after the long stretch's first nineteen operations: the rest do not write it. -/
theorem h1K_cut (c : Dev nD) :
    h1K m c = StableHlo.after (hostOps1.take 19) (W4 m c) (Proc.devRef .tc main_v48) := by
  show StableHlo.after hostOps1 (W4 m c) (Proc.devRef .tc main_v48) = _
  rw [after_cut 19 hostOps1 (W4 m c)]
  generalize StableHlo.after (hostOps1.take 19) (W4 m c) = V
  simp only [List.drop_succ_cons, List.drop_zero]
  after_results

/-! ## Between regions 0 and 1, given region 0's result -/

set_option maxHeartbeats 4000000 in
theorem h1K_eq (c : Dev nD) (hxw : xwK m c = val_main_v30 (F := F) (a0 m c) (a2 m c)) :
    h1K m c = val_main_v46 (F := F) (a0 m c) (a1 m c) (a2 m c) (a3 m c) := by
  refine (h1K_cut m c).trans ?_
  have h32 : (W4 m c (Proc.devRef .tc main_v32) : (⟨S16384x256, .f32⟩ : BufTy).Contents (Elt F))
      = val_main_v30 (F := F) (a0 m c) (a2 m c) := hxw
  have h29 : (W4 m c (Proc.devRef .tc main_v29) : (⟨S540672, .f32⟩ : BufTy).Contents (Elt F))
      = val_main_v29 (F := F) (a1 m c) := (W4_of m c main_v29 (by decide)).trans (normK_eq m c)
  have h3 : (W4 m c (Proc.devRef .tc main_v3) : (⟨S540672, .i32⟩ : BufTy).Contents (Elt F))
      = val_main_v3 (F := F) (a1 m c) := (W4_of m c main_v3 (by decide)).trans (srcK_eq m c)
  have h6 : (W4 m c (Proc.devRef .tc main_v6) : (⟨S540672, .i32⟩ : BufTy).Contents (Elt F))
      = val_main_v6 (F := F) (a1 m c) := (W4_of m c main_v6 (by decide)).trans (dstK_eq m c)
  have ha3 : (W4 m c (Proc.devRef .tc main_arg3) : (⟨S256, .f32⟩ : BufTy).Contents (Elt F)) = a3 m c :=
    (W4_of m c main_arg3 (by decide)).trans (W3_of m c main_arg3 (by decide) (by decide) (by decide))
  generalize W4 m c = V at h32 h29 h3 h6 ha3 ⊢
  simp only [List.take_succ_cons, List.take_zero]
  after_results
  rw [h32, h29, h3, h6, ha3]
  rfl
set_option maxHeartbeats 4000000 in
theorem aggK_eq (c : Dev nD) (hxw : xwK m c = val_main_v30 (F := F) (a0 m c) (a2 m c)) :
    aggK m c = val_main_v60 (F := F) (a0 m c) (a1 m c) (a2 m c) (a3 m c) := by
  show StableHlo.after hostOps1 (W4 m c) (Proc.devRef .tc main_v62) = _
  rw [after_cut 19 hostOps1 (W4 m c)]
  have h48 : (StableHlo.after (hostOps1.take 19) (W4 m c) (Proc.devRef .tc main_v48) : (⟨S16384x256, .f32⟩ : BufTy).Contents (Elt F))
      = val_main_v46 (F := F) (a0 m c) (a1 m c) (a2 m c) (a3 m c) := (h1K_cut m c).symm.trans (h1K_eq m c hxw)
  have ha1 : (StableHlo.after (hostOps1.take 19) (W4 m c) (Proc.devRef .tc main_arg1) : (⟨S2x524288, .i32⟩ : BufTy).Contents (Elt F))
      = a1 m c := cut_arg m 19 c main_arg1 (by decide) (by decide) (by decide) (by decide) (by decide)
  generalize StableHlo.after (hostOps1.take 19) (W4 m c) = V at h48 ha1 ⊢
  simp only [List.drop_succ_cons, List.drop_zero]
  after_results
  rw [h48, ha1]
  rfl
/-- The reference computes the neighbour sum twice, once per head: one function. -/
theorem agg_twice (x0 : (⟨Cert.ReferenceIdeal.S16384x512, .f32⟩ : BufTy).Contents (Elt F)) (x1 : (⟨Cert.ReferenceIdeal.S2x524288, .i32⟩ : BufTy).Contents (Elt F))
    (x2 : (⟨Cert.ReferenceIdeal.S512x256, .f32⟩ : BufTy).Contents (Elt F)) (x3 : (⟨Cert.ReferenceIdeal.S256, .f32⟩ : BufTy).Contents (Elt F)) :
    val_main_v80 (F := F) x0 x1 x2 x3 = val_main_v60 (F := F) x0 x1 x2 x3 := by
  rfl
theorem featK_eq (c : Dev nD) :
    featK m c = concatenate S16384x512 1 [⟨S16384x256, aggK m c⟩, ⟨S16384x256, h1K m c⟩] concatenates_S16384x256_S16384x256_S16384x512_d1 := by
  show StableHlo.after hostOps1 (W4 m c) (Proc.devRef .tc main_v63)
    = concatenate S16384x512 1
        [⟨S16384x256, StableHlo.after hostOps1 (W4 m c) (Proc.devRef .tc main_v62)⟩,
         ⟨S16384x256, StableHlo.after hostOps1 (W4 m c) (Proc.devRef .tc main_v48)⟩]
        concatenates_S16384x256_S16384x256_S16384x512_d1
  rw [after_cut 36 hostOps1 (W4 m c)]
  generalize StableHlo.after (hostOps1.take 36) (W4 m c) = V
  have e62 : (StableHlo.after (hostOps1.drop 36) V (Proc.devRef .tc main_v62) : (⟨S16384x256, .f32⟩ : BufTy).Contents (Elt F))
      = V (Proc.devRef .tc main_v62) := by
    simp only [List.drop_succ_cons, List.drop_zero]
    after_results
  have e48 : (StableHlo.after (hostOps1.drop 36) V (Proc.devRef .tc main_v48) : (⟨S16384x256, .f32⟩ : BufTy).Contents (Elt F))
      = V (Proc.devRef .tc main_v48) := by
    simp only [List.drop_succ_cons, List.drop_zero]
    after_results
  rw [e62, e48]
  simp only [List.drop_succ_cons, List.drop_zero]
  after_results
theorem wcK_eq (c : Dev nD) :
    wcK m c = concatenate S512x256 1
      [⟨S512x128, concatenate S512x128 0 [⟨S256x128, a4 m c⟩, ⟨S256x128, a5 m c⟩] concatenates_S256x128_S256x128_S512x128_d0⟩,
       ⟨S512x128, concatenate S512x128 0 [⟨S256x128, a7 m c⟩, ⟨S256x128, a8 m c⟩] concatenates_S256x128_S256x128_S512x128_d0⟩]
      concatenates_S512x128_S512x128_S512x256_d1 := by
  show StableHlo.after hostOps1 (W4 m c) (Proc.devRef .tc main_v66) = _
  rw [after_cut 36 hostOps1 (W4 m c)]
  have h4 : (StableHlo.after (hostOps1.take 36) (W4 m c) (Proc.devRef .tc main_arg4) : (⟨S256x128, .f32⟩ : BufTy).Contents (Elt F))
      = a4 m c := cut_arg m 36 c main_arg4 (by decide) (by decide) (by decide) (by decide) (by decide)
  have h5 : (StableHlo.after (hostOps1.take 36) (W4 m c) (Proc.devRef .tc main_arg5) : (⟨S256x128, .f32⟩ : BufTy).Contents (Elt F))
      = a5 m c := cut_arg m 36 c main_arg5 (by decide) (by decide) (by decide) (by decide) (by decide)
  have h7 : (StableHlo.after (hostOps1.take 36) (W4 m c) (Proc.devRef .tc main_arg7) : (⟨S256x128, .f32⟩ : BufTy).Contents (Elt F))
      = a7 m c := cut_arg m 36 c main_arg7 (by decide) (by decide) (by decide) (by decide) (by decide)
  have h8 : (StableHlo.after (hostOps1.take 36) (W4 m c) (Proc.devRef .tc main_arg8) : (⟨S256x128, .f32⟩ : BufTy).Contents (Elt F))
      = a8 m c := cut_arg m 36 c main_arg8 (by decide) (by decide) (by decide) (by decide) (by decide)
  generalize StableHlo.after (hostOps1.take 36) (W4 m c) = V at h4 h5 h7 h8 ⊢
  simp only [List.drop_succ_cons, List.drop_zero]
  after_results
  rw [h4, h5, h7, h8]
theorem rowK_eq (c : Dev nD) :
    rowK m c = shapeCast S1x256 (concatenate S256 0 [⟨S128, a6 m c⟩, ⟨S128, a9 m c⟩] concatenates_S128_S128_S256_d0) shapeCasts_S256_S1x256 := by
  show StableHlo.after hostOps1 (W4 m c) (Proc.devRef .tc main_v68) = _
  rw [after_cut 36 hostOps1 (W4 m c)]
  have h6 : (StableHlo.after (hostOps1.take 36) (W4 m c) (Proc.devRef .tc main_arg6) : (⟨S128, .f32⟩ : BufTy).Contents (Elt F))
      = a6 m c := cut_arg m 36 c main_arg6 (by decide) (by decide) (by decide) (by decide) (by decide)
  have h9 : (StableHlo.after (hostOps1.take 36) (W4 m c) (Proc.devRef .tc main_arg9) : (⟨S128, .f32⟩ : BufTy).Contents (Elt F))
      = a9 m c := cut_arg m 36 c main_arg9 (by decide) (by decide) (by decide) (by decide) (by decide)
  generalize StableHlo.after (hostOps1.take 36) (W4 m c) = V at h6 h9 ⊢
  simp only [List.drop_succ_cons, List.drop_zero]
  after_results
  rw [h6, h9]
  rfl

/-! ## Between regions 1 and 2 -/

theorem muK_eq (c : Dev nD) : muK m c = extractStridedSlice S16384x128 ![0, 0] (projK m c) slices_S16384x256_S16384x128_0_0 := by
  show StableHlo.after hostOps2 (W6 m c) (Proc.devRef .tc main_v70)
    = extractStridedSlice S16384x128 ![0, 0] (W6 m c (Proc.devRef .tc main_v69)) slices_S16384x256_S16384x128_0_0
  generalize W6 m c = V
  after_results
theorem lvK_eq (c : Dev nD) : lvK m c = extractStridedSlice S16384x128 ![0, 128] (projK m c) slices_S16384x256_S16384x128_0_128 := by
  show StableHlo.after hostOps2 (W6 m c) (Proc.devRef .tc main_v71)
    = extractStridedSlice S16384x128 ![0, 128] (W6 m c (Proc.devRef .tc main_v69)) slices_S16384x256_S16384x128_0_128
  generalize W6 m c = V
  after_results
theorem zK_eq (c : Dev nD) : zK m c = addf (mulf (a10 m c) (Host.exp (lvK m c))) (muK m c) := by
  show StableHlo.after hostOps2 (W6 m c) (Proc.devRef .tc main_v74)
    = addf (mulf (a10 m c) (Host.exp (StableHlo.after hostOps2 (W6 m c) (Proc.devRef .tc main_v71))))
        (StableHlo.after hostOps2 (W6 m c) (Proc.devRef .tc main_v70))
  have h10 : (W6 m c (Proc.devRef .tc main_arg10) : (⟨S16384x128, .f32⟩ : BufTy).Contents (Elt F)) = a10 m c :=
    (W6_of m c main_arg10 (by decide)).trans <|
      (StableHlo.after_of_writes_sub hostOps1 _ hostOps1_writes (by decide)).trans <|
        (W4_of m c main_arg10 (by decide)).trans (W3_of m c main_arg10 (by decide) (by decide) (by decide))
  generalize W6 m c = V at h10 ⊢
  after_results
  rw [h10]
theorem zbK_eq (c : Dev nD) : zbK m c = truncf .bf16 (zK m c) bitsLt_bf16_f32 := by
  show StableHlo.after hostOps2 (W6 m c) (Proc.devRef .tc main_v75)
    = truncf .bf16 (StableHlo.after hostOps2 (W6 m c) (Proc.devRef .tc main_v74)) bitsLt_bf16_f32
  generalize W6 m c = V
  after_results

end Cert.KernelIdeal.Hand

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibDenseLayer.lean ====
/-
  ONE DENSE LAYER ON A BLOCK OF ROWS, SET BESIDE THE SAME LAYER ON THE WHOLE ARRAY, READ AT ONE ENTRY.

  A dense layer sends a row x of K numbers to the row  q ↦ (Σ_k x_k · w(k, q)) + c(0, q),  optionally followed by the
  rectifier max(·, 0). It acts on every row by itself. So if row p of a block [n, K] is row r of an array [N, K], then
  entry (p, q) of the layer applied to the block is entry (r, q) of the layer applied to the array:

  * product_entry: the matrix unit's product into a zero accumulator, both operands narrowed on the way in, against
    the host's product (a change of float format is the identity on the extended reals, and both products are the
    sum over k of left (row, k) · right (k, q), in the same order);
  * hidden_entry: product, bias row broadcast down the rows, rectifier;
  * out_entry: product and bias row only.

  The bias is a 1 x b row on both sides; the block broadcasts it as a vector broadcast, the array along its two axes.
  Generic in the extents; a program's dimension numbers enter through an equation with the plain rows-by-columns
  record.
-/
import proofs.«101961_j3100966387958_1_alg».proof.Proof.LibBlocks

noncomputable section

open scoped BigOperators

namespace Cert.LibDenseLayer

open Idealize.ShloMosaic Idealize.ShloMosaic.ValueIdx

variable {n N K b : Nat}

/-- The product: entry (p, q) of block times matrix is entry (r, q) of array times matrix, when block row p is array
    row r. -/
theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

/-- The bias row broadcast down the rows of a block, at entry (p, q): the row's entry q. -/
theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- The bias row broadcast along both axes of the array, at entry (r, q): the row's entry q. -/
theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-- Product and bias: entry (p, q) on the block is entry (r, q) on the array. -/
theorem out_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    addf (matmul dk none (truncf .bf16 X hlt) (truncf .bf16 w hlt) (constant ⟨2, ![n, b]⟩ .f32 0x00000000#32))
        (broadcastTo ⟨2, ![n, b]⟩ (shapeCast ⟨2, ![1, b]⟩ c hc1) hb) (ix2 p q)
      = addf (Host.dotGeneral dr none XX w) (broadcastInDim ⟨2, ![N, b]⟩ ![0, 1] hbd c) (ix2 r q) := by
  rw [addf_apply, addf_apply, product_entry dk hdk dr hdr hlt X XX w p r h0 q, bias_block_entry hc1 hb c p q,
    bias_array_entry hbd c r q]

/-- Product, bias and rectifier: entry (p, q) on the block is entry (r, q) on the array. -/
theorem hidden_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    maximumf (addf (matmul dk none (truncf .bf16 X hlt) (truncf .bf16 w hlt) (constant ⟨2, ![n, b]⟩ .f32 0x00000000#32))
          (broadcastTo ⟨2, ![n, b]⟩ (shapeCast ⟨2, ![1, b]⟩ c hc1) hb))
        (broadcast ⟨2, ![n, b]⟩ (Scalar.ofBits (F := Ideal) .f32 0x00000000#32)) (ix2 p q)
      = maximumf (addf (Host.dotGeneral dr none XX w) (broadcastInDim ⟨2, ![N, b]⟩ ![0, 1] hbd c))
        (broadcastInDim ⟨2, ![N, b]⟩ ![] hz (constant (F := Ideal) ⟨0, ![]⟩ .f32 0x00000000#32)) (ix2 r q) := by
  rw [maximumf_apply, maximumf_apply, out_entry dk hdk dr hdr hlt hc1 hb hbd X XX w c p r h0 q,
    broadcastInDim_apply ![] hz (constant (F := Ideal) ⟨0, ![]⟩ .f32 0x00000000#32) (ix2 r q) ix0 (fun a => a.elim0)]
  rfl

end Cert.LibDenseLayer

end
-- ==== Proof.KI.Val0.lean ====
/-
  What region 0 leaves in its result array, at the extended reals, as ONE function of the arrays it is entered with.

  Point `t` of the grid of 8 writes back the block of rows 2048 t … 2048 t + 2047: the body's payload of the block of
  the same rows of the left operand, the whole right operand and the whole 1 × 256 row. Entry (p, q) of that payload is
  the sum over k of left (2048 t + p, k) · right (k, q), plus row (0, q): entry (2048 t + p, q) of the host's product of
  the whole arrays plus the row broadcast down the rows. The eight blocks tile the result array, so after the region the
  array is that whole-array expression.
-/
import proofs.«101961_j3100966387958_1_alg».proof.Proof.KI.Fold
import proofs.«101961_j3100966387958_1_alg».proof.Proof.LibDenseLayer
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-- Region 0's operand arrays and result array, at their vector types. -/
abbrev lhs0 (c : Dev nD) : FVec Ideal S16384x512 .f32 := W3 m c main_arg0
abbrev rhs0 (c : Dev nD) : FVec Ideal S512x256 .f32 := W3 m c main_arg2
abbrev row0 (c : Dev nD) : FVec Ideal S1x256 .f32 := W3 m c main_v31
abbrev res32 (c : Dev nD) : FVec Ideal S16384x256 .f32 := out32 m c

/-- The offsets of a whole-block rectangle are all zero. -/
theorem offsets_zero0 : (![0, 0] : Fin 2 → Nat) = fun _ => 0 := funext fun a => by fin_cases a <;> rfl

/-- The product of the whole arrays plus the row broadcast down the rows, as a function of the three arrays. -/
abbrev whole0 (X : FVec Ideal S16384x512 .f32) (w : FVec Ideal S512x256 .f32) (b : FVec Ideal S1x256 .f32) :
    FVec Ideal S16384x256 .f32 :=
  addf (Host.dotGeneral (DotDims.plain 16384 512 256) none X w)
    (broadcastInDim S16384x256 ![0, 1] bcast_S1x256_S16384x256_0_1 b)

/-- The printed index maps over the grid of 8: the left operand's and the result's block of rows is the point's own,
    every other block index is 0. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, q) of what the body stores, on blocks given as vectors: entry (r, q) of the whole-array expression, when
    row p of the left block is row r of the left array. -/
theorem stored0_entry (x0 : Vec Ideal S2048x512 .f32) (x1 : Vec Ideal S512x256 .f32) (x2 : Vec Ideal S1x256 .f32)
    (XX : FVec Ideal S16384x512 .f32) (p : Fin 2048) (r : Fin 16384)
    (h0 : ∀ k : Fin 512, x0 (ix2 p k) = XX (ix2 r k)) (q : Fin 256) :
    stored0 x0 x1 x2 (ix2 p q) = whole0 XX x1 x2 (ix2 r q) := by
  unfold stored0
  rw [View.canon_unit_zero offsets_zero0]
  simp only [View.ld_unit_zero (S := S2048x512) offsets_zero0, View.ld_unit_zero (S := S512x256) offsets_zero0,
    View.ld_unit_zero (S := S1x256) offsets_zero0]
  exact Cert.LibDenseLayer.out_entry dot_S2048x512_S512x256_S2048x256_1_0_0_1_n_n rfl (DotDims.plain 16384 512 256) rfl
    bitsLt_bf16_f32 shapeCasts_S1x256_S1x256 broadcasts_S1x256_S2048x256 bcast_S1x256_S16384x256_0_1 x0 XX x1 x2 p r h0 q

/-- The same at any index j of the block and any index i of the array with row j 0 of the left block row i 0 of the
    left array and the same column; the right block and the row block given as whole arrays. -/
theorem stored0_at (x0 : Vec Ideal S2048x512 .f32) (x1 : Vec Ideal S512x256 .f32) (x2 : Vec Ideal S1x256 .f32)
    (XX : FVec Ideal S16384x512 .f32) (ww : FVec Ideal S512x256 .f32) (bb : FVec Ideal S1x256 .f32)
    (h1 : x1 = ww) (h2 : x2 = bb) (j : S2048x256.Idx) (i : S16384x256.Idx)
    (h0 : ∀ k : Fin 512, x0 (ix2 (j 0) k) = XX (ix2 (i 0) k)) (hq : (i 1).val = (j 1).val) :
    stored0 x0 x1 x2 j = whole0 XX ww bb i := by
  subst h1; subst h2
  obtain ⟨p, q, rfl⟩ : ∃ p q, j = ix2 p q := ⟨j 0, j 1, eq_ix2 j⟩
  obtain ⟨r, q', rfl⟩ : ∃ r q', i = ix2 r q' := ⟨i 0, i 1, eq_ix2 i⟩
  have hqq : q' = q := Fin.ext hq
  subst hqq
  exact stored0_entry x0 x1 x2 XX p r h0 q'

/-- The left operand's block at point t: rows 2048 t … of the left array. -/
theorem left_block0 (c : Dev nD) (t : Fin cfg0.N) (p : Fin 2048) (k : Fin 512) (r : Fin 16384)
    (hr : r.val = t.val * 2048 + p.val) :
    blockAt0 (E0 m) c 0 t (ix2 p k) = lhs0 m c (ix2 r k) := by
  obtain ⟨e0, e1, -⟩ := index_facts0 t
  show W3 m c main_arg0 (((cfg0.win 0).blk t).view.emb (ix2 p k)) = W3 m c main_arg0 (ix2 r k)
  refine congrArg _ (funext fun a => Fin.ext ?_)
  match a with
  | ⟨0, _⟩ => show win0_0.index t (0 : Fin 2) * 2048 + 1 * p.val = r.val; omega
  | ⟨1, _⟩ => show win0_0.index t (1 : Fin 2) * 512 + 1 * k.val = k.val; omega

/-- The right operand's block at any point is the whole right array. -/
theorem right_block0 (c : Dev nD) (t : Fin cfg0.N) : blockAt0 (E0 m) c 1 t = rhs0 m c := by
  obtain ⟨-, -, e0, e1, -⟩ := index_facts0 t
  funext y
  show W3 m c main_arg2 (((cfg0.win 1).blk t).view.emb y) = W3 m c main_arg2 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 256 + 1 * (y 1).val = (y 1).val; omega

/-- The row's block at any point is the whole row. -/
theorem row_block0 (c : Dev nD) (t : Fin cfg0.N) : blockAt0 (E0 m) c 2 t = row0 m c := by
  obtain ⟨-, -, -, -, e0, e1, -⟩ := index_facts0 t
  funext y
  show W3 m c main_v31 (((cfg0.win 2).blk t).view.emb y) = W3 m c main_v31 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- What point t writes back is block t of the whole-array expression of the arrays the region is entered with. -/
theorem flushed0_eq (c : Dev nD) (t : Fin cfg0.N) :
    (dat0 (E0 m) c).flushed 3 t
      = ((cfg0.win 3).blk t).view.read (Elt Ideal) (whole0 (lhs0 m c) (rhs0 m c) (row0 m c)) := by
  show (cfg0.win 3).cut (grid0.coords t) ((dat0 (E0 m) c).after 3 t) = _
  rw [after0_3]
  obtain ⟨-, -, -, -, -, -, e0, e1⟩ := index_facts0 t
  funext j
  show stored0 (blockAt0 (E0 m) c 0 t) (blockAt0 (E0 m) c 1 t) (blockAt0 (E0 m) c 2 t) ((cfg0.win 3).xinj (grid0.coords t) j)
    = whole0 (lhs0 m c) (rhs0 m c) (row0 m c) (((cfg0.win 3).blk t).view.emb j)
  refine stored0_at (blockAt0 (E0 m) c 0 t) (blockAt0 (E0 m) c 1 t) (blockAt0 (E0 m) c 2 t) (lhs0 m c) (rhs0 m c) (row0 m c)
    (right_block0 m c t) (row_block0 m c t) ((cfg0.win 3).xinj (grid0.coords t) j) (((cfg0.win 3).blk t).view.emb j)
    (fun k => left_block0 m c t ⟨(j 0).val, (j 0).isLt⟩ k ((((cfg0.win 3).blk t).view.emb j) 0) ?_) ?_
  · show win0_3.index t (0 : Fin 2) * 2048 + 1 * (j 0).val = t.val * 2048 + (j 0).val; omega
  · show win0_3.index t (1 : Fin 2) * 256 + 1 * (j 1).val = (j 1).val; omega

/-- An index of the result array is in point t's block iff each coordinate is in the block's range on its axis. -/
theorem mem_block0 (t : Fin cfg0.N) (i : S16384x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v32).slice (win0_3.rect t)).set ↔ _
  rw [View.set_slice_whole, Rect.mem_set_unit]
  exact Iff.rfl

/-- The eight blocks tile the result array: row r is in the block of point r / 2048. -/
theorem cover0 (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  obtain ⟨t, ht⟩ : ∃ t : Fin cfg0.N, t.val = (i 0).val / 2048 := ⟨⟨(i 0).val / 2048, by rw [show cfg0.N = 8 from N_0]; omega⟩, rfl⟩
  obtain ⟨-, -, -, -, -, -, e0, e1⟩ := index_facts0 t
  refine ⟨t, flush0_3 t, ?_⟩
  rw [mem_block0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- After region 0 its result array is the product of the two operand arrays plus the row, as the host would compute them. -/
theorem out32_eq (c : Dev nD) :
    res32 m c = addf (Host.dotGeneral (DotDims.plain 16384 512 256) none (lhs0 m c) (rhs0 m c))
      (broadcastInDim S16384x256 ![0, 1] bcast_S1x256_S16384x256_0_1 (row0 m c)) := by
  unfold res32 out32
  exact (dat0 (E0 m) c).arrAt_eq_of_cover 3 (whole0 (lhs0 m c) (rhs0 m c) (row0 m c)) (fun t _ => flushed0_eq m c t) (cover0)

end Cert.KernelIdeal.Hand

end
-- ==== Proof.KI.Val1.lean ====
/-
  What region 1 leaves in its result array, at the extended reals, as ONE function of the arrays it is entered with:
  the product of the joined features [16384, 512] with the joined weights [512, 256] plus the joined bias row broadcast
  down the rows, as the host would compute them. The argument is region 0's: the body is the same up to two reshapes of
  a block to its own shape, the grid and the index maps are the same.
-/
import proofs.«101961_j3100966387958_1_alg».proof.Proof.KI.Fold
import proofs.«101961_j3100966387958_1_alg».proof.Proof.LibDenseLayer
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-- Region 1's operand arrays and result array, at their vector types. -/
abbrev lhs1 (c : Dev nD) : FVec Ideal S16384x512 .f32 := W5 m c main_v63
abbrev rhs1 (c : Dev nD) : FVec Ideal S512x256 .f32 := W5 m c main_v66
abbrev row1 (c : Dev nD) : FVec Ideal S1x256 .f32 := W5 m c main_v68
abbrev res69 (c : Dev nD) : FVec Ideal S16384x256 .f32 := out69 m c

/-- The offsets of a whole-block rectangle are all zero. -/
theorem offsets_zero1 : (![0, 0] : Fin 2 → Nat) = fun _ => 0 := funext fun a => by fin_cases a <;> rfl

/-- The product of the whole arrays plus the row broadcast down the rows, as a function of the three arrays. -/
abbrev whole1 (X : FVec Ideal S16384x512 .f32) (w : FVec Ideal S512x256 .f32) (b : FVec Ideal S1x256 .f32) :
    FVec Ideal S16384x256 .f32 :=
  addf (Host.dotGeneral (DotDims.plain 16384 512 256) none X w)
    (broadcastInDim S16384x256 ![0, 1] bcast_S1x256_S16384x256_0_1 b)

/-- The printed index maps over the grid of 8: the left operand's and the result's block of rows is the point's own,
    every other block index is 0. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, q) of what the body stores, on blocks given as vectors: entry (r, q) of the whole-array expression, when
    row p of the left block is row r of the left array. The two reshapes of a block to its own shape change nothing. -/
theorem stored1_entry (x0 : Vec Ideal S2048x512 .f32) (x1 : Vec Ideal S512x256 .f32) (x2 : Vec Ideal S1x256 .f32)
    (XX : FVec Ideal S16384x512 .f32) (p : Fin 2048) (r : Fin 16384)
    (h0 : ∀ k : Fin 512, x0 (ix2 p k) = XX (ix2 r k)) (q : Fin 256) :
    stored1 x0 x1 x2 (ix2 p q) = whole1 XX x1 x2 (ix2 r q) := by
  unfold stored1
  rw [View.canon_unit_zero offsets_zero1]
  simp only [View.ld_unit_zero (S := S2048x512) offsets_zero1, View.ld_unit_zero (S := S512x256) offsets_zero1,
    View.ld_unit_zero (S := S1x256) offsets_zero1]
  unfold k1_pay1
  rw [shapeCast_self x0 shapeCasts_S2048x512_S2048x512, shapeCast_self x1 shapeCasts_S512x256_S512x256]
  exact Cert.LibDenseLayer.out_entry dot_S2048x512_S512x256_S2048x256_1_0_0_1_n_n rfl (DotDims.plain 16384 512 256) rfl
    bitsLt_bf16_f32 shapeCasts_S1x256_S1x256 broadcasts_S1x256_S2048x256 bcast_S1x256_S16384x256_0_1 x0 XX x1 x2 p r h0 q

/-- The same at any index j of the block and any index i of the array with row j 0 of the left block row i 0 of the
    left array and the same column; the right block and the row block given as whole arrays. -/
theorem stored1_at (x0 : Vec Ideal S2048x512 .f32) (x1 : Vec Ideal S512x256 .f32) (x2 : Vec Ideal S1x256 .f32)
    (XX : FVec Ideal S16384x512 .f32) (ww : FVec Ideal S512x256 .f32) (bb : FVec Ideal S1x256 .f32)
    (h1 : x1 = ww) (h2 : x2 = bb) (j : S2048x256.Idx) (i : S16384x256.Idx)
    (h0 : ∀ k : Fin 512, x0 (ix2 (j 0) k) = XX (ix2 (i 0) k)) (hq : (i 1).val = (j 1).val) :
    stored1 x0 x1 x2 j = whole1 XX ww bb i := by
  subst h1; subst h2
  obtain ⟨p, q, rfl⟩ : ∃ p q, j = ix2 p q := ⟨j 0, j 1, eq_ix2 j⟩
  obtain ⟨r, q', rfl⟩ : ∃ r q', i = ix2 r q' := ⟨i 0, i 1, eq_ix2 i⟩
  have hqq : q' = q := Fin.ext hq
  subst hqq
  exact stored1_entry x0 x1 x2 XX p r h0 q'

/-- The left operand's block at point t: rows 2048 t … of the left array. -/
theorem left_block1 (c : Dev nD) (t : Fin cfg1.N) (p : Fin 2048) (k : Fin 512) (r : Fin 16384)
    (hr : r.val = t.val * 2048 + p.val) :
    blockAt1 (E1 m) c 0 t (ix2 p k) = lhs1 m c (ix2 r k) := by
  obtain ⟨e0, e1, -⟩ := index_facts1 t
  show W5 m c main_v63 (((cfg1.win 0).blk t).view.emb (ix2 p k)) = W5 m c main_v63 (ix2 r k)
  refine congrArg _ (funext fun a => Fin.ext ?_)
  match a with
  | ⟨0, _⟩ => show win1_0.index t (0 : Fin 2) * 2048 + 1 * p.val = r.val; omega
  | ⟨1, _⟩ => show win1_0.index t (1 : Fin 2) * 512 + 1 * k.val = k.val; omega

/-- The right operand's block at any point is the whole right array. -/
theorem right_block1 (c : Dev nD) (t : Fin cfg1.N) : blockAt1 (E1 m) c 1 t = rhs1 m c := by
  obtain ⟨-, -, e0, e1, -⟩ := index_facts1 t
  funext y
  show W5 m c main_v66 (((cfg1.win 1).blk t).view.emb y) = W5 m c main_v66 y
  refine congrArg _ (funext fun a => Fin.ext ?_)
  match a with
  | ⟨0, _⟩ => show win1_1.index t (0 : Fin 2) * 512 + 1 * (y 0).val = (y 0).val; omega
  | ⟨1, _⟩ => show win1_1.index t (1 : Fin 2) * 256 + 1 * (y 1).val = (y 1).val; omega

/-- The row's block at any point is the whole row. -/
theorem row_block1 (c : Dev nD) (t : Fin cfg1.N) : blockAt1 (E1 m) c 2 t = row1 m c := by
  obtain ⟨-, -, -, -, e0, e1, -⟩ := index_facts1 t
  funext y
  show W5 m c main_v68 (((cfg1.win 2).blk t).view.emb y) = W5 m c main_v68 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- What point t writes back is block t of the whole-array expression of the arrays the region is entered with. -/
theorem flushed1_eq (c : Dev nD) (t : Fin cfg1.N) :
    (dat1 (E1 m) c).flushed 3 t
      = ((cfg1.win 3).blk t).view.read (Elt Ideal) (whole1 (lhs1 m c) (rhs1 m c) (row1 m c)) := by
  show (cfg1.win 3).cut (grid1.coords t) ((dat1 (E1 m) c).after 3 t) = _
  rw [after1_3]
  obtain ⟨-, -, -, -, -, -, e0, e1⟩ := index_facts1 t
  funext j
  show stored1 (blockAt1 (E1 m) c 0 t) (blockAt1 (E1 m) c 1 t) (blockAt1 (E1 m) c 2 t) ((cfg1.win 3).xinj (grid1.coords t) j)
    = whole1 (lhs1 m c) (rhs1 m c) (row1 m c) (((cfg1.win 3).blk t).view.emb j)
  refine stored1_at (blockAt1 (E1 m) c 0 t) (blockAt1 (E1 m) c 1 t) (blockAt1 (E1 m) c 2 t) (lhs1 m c) (rhs1 m c) (row1 m c)
    (right_block1 m c t) (row_block1 m c t) ((cfg1.win 3).xinj (grid1.coords t) j) (((cfg1.win 3).blk t).view.emb j)
    (fun k => left_block1 m c t ⟨(j 0).val, (j 0).isLt⟩ k ((((cfg1.win 3).blk t).view.emb j) 0) ?_) ?_
  · show win1_3.index t (0 : Fin 2) * 2048 + 1 * (j 0).val = t.val * 2048 + (j 0).val; omega
  · show win1_3.index t (1 : Fin 2) * 256 + 1 * (j 1).val = (j 1).val; omega

/-- An index of the result array is in point t's block iff each coordinate is in the block's range on its axis. -/
theorem mem_block1 (t : Fin cfg1.N) (i : S16384x256.Idx) :
    i ∈ ((cfg1.win 3).blk t).view.set ↔ ∀ a : Fin 2, win1_3.index t a * S2048x256.size a ≤ (i a).val
      ∧ (i a).val < win1_3.index t a * S2048x256.size a + S2048x256.size a := by
  show i ∈ ((View.whole main_v69).slice (win1_3.rect t)).set ↔ _
  rw [View.set_slice_whole, Rect.mem_set_unit]
  exact Iff.rfl

/-- The eight blocks tile the result array: row r is in the block of point r / 2048. -/
theorem cover1 (i : S16384x256.Idx) :
    ∃ t : Fin cfg1.N, (cfg1.win 3).flush t = true ∧ i ∈ ((cfg1.win 3).blk t).view.set := by
  have hi0 : (i 0).val < 16384 := (i 0).isLt
  have hi1 : (i 1).val < 256 := (i 1).isLt
  obtain ⟨t, ht⟩ : ∃ t : Fin cfg1.N, t.val = (i 0).val / 2048 := ⟨⟨(i 0).val / 2048, by rw [show cfg1.N = 8 from N_1]; omega⟩, rfl⟩
  obtain ⟨-, -, -, -, -, -, e0, e1⟩ := index_facts1 t
  refine ⟨t, flush1_3 t, ?_⟩
  rw [mem_block1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 256 ≤ (i 1).val ∧ (i 1).val < win1_3.index t (1 : Fin 2) * 256 + 256; omega

/-- After region 1 its result array is the product of the two operand arrays plus the row, as the host would compute them. -/
theorem out69_eq (c : Dev nD) :
    res69 m c = addf (Host.dotGeneral (DotDims.plain 16384 512 256) none (lhs1 m c) (rhs1 m c))
      (broadcastInDim S16384x256 ![0, 1] bcast_S1x256_S16384x256_0_1 (row1 m c)) := by
  unfold res69 out69
  exact (dat1 (E1 m) c).arrAt_eq_of_cover 3 (whole1 (lhs1 m c) (rhs1 m c) (row1 m c)) (fun t _ => flushed1_eq m c t) (cover1)

end Cert.KernelIdeal.Hand

end
-- ==== Proof.KI.Reg0.lean ====
/-
  Region 0 of @main as a segment: entered from every unscoped buffer at the contents after the third stretch of host
  operations, left at those contents with its result array replaced by what the pipeline's write-backs leave.
  At entry the region's four arrays are taken out of the unscoped buffers, at exit they are put back; the generator
  register goes into the class invariant and comes out; nothing is owed; the kernel names no semaphore of its own.
-/
import proofs.«101961_j3100966387958_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => W4 m c b) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/-
  Region 1 of @main as a segment: entered from every unscoped buffer at the contents after the long stretch of host
  operations, left at those contents with its result array replaced by what the pipeline's write-backs leave.
  At entry the region's four arrays are taken out of the unscoped buffers, at exit they are put back; the generator
  register goes into the class invariant and comes out; nothing is owed; the kernel names no semaphore of its own.
-/
import proofs.«101961_j3100966387958_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => W6 m c b) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
/-
  Region 2 of @main (the decoder) as a segment: entered from every unscoped buffer at the contents after the six host
  operations, left at those contents with the result array replaced by what the pipeline's write-backs leave.

  Its two input windows read ONE array, the narrowed sample. At entry that array's buffer, held whole, is split into
  the two halves of its share, one per window; at exit the two halves, still at the entry contents (an input window
  writes nothing back), are joined again. The result array is held whole throughout.
-/
import proofs.«101961_j3100966387958_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The distinct buffers behind region 2's three windows: the narrowed sample and the result. -/
theorem arrs2 : Finset.univ.image (Pipeline.arrRef spec2) = ({main_v75, main_v76} : Finset (Ref sig .tc)) := by decide

/-- ENTRY: the two buffers, whole at the entry contents, are the three windows' arrays at the proof data's shares. -/
theorem split2 (c : Dev nD) :
    (Pipeline.arrBufs (Ix := Unit) (Name := ℕ) (U := UR sig nD τ) (Lvl := ℕ) spec2 c (E2 m c) : sProp 𝕄)
      ⊢ (dat2 (E2 m) c).arrays ((dat2 (E2 m) c).arrAt · 0) := by
  unfold Pipeline.arrBufs Pipeline.Dat.arrays
  rw [arrs2, bigSep_insert (by decide), bigSep_singleton, bigSep_W2]
  rw [(arr_whole2 0).set_eq_univ, (arr_whole2 2).set_eq_univ]
  show iprop(((c : Thread nD τ).loc main_v75 ↦{fullShare} E2 m c main_v75) ∗ ((c : Thread nD τ).loc main_v76 ↦{fullShare} E2 m c main_v76)) ⊢
    (iprop(((c : Thread nD τ).loc main_v75 ↦{fullShare.left} E2 m c main_v75) ∗ ((c : Thread nD τ).loc main_v75 ↦{fullShare.right} E2 m c main_v75)
      ∗ ((c : Thread nD τ).loc main_v76 ↦{fullShare} E2 m c main_v76)) : sProp 𝕄)
  have hhalves : (((c : Thread nD τ).loc main_v75 ↦{fullShare} E2 m c main_v75) : sProp 𝕄)
      ⊢ iprop(((c : Thread nD τ).loc main_v75 ↦{fullShare.left} E2 m c main_v75) ∗ ((c : Thread nD τ).loc main_v75 ↦{fullShare.right} E2 m c main_v75)) :=
    (pointsTo_share (PosShare.mem_left_op_right fullShare)).1
  iintro ⟨H75, H76⟩
  ihave H := hhalves $$ H75
  icases H with ⟨Hl, Hr⟩
  isplitl [Hl]; · iexact Hl
  isplitl [Hr]; · iexact Hr
  iexact H76

/-- At region 2's exit the narrowed sample's array holds what it held at entry, which is what the contents after the
    region say, and the result array what the region leaves. -/
theorem exit2_in (c : Dev nD) : E2 m c main_v75 = W8 m c main_v75 := by
  unfold W8; exact (Function.update_of_ne (StableHlo.devRef_ne_of_ne (by decide) : (Proc.devRef .tc main_v75 : DevRef τ sig) ≠ Proc.devRef .tc main_v76) _ _).symm
theorem exit2_out (c : Dev nD) : out76 m c = W8 m c main_v76 := by
  show out76 m c = Function.update (W7 m c) (Proc.devRef .tc main_v76 : DevRef τ sig) (out76 m c) (Proc.devRef .tc main_v76)
  rw [Function.update_self]
/-- Off its two buffers region 2 changes nothing. -/
theorem rest2 (c : Dev nD) (b : Ref sig .tc) (hb : b ∉ Finset.univ.image (Pipeline.arrRef spec2)) : W8 m c b = E2 m c b := by
  have hne : b ≠ main_v76 := fun e => hb (by rw [e, arrs2]; decide)
  unfold W8
  exact Function.update_of_ne (StableHlo.devRef_ne_of_ne hne : (Proc.devRef .tc b : DevRef τ sig) ≠ Proc.devRef .tc main_v76) _ _

/-- EXIT: the three windows' arrays at their final contents are the two buffers, whole, at the contents after the region. -/
theorem join2 (c : Dev nD) :
    (dat2 (E2 m) c).arrays ((dat2 (E2 m) c).arrAt · cfg2.N)
      ⊢ (Pipeline.arrBufs (Ix := Unit) (Name := ℕ) (U := UR sig nD τ) (Lvl := ℕ) spec2 c (fun b => W8 m c b) : sProp 𝕄) := by
  unfold Pipeline.arrBufs Pipeline.Dat.arrays
  rw [arrs2, bigSep_insert (by decide), bigSep_singleton, bigSep_W2]
  rw [(arr_whole2 0).set_eq_univ, (arr_whole2 2).set_eq_univ]
  have h0 : (dat2 (E2 m) c).arrAt 0 cfg2.N = E2 m c main_v75 := ((dat2 (E2 m) c).arrAt_in 0 rfl _).trans (A_eq2 (E2 m) c 0)
  have h1 : (dat2 (E2 m) c).arrAt 1 cfg2.N = E2 m c main_v75 := ((dat2 (E2 m) c).arrAt_in 1 rfl _).trans (A_eq2 (E2 m) c 1)
  show iprop(((c : Thread nD τ).loc main_v75 ↦{fullShare.left} (dat2 (E2 m) c).arrAt 0 cfg2.N)
      ∗ ((c : Thread nD τ).loc main_v75 ↦{fullShare.right} (dat2 (E2 m) c).arrAt 1 cfg2.N)
      ∗ ((c : Thread nD τ).loc main_v76 ↦{fullShare} out76 m c)) ⊢
    (iprop(((c : Thread nD τ).loc main_v75 ↦{fullShare} W8 m c main_v75) ∗ ((c : Thread nD τ).loc main_v76 ↦{fullShare} W8 m c main_v76)) : sProp 𝕄)
  rw [h0, h1, exit2_in m c, exit2_out m c]
  have hwhole : (iprop(((c : Thread nD τ).loc main_v75 ↦{fullShare.left} W8 m c main_v75) ∗ ((c : Thread nD τ).loc main_v75 ↦{fullShare.right} W8 m c main_v75)) : sProp 𝕄)
      ⊢ ((c : Thread nD τ).loc main_v75 ↦{fullShare} W8 m c main_v75) :=
    (pointsTo_share (PosShare.mem_left_op_right fullShare)).2
  iintro ⟨Hl, Hr, H76⟩
  isplitl [Hl Hr]
  · iapply hwhole
    isplitl [Hl]; · iexact Hl
    iexact Hr
  iexact H76

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit : (unscopedBufs (Ix := Unit) (Name := ℕ) (U := UR sig nD τ) (Lvl := ℕ) c (E2 m c) : sProp 𝕄)
        ⊢ iprop((pdats m 2 c).arrays ((pdats m 2 c).arrAt · 0)
            ∗ Pipeline.unscopedRest (Ix := Unit) (Name := ℕ) (U := UR sig nD τ) (Lvl := ℕ) spec2 c (E2 m c)) := by
      rw [Pipeline.unscopedBufs_split₀ (Pipeline.pin (pcfgs (F := F)) adm) 2 winFacts₀2.arr_unscoped c (E2 m c)]
      exact sep_mono (split2 m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (E2 m c))
        ⊢ (unscopedBufs (Ix := Unit) (Name := ℕ) (U := UR sig nD τ) (Lvl := ℕ) c (fun b => W8 m c b) : sProp 𝕄) := by
      rw [Pipeline.unscopedBufs_split₀ (Pipeline.pin (pcfgs (F := F)) adm) 2 winFacts₀2.arr_unscoped c (fun b => W8 m c b)]
      refine sep_mono (join2 m c) (Entails.of_eq ?_)
      unfold Pipeline.unscopedRest
      exact bigSep_congr fun b hb => by
        show _ = (((c : Thread nD τ).loc b) ↦{fullShare} W8 m c b : sProp 𝕄)
        rw [rest2 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KI.Run.lean ====
/-
  The run of @main: its eight segments in order (three stretches of host operations, region 0, a stretch, region 1,
  a stretch, region 2), launched from any memory with zero counters. Every weakly fair execution terminates, and at the
  end every unscoped buffer of the TensorCore holds what the fold of the segments says (`W8`). Read at an argument the
  fold walks back to the launch memory: no stretch of host operations writes an argument and no region changes one.
-/
import proofs.«101961_j3100966387958_1_alg».proof.Proof.KI.Reg0
import proofs.«101961_j3100966387958_1_alg».proof.Proof.KI.Reg1
import proofs.«101961_j3100966387958_1_alg».proof.Proof.KI.Reg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution of @main terminates, nothing faulting, and every unscoped buffer ends at the
    fold's last contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-! ## The arguments end as launched -/

/-- A buffer that no stretch of host operations writes and that is no region's result array holds at the end what it
    held at launch. -/
theorem W8_kept (c : Dev nD) (r : Ref sig .tc) (h8 : r ≠ main_v76) (h7 : r ∉ hostOps2_W) (h6 : r ≠ main_v69) (h5 : r ∉ hostOps1_W)
    (h4 : r ≠ main_v32) (h3 : r ∉ hostOps0_2_W) (h2 : r ∉ hostOps0_1_W) (h1 : r ∉ hostOps0_W) :
    W8 m c r = m ((c : Thread nD τ).loc r) :=
  calc W8 m c r
    _ = W7 m c r := by unfold W8; exact Function.update_of_ne (StableHlo.devRef_ne_of_ne h8) _ _
    _ = W6 m c r := StableHlo.after_of_writes_sub hostOps2 _ hostOps2_writes h7
    _ = W5 m c r := by unfold W6; exact Function.update_of_ne (StableHlo.devRef_ne_of_ne h6) _ _
    _ = W4 m c r := StableHlo.after_of_writes_sub hostOps1 _ hostOps1_writes h5
    _ = W3 m c r := by unfold W4; exact Function.update_of_ne (StableHlo.devRef_ne_of_ne h4) _ _
    _ = W2 m c r := StableHlo.after_of_writes_sub hostOps0_2 _ hostOps0_2_writes h3
    _ = W1 m c r := StableHlo.after_of_writes_sub hostOps0_1 _ hostOps0_1_writes h2
    _ = W0 m c r := StableHlo.after_of_writes_sub hostOps0 _ hostOps0_writes h1
    _ = m ((c : Thread nD τ).loc r) := rfl

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W8_kept m c main_arg0 (by decide) (by decide) (by decide) (by decide) (by decide) (by decide) (by decide) (by decide)),
    (h c _ (mem_uc main_arg1 (by decide))).trans (W8_kept m c main_arg1 (by decide) (by decide) (by decide) (by decide) (by decide) (by decide) (by decide) (by decide)),
    (h c _ (mem_uc main_arg2 (by decide))).trans (W8_kept m c main_arg2 (by decide) (by decide) (by decide) (by decide) (by decide) (by decide) (by decide) (by decide)),
    (h c _ (mem_uc main_arg3 (by decide))).trans (W8_kept m c main_arg3 (by decide) (by decide) (by decide) (by decide) (by decide) (by decide) (by decide) (by decide)),
    (h c _ (mem_uc main_arg4 (by decide))).trans (W8_kept m c main_arg4 (by decide) (by decide) (by decide) (by decide) (by decide) (by decide) (by decide) (by decide)),
    (h c _ (mem_uc main_arg5 (by decide))).trans (W8_kept m c main_arg5 (by decide) (by decide) (by decide) (by decide) (by decide) (by decide) (by decide) (by decide)),
    (h c _ (mem_uc main_arg6 (by decide))).trans (W8_kept m c main_arg6 (by decide) (by decide) (by decide) (by decide) (by decide) (by decide) (by decide) (by decide)),
    (h c _ (mem_uc main_arg7 (by decide))).trans (W8_kept m c main_arg7 (by decide) (by decide) (by decide) (by decide) (by decide) (by decide) (by decide) (by decide)),
    (h c _ (mem_uc main_arg8 (by decide))).trans (W8_kept m c main_arg8 (by decide) (by decide) (by decide) (by decide) (by decide) (by decide) (by decide) (by decide)),
    (h c _ (mem_uc main_arg9 (by decide))).trans (W8_kept m c main_arg9 (by decide) (by decide) (by decide) (by decide) (by decide) (by decide) (by decide) (by decide)),
    (h c _ (mem_uc main_arg10 (by decide))).trans (W8_kept m c main_arg10 (by decide) (by decide) (by decide) (by decide) (by decide) (by decide) (by decide) (by decide))⟩) (run m ρ)

end Cert.KernelIdeal.Hand

end
-- ==== Proof.LibJoinCols.lean ====
/-
  TWO ARRAYS JOINED SIDE BY SIDE, READ AT ONE ELEMENT.

  An array [n, a] and an array [n, b] joined along the column axis give an array [n, c] with c = a + b: element (p, k)
  is the left array's (p, k) when k < a and the right array's (p, k - a) otherwise (joined_left, joined_right). So if
  row p of two small arrays is row r of two large ones, piece by piece, then row p of the small joined array is row r
  of the large joined array (joined_row_eq): joining commutes with taking a block of rows.

  Generic in the extents and in the element type.
-/
import Idealize.ShloMosaic.Lib.Pipeline.Value
import Idealize.ShloMosaic.Lib.ValueIdx

namespace Cert.LibJoinCols

open Idealize.ShloMosaic Idealize.ShloMosaic.ValueIdx

variable {α : Type}

/-- The joined width is the sum of the two widths. -/
theorem width_eq {n a b c : Nat}
    (h : Shape.Concatenates [(⟨2, ![n, a]⟩ : Shape), ⟨2, ![n, b]⟩] ⟨2, ![n, c]⟩ 1) : a + b = c := by
  have e := h.2.2
  simp only [List.map, List.sum_cons, List.sum_nil, dite_true, Nat.add_zero] at e
  exact e

/-- A column of the left part: element (p, k) of the joined array is element (p, k) of the left array. -/
theorem joined_left {n a b c : Nat}
    (h : Shape.Concatenates [(⟨2, ![n, a]⟩ : Shape), ⟨2, ![n, b]⟩] ⟨2, ![n, c]⟩ 1)
    (x : (⟨2, ![n, a]⟩ : Shape).Idx → α) (y : (⟨2, ![n, b]⟩ : Shape).Idx → α)
    (p : Fin n) (k : Fin c) (k₁ : Fin a) (hk : k₁.val = k.val) :
    concatenate ⟨2, ![n, c]⟩ 1 [⟨⟨2, ![n, a]⟩, x⟩, ⟨⟨2, ![n, b]⟩, y⟩] h (ix2 p k) = x (ix2 p k₁) :=
  concatenate_pair_apply_left 1 x y h (ix2 p k) rfl (ix2 p k₁) (fun d => by
    match d with
    | ⟨0, _⟩ => rfl
    | ⟨1, _⟩ => exact hk)

/-- A column of the right part: element (p, k) of the joined array is element (p, k - a) of the right array. -/
theorem joined_right {n a b c : Nat}
    (h : Shape.Concatenates [(⟨2, ![n, a]⟩ : Shape), ⟨2, ![n, b]⟩] ⟨2, ![n, c]⟩ 1)
    (x : (⟨2, ![n, a]⟩ : Shape).Idx → α) (y : (⟨2, ![n, b]⟩ : Shape).Idx → α)
    (p : Fin n) (k : Fin c) (k₂ : Fin b) (hk : k₂.val + a = k.val) :
    concatenate ⟨2, ![n, c]⟩ 1 [⟨⟨2, ![n, a]⟩, x⟩, ⟨⟨2, ![n, b]⟩, y⟩] h (ix2 p k) = y (ix2 p k₂) :=
  concatenate_pair_apply_right 1 x y h (ix2 p k) rfl rfl (ix2 p k₂) (fun d hd => by
    match d with
    | ⟨0, _⟩ => rfl
    | ⟨1, _⟩ => exact absurd rfl hd) hk

/-- Joining commutes with taking rows: if row p of x is row r of X and row p of y is row r of Y, then row p of x
    joined with y is row r of X joined with Y. -/
theorem joined_row_eq {n N a b c : Nat}
    (h₁ : Shape.Concatenates [(⟨2, ![n, a]⟩ : Shape), ⟨2, ![n, b]⟩] ⟨2, ![n, c]⟩ 1)
    (h₂ : Shape.Concatenates [(⟨2, ![N, a]⟩ : Shape), ⟨2, ![N, b]⟩] ⟨2, ![N, c]⟩ 1)
    (x : (⟨2, ![n, a]⟩ : Shape).Idx → α) (y : (⟨2, ![n, b]⟩ : Shape).Idx → α)
    (X : (⟨2, ![N, a]⟩ : Shape).Idx → α) (Y : (⟨2, ![N, b]⟩ : Shape).Idx → α)
    (p : Fin n) (r : Fin N)
    (hx : ∀ k : Fin a, x (ix2 p k) = X (ix2 r k)) (hy : ∀ k : Fin b, y (ix2 p k) = Y (ix2 r k)) (k : Fin c) :
    concatenate ⟨2, ![n, c]⟩ 1 [⟨⟨2, ![n, a]⟩, x⟩, ⟨⟨2, ![n, b]⟩, y⟩] h₁ (ix2 p k)
      = concatenate ⟨2, ![N, c]⟩ 1 [⟨⟨2, ![N, a]⟩, X⟩, ⟨⟨2, ![N, b]⟩, Y⟩] h₂ (ix2 r k) := by
  have hc := width_eq h₁
  have hkc := k.isLt
  by_cases hk : k.val < a
  · rw [joined_left h₁ x y p k ⟨k.val, hk⟩ rfl, joined_left h₂ X Y r k ⟨k.val, hk⟩ rfl]
    exact hx _
  · have hk2 : k.val - a < b := by omega
    rw [joined_right h₁ x y p k ⟨k.val - a, hk2⟩ (by show k.val - a + a = k.val; omega),
      joined_right h₂ X Y r k ⟨k.val - a, hk2⟩ (by show k.val - a + a = k.val; omega)]
    exact hy _

end Cert.LibJoinCols
-- ==== Proof.LibFusedHeads.lean ====
/-
  TWO DENSE HEADS FUSED INTO ONE PRODUCT, READ AT ONE ENTRY.

  Two heads act on the same pair of feature arrays: head A sends (u, v) to u · A₁ + v · A₂ + a, head B to
  u · B₁ + v · B₂ + b, with u, v of width K, the four matrices K × H and the biases of length H. Fused, the features are
  joined side by side into [u | v] of width 2K, the matrices stacked and joined into the 2K × 2H matrix
  [[A₁, B₁], [A₂, B₂]], the biases joined into one row [a | b], and ONE product with bias is taken; head A is then the
  left H columns of the result and head B the right H columns.
  The two agree entry by entry on the extended reals: column q < H of the joined matrix is column q of [A₁; A₂], whose
  rows k < K are A₁'s and whose rows K ≤ k are A₂'s, so the sum over the 2K joined positions splits into the sum over u's
  positions and the sum over v's (a split of a finite sum: no finiteness is needed), and entry q of the joined bias row is
  entry q of a. Likewise for head B at column H + q.
-/
import proofs.«101961_j3100966387958_1_alg».proof.Proof.LibBlocks
import proofs.«101961_j3100966387958_1_alg».proof.Proof.LibJoinCols

noncomputable section

open scoped BigOperators

namespace Cert.LibFusedHeads

open Idealize.ShloMosaic Idealize.ShloMosaic.ValueIdx

/-! ## Two arrays joined one above the other, and two rows joined end to end, read at one element -/

section Joins

variable {α : Type}

/-- The joined height is the sum of the two heights. -/
theorem height_eq {a b c m : Nat}
    (h : Shape.Concatenates [(⟨2, ![a, m]⟩ : Shape), ⟨2, ![b, m]⟩] ⟨2, ![c, m]⟩ 0) : a + b = c := by
  have e := h.2.2
  simp only [List.map, List.sum_cons, List.sum_nil, dite_true, Nat.add_zero] at e
  exact e

/-- A row of the upper part: element (k, q) of the stacked array is element (k, q) of the upper array. -/
theorem stacked_top {a b c m : Nat}
    (h : Shape.Concatenates [(⟨2, ![a, m]⟩ : Shape), ⟨2, ![b, m]⟩] ⟨2, ![c, m]⟩ 0)
    (x : (⟨2, ![a, m]⟩ : Shape).Idx → α) (y : (⟨2, ![b, m]⟩ : Shape).Idx → α)
    (k : Fin c) (q : Fin m) (k₁ : Fin a) (hk : k₁.val = k.val) :
    concatenate ⟨2, ![c, m]⟩ 0 [⟨⟨2, ![a, m]⟩, x⟩, ⟨⟨2, ![b, m]⟩, y⟩] h (ix2 k q) = x (ix2 k₁ q) :=
  concatenate_pair_apply_left 0 x y h (ix2 k q) rfl (ix2 k₁ q) (fun d => by
    match d with
    | ⟨0, _⟩ => exact hk
    | ⟨1, _⟩ => rfl)

/-- A row of the lower part: element (k, q) of the stacked array is element (k - a, q) of the lower array. -/
theorem stacked_bottom {a b c m : Nat}
    (h : Shape.Concatenates [(⟨2, ![a, m]⟩ : Shape), ⟨2, ![b, m]⟩] ⟨2, ![c, m]⟩ 0)
    (x : (⟨2, ![a, m]⟩ : Shape).Idx → α) (y : (⟨2, ![b, m]⟩ : Shape).Idx → α)
    (k : Fin c) (q : Fin m) (k₂ : Fin b) (hk : k₂.val + a = k.val) :
    concatenate ⟨2, ![c, m]⟩ 0 [⟨⟨2, ![a, m]⟩, x⟩, ⟨⟨2, ![b, m]⟩, y⟩] h (ix2 k q) = y (ix2 k₂ q) :=
  concatenate_pair_apply_right 0 x y h (ix2 k q) rfl rfl (ix2 k₂ q) (fun d hd => by
    match d with
    | ⟨0, _⟩ => exact absurd rfl hd
    | ⟨1, _⟩ => rfl) hk

/-- The joined length of two rows is the sum of the two lengths. -/
theorem length_eq {a b c : Nat}
    (h : Shape.Concatenates [(⟨1, ![a]⟩ : Shape), ⟨1, ![b]⟩] ⟨1, ![c]⟩ 0) : a + b = c := by
  have e := h.2.2
  simp only [List.map, List.sum_cons, List.sum_nil, dite_true, Nat.add_zero] at e
  exact e

/-- An entry of the first row: entry k of the joined row is entry k of the first. -/
theorem row_left {a b c : Nat}
    (h : Shape.Concatenates [(⟨1, ![a]⟩ : Shape), ⟨1, ![b]⟩] ⟨1, ![c]⟩ 0)
    (x : (⟨1, ![a]⟩ : Shape).Idx → α) (y : (⟨1, ![b]⟩ : Shape).Idx → α)
    (k : Fin c) (k₁ : Fin a) (hk : k₁.val = k.val) :
    concatenate ⟨1, ![c]⟩ 0 [⟨⟨1, ![a]⟩, x⟩, ⟨⟨1, ![b]⟩, y⟩] h (ix1 k) = x (ix1 k₁) :=
  concatenate_pair_apply_left 0 x y h (ix1 k) rfl (ix1 k₁) (fun d => by
    match d with
    | ⟨0, _⟩ => exact hk)

/-- An entry of the second row: entry k of the joined row is entry k - a of the second. -/
theorem row_right {a b c : Nat}
    (h : Shape.Concatenates [(⟨1, ![a]⟩ : Shape), ⟨1, ![b]⟩] ⟨1, ![c]⟩ 0)
    (x : (⟨1, ![a]⟩ : Shape).Idx → α) (y : (⟨1, ![b]⟩ : Shape).Idx → α)
    (k : Fin c) (k₂ : Fin b) (hk : k₂.val + a = k.val) :
    concatenate ⟨1, ![c]⟩ 0 [⟨⟨1, ![a]⟩, x⟩, ⟨⟨1, ![b]⟩, y⟩] h (ix1 k) = y (ix1 k₂) :=
  concatenate_pair_apply_right 0 x y h (ix1 k) rfl rfl (ix1 k₂) (fun d hd => by
    match d with
    | ⟨0, _⟩ => exact absurd rfl hd) hk

end Joins

variable {N K H K2 H2 : Nat}

/-- The fused product with bias, as the host computes it on the whole arrays. -/
def fused
    (hcf : Shape.Concatenates [(⟨2, ![N, K]⟩ : Shape), ⟨2, ![N, K]⟩] ⟨2, ![N, K2]⟩ 1)
    (hcw : Shape.Concatenates [(⟨2, ![K, H]⟩ : Shape), ⟨2, ![K, H]⟩] ⟨2, ![K2, H]⟩ 0)
    (hcc : Shape.Concatenates [(⟨2, ![K2, H]⟩ : Shape), ⟨2, ![K2, H]⟩] ⟨2, ![K2, H2]⟩ 1)
    (hcb : Shape.Concatenates [(⟨1, ![H]⟩ : Shape), ⟨1, ![H]⟩] ⟨1, ![H2]⟩ 0)
    (hrow : (⟨1, ![H2]⟩ : Shape).ShapeCasts ⟨2, ![1, H2]⟩)
    (hbd : (⟨2, ![1, H2]⟩ : Shape).BroadcastsInDim ⟨2, ![N, H2]⟩ ![0, 1])
    (d : DotDims ⟨2, ![N, K2]⟩ ⟨2, ![K2, H2]⟩ ⟨2, ![N, H2]⟩)
    (u v : FVec Ideal ⟨2, ![N, K]⟩ .f32) (A₁ A₂ B₁ B₂ : FVec Ideal ⟨2, ![K, H]⟩ .f32) (a b : FVec Ideal ⟨1, ![H]⟩ .f32) :
    FVec Ideal ⟨2, ![N, H2]⟩ .f32 :=
  addf (Host.dotGeneral d none
      (concatenate ⟨2, ![N, K2]⟩ 1 [⟨⟨2, ![N, K]⟩, u⟩, ⟨⟨2, ![N, K]⟩, v⟩] hcf)
      (concatenate ⟨2, ![K2, H2]⟩ 1
        [⟨⟨2, ![K2, H]⟩, concatenate ⟨2, ![K2, H]⟩ 0 [⟨⟨2, ![K, H]⟩, A₁⟩, ⟨⟨2, ![K, H]⟩, A₂⟩] hcw⟩,
         ⟨⟨2, ![K2, H]⟩, concatenate ⟨2, ![K2, H]⟩ 0 [⟨⟨2, ![K, H]⟩, B₁⟩, ⟨⟨2, ![K, H]⟩, B₂⟩] hcw⟩] hcc))
    (broadcastInDim ⟨2, ![N, H2]⟩ ![0, 1] hbd
      (shapeCast ⟨2, ![1, H2]⟩ (concatenate ⟨1, ![H2]⟩ 0 [⟨⟨1, ![H]⟩, a⟩, ⟨⟨1, ![H]⟩, b⟩] hcb) hrow))

/-- Head A unfused, as the host computes it: the two products added, then the bias row broadcast down the rows. -/
def head
    (hb1 : (⟨1, ![H]⟩ : Shape).BroadcastsInDim ⟨2, ![1, H]⟩ ![1])
    (hb2 : (⟨2, ![1, H]⟩ : Shape).BroadcastsInDim ⟨2, ![N, H]⟩ ![0, 1])
    (dh : DotDims ⟨2, ![N, K]⟩ ⟨2, ![K, H]⟩ ⟨2, ![N, H]⟩)
    (u v : FVec Ideal ⟨2, ![N, K]⟩ .f32) (A₁ A₂ : FVec Ideal ⟨2, ![K, H]⟩ .f32) (a : FVec Ideal ⟨1, ![H]⟩ .f32) :
    FVec Ideal ⟨2, ![N, H]⟩ .f32 :=
  addf (addf (Host.dotGeneral dh none u A₁) (Host.dotGeneral dh none v A₂))
    (broadcastInDim ⟨2, ![N, H]⟩ ![0, 1] hb2 (broadcastInDim ⟨2, ![1, H]⟩ ![1] hb1 a))

/-- Entry (r, c) of the fused result is entry (r, q) of the head with matrices X₁, X₂ and bias x, once column c of the
    joined matrix is column q of X₁ stacked on X₂ and entry c of the joined bias row is entry q of x: the sum over the
    2K joined positions splits into the sum over u's positions and the sum over v's. -/
theorem fused_entry_of
    (hcf : Shape.Concatenates [(⟨2, ![N, K]⟩ : Shape), ⟨2, ![N, K]⟩] ⟨2, ![N, K2]⟩ 1)
    (hcw : Shape.Concatenates [(⟨2, ![K, H]⟩ : Shape), ⟨2, ![K, H]⟩] ⟨2, ![K2, H]⟩ 0)
    (hcc : Shape.Concatenates [(⟨2, ![K2, H]⟩ : Shape), ⟨2, ![K2, H]⟩] ⟨2, ![K2, H2]⟩ 1)
    (hcb : Shape.Concatenates [(⟨1, ![H]⟩ : Shape), ⟨1, ![H]⟩] ⟨1, ![H2]⟩ 0)
    (hrow : (⟨1, ![H2]⟩ : Shape).ShapeCasts ⟨2, ![1, H2]⟩)
    (hbd : (⟨2, ![1, H2]⟩ : Shape).BroadcastsInDim ⟨2, ![N, H2]⟩ ![0, 1])
    (d : DotDims ⟨2, ![N, K2]⟩ ⟨2, ![K2, H2]⟩ ⟨2, ![N, H2]⟩) (hd : d = DotDims.plain N K2 H2)
    (hb1 : (⟨1, ![H]⟩ : Shape).BroadcastsInDim ⟨2, ![1, H]⟩ ![1])
    (hb2 : (⟨2, ![1, H]⟩ : Shape).BroadcastsInDim ⟨2, ![N, H]⟩ ![0, 1])
    (dh : DotDims ⟨2, ![N, K]⟩ ⟨2, ![K, H]⟩ ⟨2, ![N, H]⟩) (hdh : dh = DotDims.plain N K H)
    (u v : FVec Ideal ⟨2, ![N, K]⟩ .f32) (A₁ A₂ B₁ B₂ : FVec Ideal ⟨2, ![K, H]⟩ .f32) (a b : FVec Ideal ⟨1, ![H]⟩ .f32)
    (X₁ X₂ : FVec Ideal ⟨2, ![K, H]⟩ .f32) (x : FVec Ideal ⟨1, ![H]⟩ .f32)
    (r : Fin N) (c : Fin H2) (q : Fin H)
    (hW : ∀ k : Fin K2,
      concatenate ⟨2, ![K2, H2]⟩ 1
        [⟨⟨2, ![K2, H]⟩, concatenate ⟨2, ![K2, H]⟩ 0 [⟨⟨2, ![K, H]⟩, A₁⟩, ⟨⟨2, ![K, H]⟩, A₂⟩] hcw⟩,
         ⟨⟨2, ![K2, H]⟩, concatenate ⟨2, ![K2, H]⟩ 0 [⟨⟨2, ![K, H]⟩, B₁⟩, ⟨⟨2, ![K, H]⟩, B₂⟩] hcw⟩] hcc (ix2 k c)
      = concatenate ⟨2, ![K2, H]⟩ 0 [⟨⟨2, ![K, H]⟩, X₁⟩, ⟨⟨2, ![K, H]⟩, X₂⟩] hcw (ix2 k q))
    (hx : concatenate ⟨1, ![H2]⟩ 0 [⟨⟨1, ![H]⟩, a⟩, ⟨⟨1, ![H]⟩, b⟩] hcb (ix1 c) = x (ix1 q)) :
    fused hcf hcw hcc hcb hrow hbd d u v A₁ A₂ B₁ B₂ a b (ix2 r c) = head hb1 hb2 dh u v X₁ X₂ x (ix2 r q) := by
  have hK := Cert.LibJoinCols.width_eq hcf
  subst hK
  -- the joined bias row, made one row high and broadcast down the rows, read at (r, c)
  have hbias : broadcastInDim ⟨2, ![N, H2]⟩ ![0, 1] hbd
      (shapeCast ⟨2, ![1, H2]⟩ (concatenate ⟨1, ![H2]⟩ 0 [⟨⟨1, ![H]⟩, a⟩, ⟨⟨1, ![H]⟩, b⟩] hcb) hrow) (ix2 r c) = x (ix1 q) := by
    rw [broadcastInDim_apply ![0, 1] hbd _ (ix2 r c) (ix2 (0 : Fin 1) c) (fun e => by
        match e with
        | ⟨0, _⟩ => rfl
        | ⟨1, _⟩ =>
          show c.val = if H2 = 1 then 0 else c.val
          have := c.isLt
          split_ifs <;> omega),
      shapeCast_apply _ hrow (ix2 (0 : Fin 1) c) (ix1 c) (by
        rw [Shape.rowMajor_val_one, Shape.rowMajor_val_two]
        show c.val = 0 * H2 + c.val
        omega),
      hx]
  -- the single bias row, likewise
  have hbias' : broadcastInDim ⟨2, ![N, H]⟩ ![0, 1] hb2 (broadcastInDim ⟨2, ![1, H]⟩ ![1] hb1 x) (ix2 r q) = x (ix1 q) := by
    rw [broadcastInDim_apply ![0, 1] hb2 _ (ix2 r q) (ix2 (0 : Fin 1) q) (fun e => by
        match e with
        | ⟨0, _⟩ => rfl
        | ⟨1, _⟩ =>
          show q.val = if H = 1 then 0 else q.val
          have := q.isLt
          split_ifs <;> omega),
      broadcastInDim_apply ![1] hb1 x (ix2 (0 : Fin 1) q) (ix1 q) (fun e => by
        match e with
        | ⟨0, _⟩ =>
          show q.val = if H = 1 then 0 else q.val
          have := q.isLt
          split_ifs <;> omega)]
  unfold fused head
  rw [addf_apply, addf_apply, addf_apply, hbias, hbias']
  show FloatOps.dotGeneral d none .single _ _ (ix2 r c) + _
    = FloatOps.dotGeneral dh none .single u X₁ (ix2 r q) + FloatOps.dotGeneral dh none .single v X₂ (ix2 r q) + _
  rw [Cert.LibBlocks.dotGeneral_plain_apply d hd, Cert.LibBlocks.dotGeneral_plain_apply dh hdh,
    Cert.LibBlocks.dotGeneral_plain_apply dh hdh, Fin.sum_univ_add]
  congr 1
  congr 1
  · refine Finset.sum_congr rfl fun k _ => ?_
    rw [hW, Cert.LibJoinCols.joined_left hcf u v r (Fin.castAdd K k) k rfl, stacked_top hcw X₁ X₂ (Fin.castAdd K k) q k rfl]
  · refine Finset.sum_congr rfl fun k _ => ?_
    rw [hW, Cert.LibJoinCols.joined_right hcf u v r (Fin.natAdd K k) k (by show k.val + K = K + k.val; omega),
      stacked_bottom hcw X₁ X₂ (Fin.natAdd K k) q k (by show k.val + K = K + k.val; omega)]

/-- The left H columns of the fused result are head A: entry (r, q). -/
theorem fused_left_entry
    (hcf : Shape.Concatenates [(⟨2, ![N, K]⟩ : Shape), ⟨2, ![N, K]⟩] ⟨2, ![N, K2]⟩ 1)
    (hcw : Shape.Concatenates [(⟨2, ![K, H]⟩ : Shape), ⟨2, ![K, H]⟩] ⟨2, ![K2, H]⟩ 0)
    (hcc : Shape.Concatenates [(⟨2, ![K2, H]⟩ : Shape), ⟨2, ![K2, H]⟩] ⟨2, ![K2, H2]⟩ 1)
    (hcb : Shape.Concatenates [(⟨1, ![H]⟩ : Shape), ⟨1, ![H]⟩] ⟨1, ![H2]⟩ 0)
    (hrow : (⟨1, ![H2]⟩ : Shape).ShapeCasts ⟨2, ![1, H2]⟩)
    (hbd : (⟨2, ![1, H2]⟩ : Shape).BroadcastsInDim ⟨2, ![N, H2]⟩ ![0, 1])
    (d : DotDims ⟨2, ![N, K2]⟩ ⟨2, ![K2, H2]⟩ ⟨2, ![N, H2]⟩) (hd : d = DotDims.plain N K2 H2)
    (hb1 : (⟨1, ![H]⟩ : Shape).BroadcastsInDim ⟨2, ![1, H]⟩ ![1])
    (hb2 : (⟨2, ![1, H]⟩ : Shape).BroadcastsInDim ⟨2, ![N, H]⟩ ![0, 1])
    (dh : DotDims ⟨2, ![N, K]⟩ ⟨2, ![K, H]⟩ ⟨2, ![N, H]⟩) (hdh : dh = DotDims.plain N K H)
    (hs : (⟨2, ![N, H2]⟩ : Shape).Slices ![0, 0] ⟨2, ![N, H]⟩)
    (u v : FVec Ideal ⟨2, ![N, K]⟩ .f32) (A₁ A₂ B₁ B₂ : FVec Ideal ⟨2, ![K, H]⟩ .f32) (a b : FVec Ideal ⟨1, ![H]⟩ .f32)
    (r : Fin N) (q : Fin H) :
    extractStridedSlice ⟨2, ![N, H]⟩ ![0, 0] (fused hcf hcw hcc hcb hrow hbd d u v A₁ A₂ B₁ B₂ a b) hs (ix2 r q)
      = head hb1 hb2 dh u v A₁ A₂ a (ix2 r q) := by
  have hH := Cert.LibJoinCols.width_eq hcc
  have hq2 : q.val < H2 := by have := q.isLt; omega
  rw [extractStridedSlice_apply ![0, 0] _ hs (ix2 r q) (ix2 r (⟨q.val, hq2⟩ : Fin H2)) (fun e => by
      match e with
      | ⟨0, _⟩ => show r.val = 0 + r.val; omega
      | ⟨1, _⟩ => show q.val = 0 + q.val; omega)]
  exact fused_entry_of hcf hcw hcc hcb hrow hbd d hd hb1 hb2 dh hdh u v A₁ A₂ B₁ B₂ a b A₁ A₂ a r ⟨q.val, hq2⟩ q
    (fun k => Cert.LibJoinCols.joined_left hcc _ _ k ⟨q.val, hq2⟩ q rfl)
    (row_left hcb a b ⟨q.val, hq2⟩ q rfl)

/-- The right H columns of the fused result are head B: entry (r, q). -/
theorem fused_right_entry
    (hcf : Shape.Concatenates [(⟨2, ![N, K]⟩ : Shape), ⟨2, ![N, K]⟩] ⟨2, ![N, K2]⟩ 1)
    (hcw : Shape.Concatenates [(⟨2, ![K, H]⟩ : Shape), ⟨2, ![K, H]⟩] ⟨2, ![K2, H]⟩ 0)
    (hcc : Shape.Concatenates [(⟨2, ![K2, H]⟩ : Shape), ⟨2, ![K2, H]⟩] ⟨2, ![K2, H2]⟩ 1)
    (hcb : Shape.Concatenates [(⟨1, ![H]⟩ : Shape), ⟨1, ![H]⟩] ⟨1, ![H2]⟩ 0)
    (hrow : (⟨1, ![H2]⟩ : Shape).ShapeCasts ⟨2, ![1, H2]⟩)
    (hbd : (⟨2, ![1, H2]⟩ : Shape).BroadcastsInDim ⟨2, ![N, H2]⟩ ![0, 1])
    (d : DotDims ⟨2, ![N, K2]⟩ ⟨2, ![K2, H2]⟩ ⟨2, ![N, H2]⟩) (hd : d = DotDims.plain N K2 H2)
    (hb1 : (⟨1, ![H]⟩ : Shape).BroadcastsInDim ⟨2, ![1, H]⟩ ![1])
    (hb2 : (⟨2, ![1, H]⟩ : Shape).BroadcastsInDim ⟨2, ![N, H]⟩ ![0, 1])
    (dh : DotDims ⟨2, ![N, K]⟩ ⟨2, ![K, H]⟩ ⟨2, ![N, H]⟩) (hdh : dh = DotDims.plain N K H)
    (hs : (⟨2, ![N, H2]⟩ : Shape).Slices ![0, H] ⟨2, ![N, H]⟩)
    (u v : FVec Ideal ⟨2, ![N, K]⟩ .f32) (A₁ A₂ B₁ B₂ : FVec Ideal ⟨2, ![K, H]⟩ .f32) (a b : FVec Ideal ⟨1, ![H]⟩ .f32)
    (r : Fin N) (q : Fin H) :
    extractStridedSlice ⟨2, ![N, H]⟩ ![0, H] (fused hcf hcw hcc hcb hrow hbd d u v A₁ A₂ B₁ B₂ a b) hs (ix2 r q)
      = head hb1 hb2 dh u v B₁ B₂ b (ix2 r q) := by
  have hH := Cert.LibJoinCols.width_eq hcc
  have hq2 : H + q.val < H2 := by have := q.isLt; omega
  rw [extractStridedSlice_apply ![0, H] _ hs (ix2 r q) (ix2 r (⟨H + q.val, hq2⟩ : Fin H2)) (fun e => by
      match e with
      | ⟨0, _⟩ => show r.val = 0 + r.val; omega
      | ⟨1, _⟩ => rfl)]
  exact fused_entry_of hcf hcw hcc hcb hrow hbd d hd hb1 hb2 dh hdh u v A₁ A₂ B₁ B₂ a b B₁ B₂ b r ⟨H + q.val, hq2⟩ q
    (fun k => Cert.LibJoinCols.joined_right hcc _ _ k ⟨H + q.val, hq2⟩ q (by show q.val + H = H + q.val; omega))
    (row_right hcb a b ⟨H + q.val, hq2⟩ q (by show q.val + H = H + q.val; omega))

end Cert.LibFusedHeads

end
-- ==== Proof.KI.Results.lean ====
/-
  The first projection, the two heads and the sample of the kernel's program, at the extended reals, are the reference's.

  * The first projection: region 0 leaves  x · W + (a row of zeros)  in its result array, and adding zero changes nothing:
    the reference's product.
  * The two heads: region 1 leaves the fused product of the joined features with the joined weights plus the joined bias
    row; its left 128 columns are  agg · Wr_mu + h1 · Wl_mu + b_mu  and its right 128 columns the same with the
    log-variance parameters (a sum over the 512 joined positions split into its two halves): the reference's two heads,
    the hidden layer and its neighbour sum being the reference's own stages.
  * The sample  eps · exp(logvar) + mu  is computed by the same three host operations on both sides.
-/
import proofs.«101961_j3100966387958_1_alg».proof.Proof.KI.Chain
import proofs.«101961_j3100966387958_1_alg».proof.Proof.KI.Val0
import proofs.«101961_j3100966387958_1_alg».proof.Proof.KI.Val1
import proofs.«101961_j3100966387958_1_alg».proof.Proof.KI.Run
import proofs.«101961_j3100966387958_1_alg».proof.Proof.LibFusedHeads
import proofs.«101961_j3100966387958_1_alg».proof.Proof.LibDenseLayer
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP
open scoped BigOperators

variable (m : (ℓ : Loc nD τ sig) → Buf (Elt Ideal) ℓ)

/-! ## The first projection -/

/-- Every entry of the row handed to region 0 is zero. -/
theorem zero_row_entry (q : Fin 256) :
    shapeCast S1x256 (broadcastInDim S256 ![] bcast_S_S256 (constant (F := Ideal) S_ .f32 0x00000000#32)) shapeCasts_S256_S1x256 (ix2 (0 : Fin 1) q)
      = (0 : EReal) := by
  rw [shapeCast_apply (broadcastInDim S256 ![] bcast_S_S256 (constant (F := Ideal) S_ .f32 0x00000000#32)) shapeCasts_S256_S1x256
      (ix2 (0 : Fin 1) q) (ix1 q) (by
        rw [Shape.rowMajor_val_two, Shape.rowMajor_val_one]
        show q.val = (0 : Fin 1).val * 256 + q.val
        simp),
    broadcastInDim_apply ![] bcast_S_S256 (constant (F := Ideal) S_ .f32 0x00000000#32) (ix1 q) ix0 (fun a => a.elim0),
    constant_apply, Ideal.ofBits_zero_f32]

/-- Region 0's result is the reference's product of the features with the first weight matrix. -/
theorem xw_eq (c : Dev nD) : xwK m c = val_main_v30 (F := Ideal) (a0 m c) (a2 m c) := by
  have h1 : xwK m c = res32 m c := (exit0 m c 3).symm
  rw [h1, out32_eq m c, show lhs0 m c = a0 m c from W3_arg0 m c, show rhs0 m c = a2 m c from W3_arg2 m c,
    show row0 m c = _ from row0K_eq m c]
  funext i
  obtain ⟨r, q, rfl⟩ : ∃ (r : Fin 16384) (q : Fin 256), i = ix2 r q := ⟨i 0, i 1, eq_ix2 i⟩
  rw [addf_apply, Cert.LibDenseLayer.bias_array_entry bcast_S1x256_S16384x256_0_1 _ r q, zero_row_entry q]
  rw [add_zero]
  rfl

/-! ## The two heads -/

/-- Region 1's result is the fused product of the joined operands. -/
theorem proj_fused (c : Dev nD) :
    projK m c = Cert.LibFusedHeads.fused concatenates_S16384x256_S16384x256_S16384x512_d1 concatenates_S256x128_S256x128_S512x128_d0
      concatenates_S512x128_S512x128_S512x256_d1 concatenates_S128_S128_S256_d0 shapeCasts_S256_S1x256 bcast_S1x256_S16384x256_0_1
      (DotDims.plain 16384 512 256) (aggK m c) (h1K m c) (a4 m c) (a5 m c) (a7 m c) (a8 m c) (a6 m c) (a9 m c) := by
  have h1 : projK m c = res69 m c := (exit1 m c 3).symm
  rw [h1, out69_eq m c, show lhs1 m c = _ from featK_eq m c, show rhs1 m c = _ from wcK_eq m c, show row1 m c = _ from rowK_eq m c]
  rfl

theorem mu_eq (c : Dev nD) :
    muK m c = val_main_v66 (F := Ideal) (a0 m c) (a1 m c) (a2 m c) (a3 m c) (a4 m c) (a5 m c) (a6 m c) := by
  rw [muK_eq m c, proj_fused m c]
  funext i
  obtain ⟨r, q, rfl⟩ : ∃ (r : Fin 16384) (q : Fin 128), i = ix2 r q := ⟨i 0, i 1, eq_ix2 i⟩
  rw [Cert.LibFusedHeads.fused_left_entry _ _ _ _ _ _ (DotDims.plain 16384 512 256) rfl
    Cert.ReferenceIdeal.Facts₀.bcast_S128_S1x128_1 Cert.ReferenceIdeal.Facts₀.bcast_S1x128_S16384x128_0_1
    Cert.ReferenceIdeal.dot_S16384x256_S256x128_S16384x128_1_0_0_1_n_n rfl slices_S16384x256_S16384x128_0_0,
    aggK_eq m c (xw_eq m c), h1K_eq m c (xw_eq m c)]
  rfl

theorem lv_eq (c : Dev nD) :
    lvK m c = val_main_v86 (F := Ideal) (a0 m c) (a1 m c) (a2 m c) (a3 m c) (a7 m c) (a8 m c) (a9 m c) := by
  rw [lvK_eq m c, proj_fused m c]
  funext i
  obtain ⟨r, q, rfl⟩ : ∃ (r : Fin 16384) (q : Fin 128), i = ix2 r q := ⟨i 0, i 1, eq_ix2 i⟩
  rw [Cert.LibFusedHeads.fused_right_entry _ _ _ _ _ _ (DotDims.plain 16384 512 256) rfl
    Cert.ReferenceIdeal.Facts₀.bcast_S128_S1x128_1 Cert.ReferenceIdeal.Facts₀.bcast_S1x128_S16384x128_0_1
    Cert.ReferenceIdeal.dot_S16384x256_S256x128_S16384x128_1_0_0_1_n_n rfl slices_S16384x256_S16384x128_0_128,
    aggK_eq m c (xw_eq m c), h1K_eq m c (xw_eq m c), ← agg_twice (F := Ideal) (a0 m c) (a1 m c) (a2 m c) (a3 m c)]
  rfl

/-! ## The sample -/

theorem z_eq (c : Dev nD) :
    zK m c = val_main_v89 (F := Ideal) (a0 m c) (a1 m c) (a2 m c) (a3 m c) (a4 m c) (a5 m c) (a6 m c) (a7 m c) (a8 m c) (a9 m c) (a10 m c) := by
  rw [zK_eq m c, lv_eq m c, mu_eq m c]
  rfl

/-! ## The results at the return -/

theorem W8_v74 (c : Dev nD) : (W8 m c main_v74 : (⟨S16384x128, .f32⟩ : BufTy).Contents (Elt Ideal)) = zK m c := by
  unfold W8; exact Function.update_of_ne (StableHlo.devRef_ne_of_ne (by decide) : (Proc.devRef .tc main_v74 : DevRef τ sig) ≠ Proc.devRef .tc main_v76) _ _
theorem W8_v70 (c : Dev nD) : (W8 m c main_v70 : (⟨S16384x128, .f32⟩ : BufTy).Contents (Elt Ideal)) = muK m c := by
  unfold W8; exact Function.update_of_ne (StableHlo.devRef_ne_of_ne (by decide) : (Proc.devRef .tc main_v70 : DevRef τ sig) ≠ Proc.devRef .tc main_v76) _ _
theorem W8_v71 (c : Dev nD) : (W8 m c main_v71 : (⟨S16384x128, .f32⟩ : BufTy).Contents (Elt Ideal)) = lvK m c := by
  unfold W8; exact Function.update_of_ne (StableHlo.devRef_ne_of_ne (by decide) : (Proc.devRef .tc main_v71 : DevRef τ sig) ≠ Proc.devRef .tc main_v76) _ _

end Cert.KernelIdeal.Hand

end
-- ==== Proof.LibGram.lean ====
/-
  A GRAM MATRIX UNDER THE LOGISTIC FUNCTION, ON A BLOCK AND ON THE WHOLE ARRAY, READ AT ONE ENTRY.

  For an array z of N rows of K numbers, entry (r, s) of sigmoid (z · zᵀ) is sigmoid (Σ_k z(r, k) · z(s, k)).
  Two programs compute it:
  * a block of rows [n, K] and a block of rows [p, K] multiplied on the matrix unit, BOTH contracted on their second
    axis and accumulated from zero, then the one-operation logistic: entry (i, j) is the logistic of
    Σ_k left (i, k) · right (j, k) (gram_block_entry; the plain sum is matmul_transposedRhs_apply);
  * the host's product of z with its explicit transpose, then negate, exponential, add one, divide one by it: entry
    (r, s) is the same number (gram_host_entry), because on the extended reals the logistic function IS
    1 / (1 + e^(−x)) at every argument, the infinities included, and the transpose reads z at the swapped index.

  Generic in the extents; a program's dimension numbers enter through an equation with the library's records.
-/
import proofs.«101961_j3100966387958_1_alg».proof.Proof.LibBlocks
import Idealize.ShloMosaic.Lib.IdealHost

noncomputable section

open scoped BigOperators

namespace Cert.LibGram

open Idealize.ShloMosaic Idealize.ShloMosaic.ValueIdx

section TransposedRhs

variable {M K N : Nat}

/-- With the right operand contracted on its second axis the left operand is read at the result's row and the
    contraction position … -/
theorem transposedRhs_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ =>
    show ((DotDims.transposedRhs M K N).lhsIdx (ix2 p q) _ 0).val = p.val
    unfold DotDims.lhsIdx
    rw [dif_neg (show ¬(0 : Fin (⟨2, ![M, K]⟩ : Shape).rank) ∈ (DotDims.transposedRhs M K N).lhsBatch from List.not_mem_nil),
      dif_pos (show (0 : Fin (⟨2, ![M, K]⟩ : Shape).rank) ∈ (DotDims.transposedRhs M K N).lhsNonContracting from List.mem_singleton.mpr rfl)]
    rfl
  | ⟨1, _⟩ =>
    exact ((DotDims.transposedRhs M K N).lhsIdx_val_of_single (cl := 1) rfl (ix2 p q) _).trans hk

/-- … and the right operand at the result's COLUMN and the contraction position: its rows are the result's columns. -/
theorem transposedRhs_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ =>
    show ((DotDims.transposedRhs M K N).rhsIdx (ix2 p q) _ 0).val = q.val
    unfold DotDims.rhsIdx
    rw [dif_neg (show ¬(0 : Fin (⟨2, ![N, K]⟩ : Shape).rank) ∈ (DotDims.transposedRhs M K N).rhsBatch from List.not_mem_nil),
      dif_pos (show (0 : Fin (⟨2, ![N, K]⟩ : Shape).rank) ∈ (DotDims.transposedRhs M K N).rhsNonContracting from List.mem_singleton.mpr rfl)]
    rfl
  | ⟨1, _⟩ =>
    exact ((DotDims.transposedRhs M K N).rhsIdx_val_of_single (cr := 1) rfl (ix2 p q) _).trans hk

/-- The matrix unit's product of [M, K] with [N, K], both contracted on the second axis, into a zero accumulator, at
    element (p, q): the sum over k of left (p, k) right (q, k). -/
theorem matmul_transposedRhs_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (q : Fin N) :
    FloatOps.matmul d prec l r (constant ⟨2, ![M, N]⟩ .f32 0x00000000#32) (ix2 p q) = ∑ k : Fin K, l (ix2 p k) * r (ix2 q k) := by
  subst hd
  rw [Ideal.matmul_constant_zero_apply, ← Equiv.sum_comp (contrEquiv1 (DotDims.transposedRhs M K N) K rfl rfl).symm]
  refine Finset.sum_congr rfl fun k _ => ?_
  rw [transposedRhs_lhsIdx, transposedRhs_rhsIdx]

end TransposedRhs

/-- Entry (i, j) of the logistic of a block [n, K] times the transpose of a block [p, K], accumulated from zero. -/
theorem gram_block_entry {n p K : Nat} {φ : FTy}
    (d : DotDims ⟨2, ![n, K]⟩ ⟨2, ![p, K]⟩ ⟨2, ![n, p]⟩) (hd : d = DotDims.transposedRhs n K p)
    (hc0 : (⟨2, ![n, K]⟩ : Shape).ShapeCasts ⟨2, ![n, K]⟩) (hc1 : (⟨2, ![p, K]⟩ : Shape).ShapeCasts ⟨2, ![p, K]⟩)
    (x0 : FVec Ideal ⟨2, ![n, K]⟩ φ) (x1 : FVec Ideal ⟨2, ![p, K]⟩ φ) (i : Fin n) (j : Fin p) :
    logistic (matmul d none (shapeCast ⟨2, ![n, K]⟩ x0 hc0) (shapeCast ⟨2, ![p, K]⟩ x1 hc1) (constant ⟨2, ![n, p]⟩ .f32 0x00000000#32)) (ix2 i j)
      = Ideal.logistic (∑ k : Fin K, x0 (ix2 i k) * x1 (ix2 j k)) := by
  rw [shapeCast_self, shapeCast_self]
  show FloatOps.logistic (FloatOps.matmul d none x0 x1 (constant ⟨2, ![n, p]⟩ .f32 0x00000000#32) (ix2 i j)) = _
  rw [matmul_transposedRhs_apply d hd]
  rfl

/-- Entry (r, s) of one over (one plus the exponential of minus (z times its transpose)), on the host. -/
theorem gram_host_entry {N K : Nat}
    (d : DotDims ⟨2, ![N, K]⟩ ⟨2, ![K, N]⟩ ⟨2, ![N, N]⟩) (hd : d = DotDims.plain N K N)
    (ht : (⟨2, ![N, K]⟩ : Shape).Transposes [1, 0] ⟨2, ![K, N]⟩)
    (hb : (⟨0, ![]⟩ : Shape).BroadcastsInDim ⟨2, ![N, N]⟩ ![])
    (z : FVec Ideal ⟨2, ![N, K]⟩ .f32) (r s : Fin N) :
    Host.divf (broadcastInDim ⟨2, ![N, N]⟩ ![] hb (constant (F := Ideal) ⟨0, ![]⟩ .f32 0x3F800000#32))
        (addf (broadcastInDim ⟨2, ![N, N]⟩ ![] hb (constant (F := Ideal) ⟨0, ![]⟩ .f32 0x3F800000#32))
          (Host.exp (Host.negf (Host.dotGeneral d none z (transpose ⟨2, ![K, N]⟩ [1, 0] z ht))))) (ix2 r s)
      = Ideal.logistic (∑ k : Fin K, z (ix2 r k) * z (ix2 s k)) := by
  -- the scalar one broadcast to every entry
  have hone : broadcastInDim ⟨2, ![N, N]⟩ ![] hb (constant (F := Ideal) ⟨0, ![]⟩ .f32 0x3F800000#32) (ix2 r s) = (1 : EReal) := by
    rw [broadcastInDim_apply ![] hb (constant (F := Ideal) ⟨0, ![]⟩ .f32 0x3F800000#32) (ix2 r s) ix0 (fun a => a.elim0),
      constant_apply, Ideal.ofBits_one_f32]
  -- the product with the explicit transpose: the transpose reads z at the swapped index
  have hdot : FloatOps.dotGeneral d none .single z (transpose ⟨2, ![K, N]⟩ [1, 0] z ht) (ix2 r s)
      = ∑ k : Fin K, z (ix2 r k) * z (ix2 s k) := by
    rw [Cert.LibBlocks.dotGeneral_plain_apply d hd]
    refine Finset.sum_congr rfl fun k _ => ?_
    rw [transpose_apply [1, 0] z ht (ix2 k s) (ix2 s k) (fun b => by
      match b with
      | ⟨0, _⟩ => rfl
      | ⟨1, _⟩ => rfl)]
  show Ideal.div (broadcastInDim ⟨2, ![N, N]⟩ ![] hb (constant (F := Ideal) ⟨0, ![]⟩ .f32 0x3F800000#32) (ix2 r s))
      (broadcastInDim ⟨2, ![N, N]⟩ ![] hb (constant (F := Ideal) ⟨0, ![]⟩ .f32 0x3F800000#32) (ix2 r s)
        + Ideal.exp (-(FloatOps.dotGeneral d none .single z (transpose ⟨2, ![K, N]⟩ [1, 0] z ht) (ix2 r s)))) = _
  rw [hone, hdot]
  rfl

end Cert.LibGram

end
-- ==== Proof.KI.Val2.lean ====
/-
  What region 2 leaves in its result array, at the extended reals, entry by entry.

  Point (i, j) of the 16 × 8 grid writes back the block of rows 1024 i … and columns 2048 j …: the logistic of the block
  of rows 1024 i … of the narrowed sample times the transpose of the block of its rows 2048 j …. Entry (p, q) of that is
  the logistic of the sum over k of z (1024 i + p, k) · z (2048 j + q, k). The 128 blocks tile the result array, so after
  the region its entry (r, s) is the logistic of the sum over k of z (r, k) · z (s, k).
-/
import proofs.«101961_j3100966387958_1_alg».proof.Proof.KI.Fold
import proofs.«101961_j3100966387958_1_alg».proof.Proof.LibGram
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-- Region 2's operand array (the narrowed sample, read through both input windows) and result array, at their vector types. -/
abbrev zbf (c : Dev nD) : FVec Ideal S16384x128 .bf16 := W7 m c main_v75
abbrev res76 (c : Dev nD) : FVec Ideal S16384x16384 .f32 := out76 m c

/-- The offsets of a whole-block rectangle are all zero. -/
theorem offsets_zero2 : (![0, 0] : Fin 2 → Nat) = fun _ => 0 := funext fun a => by fin_cases a <;> rfl

/-- The logistic of the inner products of the rows of z, as one function of the index. -/
def gram2 (z : FVec Ideal S16384x128 .bf16) : FVec Ideal S16384x16384 .f32 :=
  fun i => Ideal.logistic (∑ k : Fin 128, z (ix2 (i 0) k) * z (ix2 (i 1) k))

theorem gram2_apply (z : FVec Ideal S16384x128 .bf16) (i : S16384x16384.Idx) :
    gram2 z i = Ideal.logistic (∑ k : Fin 128, z (ix2 (i 0) k) * z (ix2 (i 1) k)) := rfl

attribute [irreducible] gram2

/-- The printed index maps over the 16 × 8 grid: the first input's block of rows is the result's block of rows, the
    second input's block of rows is the result's block of columns, and neither input is cut along its columns. -/
theorem index_facts2 : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0 :=
  (by decide +kernel : ∀ t : Fin grid2.N, _)

/-- Every block of the 16 × 8 tiling of the result is some point's. -/
theorem index_onto2 : ∀ (q0 : Fin 16) (q1 : Fin 8), ∃ t : Fin cfg2.N, win2_2.index t = ![q0.val, q1.val] :=
  (by decide +kernel : ∀ (q0 : Fin 16) (q1 : Fin 8), ∃ t : Fin grid2.N, win2_2.index t = ![q0.val, q1.val])

/-- Entry (p, q) of what the body stores, on blocks given as vectors: the logistic of the inner product of row p of
    the first block and row q of the second. -/
theorem stored2_entry (x0 : FVec Ideal S1024x128 .bf16) (x1 : FVec Ideal S2048x128 .bf16) (p : Fin 1024) (q : Fin 2048) :
    stored2 (F := Ideal) x0 x1 (ix2 p q) = Ideal.logistic (∑ k : Fin 128, x0 (ix2 p k) * x1 (ix2 q k)) := by
  unfold stored2
  rw [View.canon_unit_zero offsets_zero2]
  simp only [View.ld_unit_zero (S := S1024x128) offsets_zero2, View.ld_unit_zero (S := S2048x128) offsets_zero2]
  exact Cert.LibGram.gram_block_entry dot_S1024x128_S2048x128_S1024x2048_1_1_0_0_n_n rfl
    shapeCasts_S1024x128_S1024x128 shapeCasts_S2048x128_S2048x128 x0 x1 p q

/-- The same at any index j of the block and any index i of the array, when row j 0 of the first block is row i 0 of
    z and row j 1 of the second block is row i 1 of z. -/
theorem stored2_at (x0 : FVec Ideal S1024x128 .bf16) (x1 : FVec Ideal S2048x128 .bf16) (z : FVec Ideal S16384x128 .bf16)
    (j : S1024x2048.Idx) (i : S16384x16384.Idx)
    (h0 : ∀ k : Fin 128, x0 (ix2 (j 0) k) = z (ix2 (i 0) k)) (h1 : ∀ k : Fin 128, x1 (ix2 (j 1) k) = z (ix2 (i 1) k)) :
    stored2 (F := Ideal) x0 x1 j = gram2 z i := by
  obtain ⟨p, q, rfl⟩ : ∃ p q, j = ix2 p q := ⟨j 0, j 1, eq_ix2 j⟩
  refine (stored2_entry x0 x1 p q).trans ((gram2_apply z i).trans ?_).symm
  show Ideal.logistic (∑ k : Fin 128, z (ix2 (i 0) k) * z (ix2 (i 1) k))
    = Ideal.logistic (∑ k : Fin 128, x0 (ix2 p k) * x1 (ix2 q k))
  refine congrArg _ (Finset.sum_congr rfl fun k _ => ?_)
  exact (congrArg₂ (· * ·) (h0 k) (h1 k)).symm

/-- The first input's block at point t: the rows of z under the result block's rows. -/
theorem left_block2 (c : Dev nD) (t : Fin cfg2.N) (p : Fin 1024) (k : Fin 128) (r : Fin 16384)
    (hr : r.val = win2_2.index t (0 : Fin 2) * 1024 + p.val) :
    blockAt2 (E2 m) c 0 t (ix2 p k) = zbf m c (ix2 r k) := by
  obtain ⟨e0, e1, -⟩ := index_facts2 t
  show W7 m c main_v75 (((cfg2.win 0).blk t).view.emb (ix2 p k)) = W7 m c main_v75 (ix2 r k)
  refine congrArg _ (funext fun a => Fin.ext ?_)
  match a with
  | ⟨0, _⟩ => show win2_0.index t (0 : Fin 2) * 1024 + 1 * p.val = r.val; omega
  | ⟨1, _⟩ => show win2_0.index t (1 : Fin 2) * 128 + 1 * k.val = k.val; omega

/-- The second input's block at point t: the rows of z under the result block's columns. -/
theorem right_block2 (c : Dev nD) (t : Fin cfg2.N) (q : Fin 2048) (k : Fin 128) (s : Fin 16384)
    (hs : s.val = win2_2.index t (1 : Fin 2) * 2048 + q.val) :
    blockAt2 (E2 m) c 1 t (ix2 q k) = zbf m c (ix2 s k) := by
  obtain ⟨-, -, e0, e1⟩ := index_facts2 t
  show W7 m c main_v75 (((cfg2.win 1).blk t).view.emb (ix2 q k)) = W7 m c main_v75 (ix2 s k)
  refine congrArg _ (funext fun a => Fin.ext ?_)
  match a with
  | ⟨0, _⟩ => show win2_1.index t (0 : Fin 2) * 2048 + 1 * q.val = s.val; omega
  | ⟨1, _⟩ => show win2_1.index t (1 : Fin 2) * 128 + 1 * k.val = k.val; omega

/-- What point t writes back is block t of the logistic of the inner products of the rows of z. -/
theorem flushed2_eq (c : Dev nD) (t : Fin cfg2.N) :
    (dat2 (E2 m) c).flushed 2 t = ((cfg2.win 2).blk t).view.read (Elt Ideal) (gram2 (zbf m c)) := by
  show (cfg2.win 2).cut (grid2.coords t) ((dat2 (E2 m) c).after 2 t) = _
  rw [after2_2]
  funext j
  show stored2 (F := Ideal) (blockAt2 (E2 m) c 0 t) (blockAt2 (E2 m) c 1 t) ((cfg2.win 2).xinj (grid2.coords t) j)
    = gram2 (zbf m c) (((cfg2.win 2).blk t).view.emb j)
  refine stored2_at (blockAt2 (E2 m) c 0 t) (blockAt2 (E2 m) c 1 t) (zbf m c)
    ((cfg2.win 2).xinj (grid2.coords t) j) (((cfg2.win 2).blk t).view.emb j)
    (fun k => left_block2 m c t ⟨(j 0).val, (j 0).isLt⟩ k ((((cfg2.win 2).blk t).view.emb j) 0) ?_)
    (fun k => right_block2 m c t ⟨(j 1).val, (j 1).isLt⟩ k ((((cfg2.win 2).blk t).view.emb j) 1) ?_)
  · show win2_2.index t (0 : Fin 2) * 1024 + 1 * (j 0).val = win2_2.index t (0 : Fin 2) * 1024 + (j 0).val; omega
  · show win2_2.index t (1 : Fin 2) * 2048 + 1 * (j 1).val = win2_2.index t (1 : Fin 2) * 2048 + (j 1).val; omega

/-- An index of the result array is in point t's block iff each coordinate is in the block's range on its axis. -/
theorem mem_block2 (t : Fin cfg2.N) (i : S16384x16384.Idx) :
    i ∈ ((cfg2.win 2).blk t).view.set ↔ ∀ a : Fin 2, win2_2.index t a * S1024x2048.size a ≤ (i a).val
      ∧ (i a).val < win2_2.index t a * S1024x2048.size a + S1024x2048.size a := by
  show i ∈ ((View.whole main_v76).slice (win2_2.rect t)).set ↔ _
  rw [View.set_slice_whole, Rect.mem_set_unit]
  exact Iff.rfl

/-- The 128 blocks tile the result array: entry (r, s) is in the block of the point whose block index is
    (r / 1024, s / 2048). -/
theorem cover2 (i : S16384x16384.Idx) :
    ∃ t : Fin cfg2.N, (cfg2.win 2).flush t = true ∧ i ∈ ((cfg2.win 2).blk t).view.set := by
  have hi0 : (i 0).val < 16384 := (i 0).isLt
  have hi1 : (i 1).val < 16384 := (i 1).isLt
  obtain ⟨t, ht⟩ := index_onto2 ⟨(i 0).val / 1024, by omega⟩ ⟨(i 1).val / 2048, by omega⟩
  have q0 : win2_2.index t (0 : Fin 2) = (i 0).val / 1024 := congrFun ht 0
  have q1 : win2_2.index t (1 : Fin 2) = (i 1).val / 2048 := congrFun ht 1
  refine ⟨t, flush2_2 t, ?_⟩
  rw [mem_block2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 2048 ≤ (i 1).val ∧ (i 1).val < win2_2.index t (1 : Fin 2) * 2048 + 2048; omega

/-- After region 2 its result array is the logistic of the inner products of the rows of the narrowed sample. -/
theorem out76_eq (c : Dev nD) : res76 m c = gram2 (zbf m c) := by
  unfold res76 out76
  exact (dat2 (E2 m) c).arrAt_eq_of_cover 2 (gram2 (zbf m c)) (fun t _ => flushed2_eq m c t) (cover2)

/-- After region 2, entry (r, s) of its result array is the logistic of the inner product of rows r and s of the narrowed sample. -/
theorem out76_apply (c : Dev nD) (r s : Fin 16384) :
    res76 m c (ix2 r s) = Ideal.logistic (∑ k : Fin 128, zbf m c (ix2 r k) * zbf m c (ix2 s k)) := by
  exact (congrFun (out76_eq m c) (ix2 r s)).trans (gram2_apply (zbf m c) (ix2 r s))

end Cert.KernelIdeal.Hand

end
-- ==== Proof.KI.Decoder.lean ====
/-
  The decoder's result at the extended reals is the reference's.

  Region 2 leaves, at entry (r, s), the logistic of the inner product of rows r and s of the narrowed sample; the narrowing to
  the 16-bit format is the identity on the extended reals, and the sample is the reference's. The reference's
  1 / (1 + exp (−(z · zᵀ)(r, s)))  is the same number: the logistic function IS that expression at every argument, and the
  explicit transpose reads z at the swapped index.
-/
import proofs.«101961_j3100966387958_1_alg».proof.Proof.KI.Results
import proofs.«101961_j3100966387958_1_alg».proof.Proof.KI.Val2
import proofs.«101961_j3100966387958_1_alg».proof.Proof.LibGram

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Cert.ReferenceIdeal.ReadP
open scoped BigOperators

variable (m : (ℓ : Loc nD τ sig) → Buf (Elt Ideal) ℓ)

/-- Region 2's result array after the region. -/
abbrev adjK (c : Dev nD) : (⟨S16384x16384, .f32⟩ : BufTy).Contents (Elt Ideal) := W8 m c main_v76

theorem adj_eq (c : Dev nD) :
    adjK m c = val_main_v97 (F := Ideal) (a0 m c) (a1 m c) (a2 m c) (a3 m c) (a4 m c) (a5 m c) (a6 m c) (a7 m c) (a8 m c) (a9 m c) (a10 m c) := by
  have h1 : adjK m c = res76 m c := (exit2_out m c).symm
  rw [h1]
  funext i
  obtain ⟨r, s, rfl⟩ : ∃ (r : Fin 16384) (s : Fin 16384), i = ix2 r s := ⟨i 0, i 1, eq_ix2 i⟩
  rw [out76_apply m c r s]
  have hz : ∀ (p : Fin 16384) (k : Fin 128), zbf m c (ix2 p k)
      = val_main_v89 (F := Ideal) (a0 m c) (a1 m c) (a2 m c) (a3 m c) (a4 m c) (a5 m c) (a6 m c) (a7 m c) (a8 m c) (a9 m c) (a10 m c) (ix2 p k) := fun p k => by
    rw [show zbf m c = zbK m c from rfl, zbK_eq m c, truncf_apply, z_eq m c]
  simp only [hz]
  exact (Cert.LibGram.gram_host_entry Cert.ReferenceIdeal.dot_S16384x128_S128x16384_S16384x16384_1_0_0_1_n_n rfl
    Cert.ReferenceIdeal.Facts₀.transposes_S16384x128_S128x16384_1_0 Cert.ReferenceIdeal.Facts₀.bcast_S_S16384x16384
    (val_main_v89 (F := Ideal) (a0 m c) (a1 m c) (a2 m c) (a3 m c) (a4 m c) (a5 m c) (a6 m c) (a7 m c) (a8 m c) (a9 m c) (a10 m c)) r s).symm

end Cert.KernelIdeal.Hand

end
-- ==== Proof.lean ====
/-
  A variational graph auto-encoder: one normalised graph convolution (a dense projection, then gather, scale and
  scatter-add along the edges with self loops, plus a bias), two sum-aggregating graph convolutions for the mean and the
  log-variance, the sample  z = eps · exp(logvar) + mu,  and the decoder  sigmoid (z · zᵀ).

  The kernel's program runs three kernel regions among host operations: the dense projection (with a row of zeros for
  a bias), the two heads FUSED into one product of the joined features [agg | h1] with the joined weights and bias, and the
  decoder on blocks of rows of z against blocks of rows of z. The reference computes the projection, each head's two
  products and the decoder's  1 / (1 + exp (−(z · zᵀ)))  on the host.

  Frames: each of the kernel's programs is run as its eight segments in order, each region's arrays taken out of the
  unscoped buffers at its entry and put back at its exit (the decoder reads ONE array through two windows: the array's share
  is split between them); at the return every unscoped buffer holds what the fold of the segments says, and no segment writes an
  argument. The reference's frame is its run with the results dropped.
  Values, at the extended reals: changes of float format are the identity; adding the zero row changes nothing; a sum over the
  512 joined positions is the sum over the first 256 plus the sum over the last 256, and the joined matrix's columns
  and the joined bias's entries are the heads' own (no finiteness is needed: only sums are regrouped); every host
  operation between the regions is the reference's own operation on the same values; and the logistic function is
  1 / (1 + e^(−x)) at every extended real, the transpose reading z at the swapped index. So the four results are the
  reference's stages of the same arguments, and the precondition is not used.
-/
import proofs.«101961_j3100966387958_1_alg».proof.Defs
import proofs.«101961_j3100966387958_1_alg».proof.Proof.Gen.Kernel
import proofs.«101961_j3100966387958_1_alg».proof.Proof.Gen.KernelIdeal
import proofs.«101961_j3100966387958_1_alg».proof.Proof.Gen.ReferenceIdeal
import proofs.«101961_j3100966387958_1_alg».proof.Proof.Gen.Pre_finite_inputs
import proofs.«101961_j3100966387958_1_alg».proof.Proof.K.Run
import proofs.«101961_j3100966387958_1_alg».proof.Proof.KI.Decoder
import proofs.«101961_j3100966387958_1_alg».proof.Proof.RefRead
import Idealize.ShloMosaic.Adequacy
import Idealize.ShloMosaic.Init

noncomputable section

namespace Cert.Proof

open Idealize.ShloMosaic Idealize.SL.Sem
open Cert.ReferenceIdeal.ReadP

theorem frame_k : Cert.frame_Kernel := fun m ρ _ => Cert.Kernel.Hand.frame m ρ

theorem frame_ki : Cert.frame_KernelIdeal := fun m ρ _ => Cert.KernelIdeal.Hand.frame m ρ

/-- The reference's frame: its run with the results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- Both programs end with the reference's four stages of the (agreeing) arguments. -/
theorem algebraic : Cert.algebraic_KernelIdeal_ReferenceIdeal := by
  intro m ρ m' ρ' _ hagree
  refine ⟨fun c => val_main_v97 (F := Ideal) (Cert.KernelIdeal.Hand.a0 m c) (Cert.KernelIdeal.Hand.a1 m c) (Cert.KernelIdeal.Hand.a2 m c) (Cert.KernelIdeal.Hand.a3 m c) (Cert.KernelIdeal.Hand.a4 m c) (Cert.KernelIdeal.Hand.a5 m c) (Cert.KernelIdeal.Hand.a6 m c) (Cert.KernelIdeal.Hand.a7 m c) (Cert.KernelIdeal.Hand.a8 m c) (Cert.KernelIdeal.Hand.a9 m c) (Cert.KernelIdeal.Hand.a10 m c),
    fun c => val_main_v89 (F := Ideal) (Cert.KernelIdeal.Hand.a0 m c) (Cert.KernelIdeal.Hand.a1 m c) (Cert.KernelIdeal.Hand.a2 m c) (Cert.KernelIdeal.Hand.a3 m c) (Cert.KernelIdeal.Hand.a4 m c) (Cert.KernelIdeal.Hand.a5 m c) (Cert.KernelIdeal.Hand.a6 m c) (Cert.KernelIdeal.Hand.a7 m c) (Cert.KernelIdeal.Hand.a8 m c) (Cert.KernelIdeal.Hand.a9 m c) (Cert.KernelIdeal.Hand.a10 m c),
    fun c => val_main_v66 (F := Ideal) (Cert.KernelIdeal.Hand.a0 m c) (Cert.KernelIdeal.Hand.a1 m c) (Cert.KernelIdeal.Hand.a2 m c) (Cert.KernelIdeal.Hand.a3 m c) (Cert.KernelIdeal.Hand.a4 m c) (Cert.KernelIdeal.Hand.a5 m c) (Cert.KernelIdeal.Hand.a6 m c),
    fun c => val_main_v86 (F := Ideal) (Cert.KernelIdeal.Hand.a0 m c) (Cert.KernelIdeal.Hand.a1 m c) (Cert.KernelIdeal.Hand.a2 m c) (Cert.KernelIdeal.Hand.a3 m c) (Cert.KernelIdeal.Hand.a7 m c) (Cert.KernelIdeal.Hand.a8 m c) (Cert.KernelIdeal.Hand.a9 m c), ?_, ?_⟩
  · refine (θ_run Cert.KernelIdeal.defs _ _).mono (fun r h c => ?_) (Cert.KernelIdeal.Hand.run m ρ)
    exact ⟨(h c _ (Cert.KernelIdeal.Hand.mem_uc Cert.KernelIdeal.main_v76 (by decide))).trans (Cert.KernelIdeal.Hand.adj_eq m c),
      (h c _ (Cert.KernelIdeal.Hand.mem_uc Cert.KernelIdeal.main_v74 (by decide))).trans ((Cert.KernelIdeal.Hand.W8_v74 m c).trans (Cert.KernelIdeal.Hand.z_eq m c)),
      (h c _ (Cert.KernelIdeal.Hand.mem_uc Cert.KernelIdeal.main_v70 (by decide))).trans ((Cert.KernelIdeal.Hand.W8_v70 m c).trans (Cert.KernelIdeal.Hand.mu_eq m c)),
      (h c _ (Cert.KernelIdeal.Hand.mem_uc Cert.KernelIdeal.main_v71 (by decide))).trans ((Cert.KernelIdeal.Hand.W8_v71 m c).trans (Cert.KernelIdeal.Hand.lv_eq m c)),
      (h c _ (Cert.KernelIdeal.Hand.mem_uc Cert.KernelIdeal.main_arg0 (by decide))).trans (Cert.KernelIdeal.Hand.W8_kept m c Cert.KernelIdeal.main_arg0 (by decide) (by decide) (by decide) (by decide) (by decide) (by decide) (by decide) (by decide)),
      (h c _ (Cert.KernelIdeal.Hand.mem_uc Cert.KernelIdeal.main_arg1 (by decide))).trans (Cert.KernelIdeal.Hand.W8_kept m c Cert.KernelIdeal.main_arg1 (by decide) (by decide) (by decide) (by decide) (by decide) (by decide) (by decide) (by decide)),
      (h c _ (Cert.KernelIdeal.Hand.mem_uc Cert.KernelIdeal.main_arg2 (by decide))).trans (Cert.KernelIdeal.Hand.W8_kept m c Cert.KernelIdeal.main_arg2 (by decide) (by decide) (by decide) (by decide) (by decide) (by decide) (by decide) (by decide)),
      (h c _ (Cert.KernelIdeal.Hand.mem_uc Cert.KernelIdeal.main_arg3 (by decide))).trans (Cert.KernelIdeal.Hand.W8_kept m c Cert.KernelIdeal.main_arg3 (by decide) (by decide) (by decide) (by decide) (by decide) (by decide) (by decide) (by decide)),
      (h c _ (Cert.KernelIdeal.Hand.mem_uc Cert.KernelIdeal.main_arg4 (by decide))).trans (Cert.KernelIdeal.Hand.W8_kept m c Cert.KernelIdeal.main_arg4 (by decide) (by decide) (by decide) (by decide) (by decide) (by decide) (by decide) (by decide)),
      (h c _ (Cert.KernelIdeal.Hand.mem_uc Cert.KernelIdeal.main_arg5 (by decide))).trans (Cert.KernelIdeal.Hand.W8_kept m c Cert.KernelIdeal.main_arg5 (by decide) (by decide) (by decide) (by decide) (by decide) (by decide) (by decide) (by decide)),
      (h c _ (Cert.KernelIdeal.Hand.mem_uc Cert.KernelIdeal.main_arg6 (by decide))).trans (Cert.KernelIdeal.Hand.W8_kept m c Cert.KernelIdeal.main_arg6 (by decide) (by decide) (by decide) (by decide) (by decide) (by decide) (by decide) (by decide)),
      (h c _ (Cert.KernelIdeal.Hand.mem_uc Cert.KernelIdeal.main_arg7 (by decide))).trans (Cert.KernelIdeal.Hand.W8_kept m c Cert.KernelIdeal.main_arg7 (by decide) (by decide) (by decide) (by decide) (by decide) (by decide) (by decide) (by decide)),
      (h c _ (Cert.KernelIdeal.Hand.mem_uc Cert.KernelIdeal.main_arg8 (by decide))).trans (Cert.KernelIdeal.Hand.W8_kept m c Cert.KernelIdeal.main_arg8 (by decide) (by decide) (by decide) (by decide) (by decide) (by decide) (by decide) (by decide)),
      (h c _ (Cert.KernelIdeal.Hand.mem_uc Cert.KernelIdeal.main_arg9 (by decide))).trans (Cert.KernelIdeal.Hand.W8_kept m c Cert.KernelIdeal.main_arg9 (by decide) (by decide) (by decide) (by decide) (by decide) (by decide) (by decide) (by decide)),
      (h c _ (Cert.KernelIdeal.Hand.mem_uc Cert.KernelIdeal.main_arg10 (by decide))).trans (Cert.KernelIdeal.Hand.W8_kept m c Cert.KernelIdeal.main_arg10 (by decide) (by decide) (by decide) (by decide) (by decide) (by decide) (by decide) (by decide))⟩
  · refine (θ_run Cert.ReferenceIdeal.defs _ _).mono (fun r h c => ?_) (Cert.ReferenceIdeal.ValueP.run (F := Ideal) m' ρ')
    obtain ⟨h97, h89, h66, h86, hargs⟩ := h c
    obtain ⟨e0, e1, e2, e3, e4, e5, e6, e7, e8, e9, e10⟩ := hagree c
    refine ⟨h97.trans ?_, h89.trans ?_, h66.trans ?_, h86.trans ?_, hargs⟩
    · rw [val_main_v97_eq, e0, e1, e2, e3, e4, e5, e6, e7, e8, e9, e10]
    · rw [val_main_v89_eq, e0, e1, e2, e3, e4, e5, e6, e7, e8, e9, e10]
    · rw [val_main_v66_eq, e0, e1, e2, e3, e4, e5, e6]
    · rw [val_main_v86_eq, e0, e1, e2, e3, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
